-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128 .f32) (main_arg5 : FVec F S128x1 .f32) (main_arg6 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x1 .f32) (main_arg6 : FVec F S1 .f32) (main_arg7 : IVec S2x800000 32) (main_arg8 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S50000x1 : Shape := ⟨2, ![50000, 1]⟩
abbrev S5000x128 : Shape := ⟨2, ![5000, 128]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S512 : Shape := ⟨1, ![512]⟩
abbrev S2000x128 : Shape := ⟨2, ![2000, 128]⟩
abbrev S2000x1 : Shape := ⟨2, ![2000, 1]⟩
abbrev S512x128 : Shape := ⟨2, ![512, 128]⟩
abbrev S512x1 : Shape := ⟨2, ![512, 1]⟩
abbrev S2000x512 : Shape := ⟨2, ![2000, 512]⟩
abbrev S1x1 : Shape := ⟨2, ![1, 1]⟩

abbrev nBuf : Space → Nat
  | .hbm => 133
  | .vmem => 19
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x1, .f32⟩
  | 6 => ⟨S1, .f32⟩
  | 7 => ⟨S2x800000, .i32⟩
  | 8 => ⟨S50000, .i32⟩
  | 9 => ⟨S1x800000, .i32⟩
  | 10 => ⟨S800000, .i32⟩
  | 11 => ⟨S1x800000, .i32⟩
  | 12 => ⟨S800000, .i32⟩
  | 13 => ⟨S50000x1, .i32⟩
  | 14 => ⟨S50000x128, .f32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S50000, .i32⟩
  | 75 => ⟨S850000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S512, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .i32⟩
  | .local _ .vmem, ⟨13, _⟩ => ⟨S2000x1, .i32⟩
  | .local _ .vmem, ⟨14, _⟩ => ⟨S128x1, .f32⟩
  | .local _ .vmem, ⟨15, _⟩ => ⟨S1, .f32⟩
  | .local _ .vmem, ⟨16, _⟩ => ⟨S512, .f32⟩
  | .local _ .vmem, ⟨17, _⟩ => ⟨S512x128, .f32⟩
  | .local _ .vmem, ⟨18, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_c_16 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_17 : Ref sig .tc := ⟨.hbm, 110, rfl⟩
abbrev main_v76 : Ref sig .tc := ⟨.hbm, 111, rfl⟩
abbrev main_v77 : Ref sig .tc := ⟨.hbm, 112, rfl⟩
abbrev main_c_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_19 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_call3_cst : Ref sig .tc := ⟨.hbm, 129, rfl⟩
abbrev main_call3_v0 : Ref sig .tc := ⟨.hbm, 130, rfl⟩
abbrev main_v92 : Ref sig .tc := ⟨.hbm, 131, rfl⟩
abbrev main_v93 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_scratch0 : Ref sig .tc := ⟨.vmem, 17, rfl⟩
abbrev cc2_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v27 : BitVec 1 := Scalar.cmpi .eq arg0 c24_i32
  let v28 : BitVec 32 := Scalar.extui v27
  let c0_i32_14 : BitVec 32 := 0#32
  let v29 : BitVec 1 := Scalar.cmpi .ne v28 c0_i32_14
  v29

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S512x1_S512x128 : S512x1.Broadcasts S512x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  shapeCasts_S512x1_S512 : S512x1.ShapeCasts S512
  inb_S512_S512_0 : ∀ a, (![0] : Fin 1 → Nat) a + S512.size a ≤ S512.size a
  h_S512 : 0 < S512.numel
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x512_S2000x128_S512x128_0_0_1_1_n_n_wf : DotDims.WF S2000x512 S2000x128 S512x128 [0] [0] [1] [1] [] []
  dot_S2000x512_S2000x1_S512x1_0_0_1_1_n_n_wf : DotDims.WF S2000x512 S2000x1 S512x1 [0] [0] [1] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .i32 = 32 ∨ (Rect.block (s := S50000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1.size a ≤ S1.size a
  hwx2_3 : ∀ i : grid2.Coords, EltTy.bits .f32 = 32 ∨ (Rect.block (s := S1) S1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S2000x512_S2000x1_S512x1_0_0_1_1_n_n : DotDims S2000x512 S2000x1 S512x1 where
  lhsContracting := [0]
  rhsContracting := [0]
  lhsNonContracting := [1]
  rhsNonContracting := [1]
  lhsBatch := []
  rhsBatch := []
  wf := dot_S2000x512_S2000x1_S512x1_0_0_1_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v92) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v93) S512.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x1, .f32⟩
  | 6 => ⟨S1, .f32⟩
  | 7 => ⟨S2x800000, .i32⟩
  | 8 => ⟨S50000, .i32⟩
  | 9 => ⟨S1x800000, .i32⟩
  | 10 => ⟨S800000, .i32⟩
  | 11 => ⟨S1x800000, .i32⟩
  | 12 => ⟨S800000, .i32⟩
  | 13 => ⟨S50000x128, .f32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S50000, .i32⟩
  | 74 => ⟨S850000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x1, .f32⟩
  | 119 => ⟨S850000x128, .f32⟩
  | 120 => ⟨S850000x128, .f32⟩
  | 121 => ⟨S_, .f32⟩
  | 122 => ⟨S50000x128, .f32⟩
  | 123 => ⟨S850000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S_, .f32⟩
  | 4 => ⟨S512x128, .f32⟩
  | 5 => ⟨S50000x1, .i32⟩
  | 6 => ⟨S512x128, .f32⟩
  | 7 => ⟨S_, .f32⟩
  | 8 => ⟨S50000, .f32⟩
  | 9 => ⟨S_, .f32⟩
  | 10 => ⟨S512, .f32⟩
  | 11 => ⟨S50000x1, .i32⟩
  | 12 => ⟨S512, .f32⟩
  | 13 => ⟨S_, .f32⟩
  | 14 => ⟨S512, .f32⟩
  | 15 => ⟨S512, .f32⟩
  | 16 => ⟨S512x1, .f32⟩
  | 17 => ⟨S512x128, .f32⟩
  | 18 => ⟨S512x128, .f32⟩
  | 19 => ⟨S512x1, .f32⟩
  | 20 => ⟨S1x1, .f32⟩
  | 21 => ⟨S512x1, .f32⟩
  | 22 => ⟨S512x1, .f32⟩
  | 23 => ⟨S512x1, .f32⟩
  | 24 => ⟨S512x1, .f32⟩
  | 25 => ⟨S_, .f32⟩
  | 26 => ⟨S512x1, .f32⟩
  | 27 => ⟨S512x1, .f32⟩
  | 28 => ⟨S_, .f32⟩
  | 29 => ⟨S512x1, .f32⟩
  | 30 => ⟨S512x1, .f32⟩
  | 31 => ⟨S512, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_24 : Ref sig .tc := ⟨.hbm, 153, rfl⟩
abbrev main_v110 : Ref sig .tc := ⟨.hbm, 154, rfl⟩
abbrev main_v111 : Ref sig .tc := ⟨.hbm, 155, rfl⟩
abbrev main_cst_25 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  shapeCasts_S512x1_S512 : S512x1.ShapeCasts S512
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x1_S512x1_1_0_0_1_n_n_wf : DotDims.WF S512x128 S128x1 S512x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.K.Mat0.lean ====
/-
  The first matrix product, `x · w1`, as a grid of ten row blocks: per grid point the kernel loads a 5000×128 block of
  `x` and the whole 128×128 `w1`, multiplies them into a zero accumulator and stores the 5000×128 block of the product.
  Here: each window's block at a point, what the body leaves in the product's staging buffer, the body's triple,
  and the proof data and body obligation the launch theorem takes — at any float family, at the contents `V` the
  region is entered with.
-/
import proofs.«409795_j15513421873661_1_alg».proof.Proof.Gen.Kernel.Launch
import proofs.«409795_j15513421873661_1_alg».proof.Proof.Gen.Kernel.Skeleton
import proofs.«409795_j15513421873661_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the product's region is entered: every statement below is at this parameter
variable (V : (c : Dev nD) → (b : Ref sig .tc) → Buf (Elt F) ((c : Thread nD τ).loc b))

/-- Window `w`'s block at grid point `t`: the rows `5000·t … 5000·t+4999` of the left factor (window 0), the whole right
    factor (window 1), the same rows of the product (window 2), read off the arrays as the region finds them. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds the point's row block whenever the body runs, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor is fetched once, at the first point; its block index never moves, so its staging buffer holds the
    whole factor at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_out : Rect S5000x128 := Rect.unit (s := S5000x128) ![0, 0] S5000x128.size inb_S5000x128_S5000x128_0_0
abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

/-- What the body leaves in the product's staging buffer: its one store, of the row block times the right factor,
    over the whole buffer. -/
def out0_2 (x0 : Vec F S5000x128 .f32) (x1 : Vec F S128x128 .f32) : Vec F S5000x128 .f32 :=
  View.canon [⟨r0_out, k0_pay1 (View.ld x0 r0_x) (View.ld x1 r0_w)⟩]

theorem cover0_2 (p0 : Vec F S5000x128 .f32) (y : S5000x128.Idx) :
    ∃ pc ∈ ([⟨r0_out, p0⟩] : List (View.Piece (Elt F) S5000x128 .f32)), y ∈ pc.1.set :=
  View.cover_of_tiled [⟨r0_out, p0⟩] S5000x128.size (by rfl) y

set_option maxHeartbeats 1000000 in
/-- The body on whole staging buffers, the factors' at `x0`, `x1` and the product's at anything, runs to its return with
    the factors' buffers as they were and the product's at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this region on core `c`: the arrays as entered; after the body at point `t` each factor's buffer
    at its block and the product's at `out0_2` of the blocks; nothing carried between points beyond the class's
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this region, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.K.Mat1.lean ====
/-
  The second matrix product, `relu(agg1 + b1) · w2`, as a grid of ten row blocks: per grid point the kernel loads a
  5000×128 block of the left factor and the whole 128×128 `w2`, multiplies them into a zero accumulator and stores the
  5000×128 block of the product. Here: each window's block at a point, what the body leaves in the product's staging
  buffer, the body's triple, and the proof data and body obligation the launch theorem takes — at any float family,
  at the contents `V` the region is entered with.
-/
import proofs.«409795_j15513421873661_1_alg».proof.Proof.Gen.Kernel.Launch
import proofs.«409795_j15513421873661_1_alg».proof.Proof.Gen.Kernel.Skeleton
import proofs.«409795_j15513421873661_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the product's region is entered: every statement below is at this parameter
variable (V : (c : Dev nD) → (b : Ref sig .tc) → Buf (Elt F) ((c : Thread nD τ).loc b))

/-- Window `w`'s block at grid point `t`: the rows `5000·t … 5000·t+4999` of the left factor (window 0), the whole right
    factor (window 1), the same rows of the product (window 2), read off the arrays as the region finds them. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds the point's row block whenever the body runs, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right factor is fetched once, at the first point; its block index never moves, so its staging buffer holds the
    whole factor at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_out : Rect S5000x128 := Rect.unit (s := S5000x128) ![0, 0] S5000x128.size inb_S5000x128_S5000x128_0_0
abbrev r1_x : Rect S5000x128 := Rect.unit (s := S5000x128) ![0, 0] S5000x128.size inb_S5000x128_S5000x128_0_0
abbrev r1_w : Rect S128x128 := Rect.unit (s := S128x128) ![0, 0] S128x128.size inb_S128x128_S128x128_0_0

/-- What the body leaves in the product's staging buffer: its one store, of the row block times the right factor,
    over the whole buffer. -/
def out1_2 (x0 : Vec F S5000x128 .f32) (x1 : Vec F S128x128 .f32) : Vec F S5000x128 .f32 :=
  View.canon [⟨r1_out, k1_pay1 (View.ld x0 r1_x) (View.ld x1 r1_w)⟩]

theorem cover1_2 (p0 : Vec F S5000x128 .f32) (y : S5000x128.Idx) :
    ∃ pc ∈ ([⟨r1_out, p0⟩] : List (View.Piece (Elt F) S5000x128 .f32)), y ∈ pc.1.set :=
  View.cover_of_tiled [⟨r1_out, p0⟩] S5000x128.size (by rfl) y

set_option maxHeartbeats 1000000 in
/-- The body on whole staging buffers, the factors' at `x0`, `x1` and the product's at anything, runs to its return with
    the factors' buffers as they were and the product's at `out1_2 x0 x1`. -/
theorem sound_kernel1 (c : Dev nD) (E : Set ℕ) (i : grid1.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this region on core `c`: the arrays as entered; after the body at point `t` each factor's buffer
    at its block and the product's at `out1_2` of the blocks; nothing carried between points beyond the class's
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this region, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.PoolRuns.lean ====
/-
  The pooling kernel's body, case by case. The grid has 25 points, each handed a 2000-row block of the node features and
  of the graph ids. Every point adds the block's one-hot(ids)ᵀ · features to a 512×128 accumulator and the block's
  per-graph node counts to a 512×1 accumulator, both kept in scratch memory across points; the first point zeroes the
  accumulators first; the last point also divides the sums by max(count, 1), multiplies by the 128×1 weight, adds the
  bias, applies the logistic function and stores the 512 results. Three control cases: the first point (A), a middle
  point (B), the last point (C). Every load and store covers its whole buffer, so each case leaves in a buffer exactly
  the payload of its last store. Stated at any float family.
-/
import proofs.«409795_j15513421873661_1_alg».proof.Proof.Gen.Kernel.Launch
import proofs.«409795_j15513421873661_1_alg».proof.Proof.Gen.Kernel.Skeleton
import proofs.«409795_j15513421873661_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first `scf.if`'s condition (zero the accumulators), from the grid coordinate. -/
abbrev cond2_0 (i : grid2.Coords) : Prop := (Scalar.cmpi .ne (Scalar.extui (Scalar.cmpi .eq (BitVec.ofNat 32 (i 0).val) 0#32)) 0#32) = 1#1
/-- The second `scf.if`'s condition (finish and store the result). -/
abbrev cond2_1 (i : grid2.Coords) : Prop := k2_cond2 i = 1#1

/-- The accumulators are zeroed at the first point only. -/
theorem hcond2_0 : ∀ t : Fin cfg2.N, cond2_0 (grid2.coords t) ↔ t.val % 25 = 0 :=
  (by decide +kernel : ∀ t : Fin grid2.N, cond2_0 (grid2.coords t) ↔ t.val % 25 = 0)
/-- The result is stored at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

theorem hz2 : (![0, 0] : Fin 2 → Nat) = fun _ => 0 := funext fun a => by fin_cases a <;> rfl
theorem hz1 : (![0] : Fin 1 → Nat) = fun _ => 0 := funext fun a => by fin_cases a <;> rfl

set_option maxHeartbeats 2000000 in
/-- CASE A, the first point: both accumulators are zeroed, then receive the block's contribution. -/
theorem sound_pool_A (c : Dev nD) (E : Set ℕ) (i : grid2.Coords) (arg1 : Memref sig .tc .vmem S2000x128 .f32) (harg1 : arg1.IsWhole) (arg2 : Memref sig .tc .vmem S2000x1 .i32) (harg2 : arg2.IsWhole) (arg3 : Memref sig .tc .vmem S128x1 .f32) (harg3 : arg3.IsWhole) (arg4 : Memref sig .tc .vmem S1 .f32) (harg4 : arg4.IsWhole) (arg5 : Memref sig .tc .vmem S512 .f32) (harg5 : arg5.IsWhole) (arg6 : Memref sig .tc .vmem S512x128 .f32) (harg6 : arg6.IsWhole) (arg7 : Memref sig .tc .vmem S512x1 .f32) (harg7 : arg7.IsWhole)
    (hc0 : cond2_0 i) (hc1 : ¬cond2_1 i)
    (h : Vec F S2000x128 .f32) (b : Vec F S2000x1 .i32) (K : PUnit → sProp 𝕄) :
    iprop(owns (c : Thread nD τ) arg1 fullShare h ∗ owns (c : Thread nD τ) arg2 fullShare b
        ∗ (∃ d, owns (c : Thread nD τ) arg6 fullShare d) ∗ (∃ d, owns (c : Thread nD τ) arg7 fullShare d)
        ∗ (iprop(owns (c : Thread nD τ) arg1 fullShare h ∗ owns (c : Thread nD τ) arg2 fullShare b
            ∗ owns (c : Thread nD τ) arg6 fullShare (k2_pay4 b h (k2_pay1 (F := F)))
            ∗ owns (c : Thread nD τ) arg7 fullShare (k2_pay5 b (k2_pay2 (F := F)))) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%d6, %f6, -, H6⟩, ⟨%d7, %f7, -, H7⟩, Hk⟩
  subst hf0
  subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    try sl_unfold_words
    rw [View.read_writes_eq_canon _ _ _ (fun y => ⟨_, List.mem_cons_self .., View.mem_set_unit_zero hz2 inb_S512x128_S512x128_0_0 y⟩)]
    rw [View.canon_cons_unit_zero (S := S512x128) hz2]
    simp only [View.readAt_eq_ld, View.ld_unit_zero (S := S2000x1) hz2, View.ld_unit_zero (S := S2000x128) hz2,
      View.readCov_unit_zero (S := S512x128) _ hz2]
  iexists _; isplitr
  swap; · iexact H7
  ipureintro
  try sl_unfold_words
  rw [View.read_writes_eq_canon _ _ _ (fun y => ⟨_, List.mem_cons_self .., View.mem_set_unit_zero hz2 inb_S512x1_S512x1_0_0 y⟩)]
  rw [View.canon_cons_unit_zero (S := S512x1) hz2]
  simp only [View.readAt_eq_ld, View.ld_unit_zero (S := S2000x1) hz2, View.readCov_unit_zero (S := S512x1) _ hz2]

set_option maxHeartbeats 2000000 in
/-- CASE B, a middle point: both accumulators receive the block's contribution over what the point before left. -/
theorem sound_pool_B (c : Dev nD) (E : Set ℕ) (i : grid2.Coords) (arg1 : Memref sig .tc .vmem S2000x128 .f32) (harg1 : arg1.IsWhole) (arg2 : Memref sig .tc .vmem S2000x1 .i32) (harg2 : arg2.IsWhole) (arg3 : Memref sig .tc .vmem S128x1 .f32) (harg3 : arg3.IsWhole) (arg4 : Memref sig .tc .vmem S1 .f32) (harg4 : arg4.IsWhole) (arg5 : Memref sig .tc .vmem S512 .f32) (harg5 : arg5.IsWhole) (arg6 : Memref sig .tc .vmem S512x128 .f32) (harg6 : arg6.IsWhole) (arg7 : Memref sig .tc .vmem S512x1 .f32) (harg7 : arg7.IsWhole)
    (hc0 : ¬cond2_0 i) (hc1 : ¬cond2_1 i)
    (h : Vec F S2000x128 .f32) (b : Vec F S2000x1 .i32) (s : Vec F S512x128 .f32) (n : Vec F S512x1 .f32) (K : PUnit → sProp 𝕄) :
    iprop(owns (c : Thread nD τ) arg1 fullShare h ∗ owns (c : Thread nD τ) arg2 fullShare b
        ∗ owns (c : Thread nD τ) arg6 fullShare s ∗ owns (c : Thread nD τ) arg7 fullShare n
        ∗ (iprop(owns (c : Thread nD τ) arg1 fullShare h ∗ owns (c : Thread nD τ) arg2 fullShare b
            ∗ owns (c : Thread nD τ) arg6 fullShare (k2_pay4 b h s)
            ∗ owns (c : Thread nD τ) arg7 fullShare (k2_pay5 b n)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f6, %hf6, H6⟩, ⟨%f7, %hf7, H7⟩, Hk⟩
  subst hf0
  subst hf1
  subst hf6
  subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    try sl_unfold_words
    rw [View.read_writes_eq_canon _ _ _ (fun y => ⟨_, List.mem_cons_self .., View.mem_set_unit_zero hz2 inb_S512x128_S512x128_0_0 y⟩)]
    rw [View.canon_cons_unit_zero (S := S512x128) hz2]
    simp only [View.readAt_eq_ld, View.ld_unit_zero (S := S2000x1) hz2, View.ld_unit_zero (S := S2000x128) hz2,
      View.ld_unit_zero (S := S512x128) hz2]
  iexists _; isplitr
  swap; · iexact H7
  ipureintro
  try sl_unfold_words
  rw [View.read_writes_eq_canon _ _ _ (fun y => ⟨_, List.mem_cons_self .., View.mem_set_unit_zero hz2 inb_S512x1_S512x1_0_0 y⟩)]
  rw [View.canon_cons_unit_zero (S := S512x1) hz2]
  simp only [View.readAt_eq_ld, View.ld_unit_zero (S := S2000x1) hz2, View.ld_unit_zero (S := S512x1) hz2]

set_option maxHeartbeats 2000000 in
/-- CASE C, the last point: the accumulators receive the last contribution, and the result buffer receives the
    logistic of (sums / max(count, 1)) · weight + bias. -/
theorem sound_pool_C (c : Dev nD) (E : Set ℕ) (i : grid2.Coords) (arg1 : Memref sig .tc .vmem S2000x128 .f32) (harg1 : arg1.IsWhole) (arg2 : Memref sig .tc .vmem S2000x1 .i32) (harg2 : arg2.IsWhole) (arg3 : Memref sig .tc .vmem S128x1 .f32) (harg3 : arg3.IsWhole) (arg4 : Memref sig .tc .vmem S1 .f32) (harg4 : arg4.IsWhole) (arg5 : Memref sig .tc .vmem S512 .f32) (harg5 : arg5.IsWhole) (arg6 : Memref sig .tc .vmem S512x128 .f32) (harg6 : arg6.IsWhole) (arg7 : Memref sig .tc .vmem S512x1 .f32) (harg7 : arg7.IsWhole)
    (hc0 : ¬cond2_0 i) (hc1 : cond2_1 i)
    (h : Vec F S2000x128 .f32) (b : Vec F S2000x1 .i32) (w : Vec F S128x1 .f32) (bb : Vec F S1 .f32)
    (s : Vec F S512x128 .f32) (n : Vec F S512x1 .f32) (K : PUnit → sProp 𝕄) :
    iprop(owns (c : Thread nD τ) arg1 fullShare h ∗ owns (c : Thread nD τ) arg2 fullShare b
        ∗ owns (c : Thread nD τ) arg3 fullShare w ∗ owns (c : Thread nD τ) arg4 fullShare bb
        ∗ (∃ d, owns (c : Thread nD τ) arg5 fullShare d)
        ∗ owns (c : Thread nD τ) arg6 fullShare s ∗ owns (c : Thread nD τ) arg7 fullShare n
        ∗ (iprop(owns (c : Thread nD τ) arg1 fullShare h ∗ owns (c : Thread nD τ) arg2 fullShare b
            ∗ owns (c : Thread nD τ) arg3 fullShare w ∗ owns (c : Thread nD τ) arg4 fullShare bb
            ∗ owns (c : Thread nD τ) arg5 fullShare (k2_pay6 (k2_pay4 b h s) (k2_pay5 b n) w bb)
            ∗ owns (c : Thread nD τ) arg6 fullShare (k2_pay4 b h s)
            ∗ owns (c : Thread nD τ) arg7 fullShare (k2_pay5 b n)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f3, %hf3, H3⟩, ⟨%f4, %hf4, H4⟩, ⟨%d5, %f5, -, H5⟩, ⟨%f6, %hf6, H6⟩, ⟨%f7, %hf7, H7⟩, Hk⟩
  subst hf0
  subst hf1
  subst hf3
  subst hf4
  subst hf6
  subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try sl_unfold_words
    rw [View.read_writes_eq_canon _ _ _ (fun y => ⟨_, List.mem_cons_self .., View.mem_set_unit_zero hz1 inb_S512_S512_0 y⟩)]
    rw [View.canon_cons_unit_zero (S := S512) hz1]
    simp only [View.readAt_eq_ld, View.ld_unit_zero (S := S2000x1) hz2, View.ld_unit_zero (S := S2000x128) hz2,
      View.ld_unit_zero (S := S512x128) hz2, View.ld_unit_zero (S := S512x1) hz2, View.ld_unit_zero (S := S128x1) hz2,
      View.ld_unit_zero (S := S1) hz1, View.readCov_unit_zero (S := S512x128) _ hz2, View.readCov_unit_zero (S := S512x1) _ hz2]
  isplitl [H6]
  · iexists _; isplitr
    swap; · iexact H6
    ipureintro
    try sl_unfold_words
    rw [View.read_writes_eq_canon _ _ _ (fun y => ⟨_, List.mem_cons_self .., View.mem_set_unit_zero hz2 inb_S512x128_S512x128_0_0 y⟩)]
    rw [View.canon_cons_unit_zero (S := S512x128) hz2]
    simp only [View.readAt_eq_ld, View.ld_unit_zero (S := S2000x1) hz2, View.ld_unit_zero (S := S2000x128) hz2,
      View.ld_unit_zero (S := S512x128) hz2]
  iexists _; isplitr
  swap; · iexact H7
  ipureintro
  try sl_unfold_words
  rw [View.read_writes_eq_canon _ _ _ (fun y => ⟨_, List.mem_cons_self .., View.mem_set_unit_zero hz2 inb_S512x1_S512x1_0_0 y⟩)]
  rw [View.canon_cons_unit_zero (S := S512x1) hz2]
  simp only [View.readAt_eq_ld, View.ld_unit_zero (S := S2000x1) hz2, View.ld_unit_zero (S := S512x1) hz2]

end Cert.Kernel.Gen

end
-- ==== Proof.K.PoolDat.lean ====
/-
  The pooling region's proof data. What the two scratch accumulators hold after each grid point is a recursion over the
  points: `sAcc n` is the sum accumulator after point `n` (point 0 starts from the zero fill), `nAcc n` the count
  accumulator; the result block, stored at the last point, is the kernel's closing payload of the two accumulators, the
  weight and the bias. The region's invariant between points holds the two scratch buffers at those contents (at anything
  before the first point), beside the scoped buffers of the other two regions at anything. The result window is idle at
  every point but the last: its staging buffer is handed back untouched there. At any float family, at the contents `V`
  the region is entered with.
-/
import proofs.«409795_j15513421873661_1_alg».proof.Proof.K.PoolRuns

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows `2000·t … 2000·t+1999` of the node features (window 0) and of the graph
    ids (window 1), the whole weight (2), the whole bias (3), the whole result (4), read off the arrays as entered. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The two scratch accumulators, whole scoped buffers of the kernel's own. -/
abbrev scM2_0 : Memref sig .tc .vmem S512x128 .f32 := Memref.whole cc2_scratch0
abbrev scM2_1 : Memref sig .tc .vmem S512x1 .f32 := Memref.whole cc2_scratch1

/-- The sum accumulator after point `n`: the block's contribution added to what the point before left (to the zero fill at
    point 0). -/
def sAcc (c : Dev nD) : (n : ℕ) → n < cfg2.N → Vec F S512x128 .f32
  | 0, h => k2_pay4 (iblk2 V c 1 ⟨0, h⟩) (iblk2 V c 0 ⟨0, h⟩) (k2_pay1 (F := F))
  | n + 1, h => k2_pay4 (iblk2 V c 1 ⟨n + 1, h⟩) (iblk2 V c 0 ⟨n + 1, h⟩) (sAcc c n (Nat.lt_of_succ_lt h))

/-- The count accumulator after point `n`. -/
def nAcc (c : Dev nD) : (n : ℕ) → n < cfg2.N → Vec F S512x1 .f32
  | 0, h => k2_pay5 (iblk2 V c 1 ⟨0, h⟩) (k2_pay2 (F := F))
  | n + 1, h => k2_pay5 (iblk2 V c 1 ⟨n + 1, h⟩) (nAcc c n (Nat.lt_of_succ_lt h))

theorem sAcc_zero (c : Dev nD) (t : Fin cfg2.N) (hz : t.val = 0) :
    sAcc V c t.val t.isLt = k2_pay4 (iblk2 V c 1 t) (iblk2 V c 0 t) (k2_pay1 (F := F)) := by
  obtain ⟨n, hn⟩ := t; cases n with
  | zero => rfl
  | succ n => exact absurd hz (Nat.succ_ne_zero n)
theorem nAcc_zero (c : Dev nD) (t : Fin cfg2.N) (hz : t.val = 0) :
    nAcc V c t.val t.isLt = k2_pay5 (iblk2 V c 1 t) (k2_pay2 (F := F)) := by
  obtain ⟨n, hn⟩ := t; cases n with
  | zero => rfl
  | succ n => exact absurd hz (Nat.succ_ne_zero n)
theorem sAcc_pos (c : Dev nD) (t : Fin cfg2.N) (hz : t.val ≠ 0) :
    sAcc V c t.val t.isLt = k2_pay4 (iblk2 V c 1 t) (iblk2 V c 0 t) (sAcc V c (t.val - 1) (Nat.lt_of_le_of_lt (Nat.sub_le _ _) t.isLt)) := by
  obtain ⟨n, hn⟩ := t; cases n with
  | zero => exact absurd rfl hz
  | succ n => rfl
theorem nAcc_pos (c : Dev nD) (t : Fin cfg2.N) (hz : t.val ≠ 0) :
    nAcc V c t.val t.isLt = k2_pay5 (iblk2 V c 1 t) (nAcc V c (t.val - 1) (Nat.lt_of_le_of_lt (Nat.sub_le _ _) t.isLt)) := by
  obtain ⟨n, hn⟩ := t; cases n with
  | zero => exact absurd rfl hz
  | succ n => rfl

/-- What the last point stores in the result block, stated at any point (only the last point's is ever read). -/
def res2 (c : Dev nD) (t : Fin cfg2.N) : Vec F S512 .f32 :=
  k2_pay6 (sAcc V c t.val t.isLt) (nAcc V c t.val t.isLt) (iblk2 V c 2 t) (iblk2 V c 3 t)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Before the last point the result window is idle and not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last point it is live. -/
theorem liveAt2_4 : ∀ t : Fin cfg2.N, cond2_1 (grid2.coords t) → cfg2.idle 4 (grid2.coords t) = false := by decide +kernel

/-! ## The scoped buffers beside the staging buffers -/

/-- The other two regions' staging buffers, each whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- Every scoped buffer that is no staging buffer of this region: the others at anything, the two accumulators as `X0`, `X1` say. -/
def scopedAt2 (c : Dev nD) (X0 X1 : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ X0 ∗ X1)

theorem scopedRest2_at (c : Dev nD) :
    (Pipeline.scopedRest (Ix := Unit) (Name := ℕ) (U := UR sig nD τ) (Lvl := ℕ) (Val := Elt F) spec2 c : sProp 𝕄)
      = scopedAt2 c (iprop(∃ d, owns (c : Thread nD τ) scM2_0 fullShare d)) (iprop(∃ d, owns (c : Thread nD τ) scM2_1 fullShare d)) := by
  rw [scopedRest2_eq]; unfold scopedAt2; simp only [scM2_0, scM2_1, owns_whole]; try rfl

theorem scopedAt2_split (c : Dev nD) (X0 X1 : sProp 𝕄) : scopedAt2 c X0 X1 ⊢ iprop(others2 (F := F) c ∗ X0 ∗ X1) := by
  unfold scopedAt2 others2
  iintro ⟨O0, O1, O2, O3, O4, O5, O6, O7, O8, O9, HX0, HX1⟩
  isplitl [O0 O1 O2 O3 O4 O5 O6 O7 O8 O9]
  · isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact O9
  isplitl [HX0]; · iexact HX0
  iexact HX1

theorem scopedAt2_join (c : Dev nD) (X0 X1 : sProp 𝕄) : iprop(others2 (F := F) c ∗ X0 ∗ X1) ⊢ scopedAt2 c X0 X1 := by
  unfold scopedAt2 others2
  iintro ⟨⟨O0, O1, O2, O3, O4, O5, O6, O7, O8, O9⟩, HX0, HX1⟩
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [HX0]; · iexact HX0
  iexact HX1

/-! ## The invariant between points -/

/-- Before point `n`: before the first point every scoped buffer at anything (the class's invariant); afterwards the two
    accumulators at what point `n - 1` left, the other scoped buffers at anything; the generator register at some state. -/
def PhiS2 (c : Dev nD) : (n : ℕ) → n ≤ cfg2.N → sProp 𝕄
  | 0, _ => Pipeline.ΦA spec2 c
  | n + 1, hn => iprop(scopedAt2 c (owns (c : Thread nD τ) scM2_0 fullShare (sAcc V c n hn)) (owns (c : Thread nD τ) scM2_1 fullShare (nAcc V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(scopedAt2 c (owns (c : Thread nD τ) scM2_0 fullShare (sAcc V c n hn)) (owns (c : Thread nD τ) scM2_1 fullShare (nAcc V c n hn)) ∗ (∃ r, prngReg c r)) := rfl

theorem PhiS2_pos (c : Dev nD) (n : ℕ) (h : n ≤ cfg2.N) (hz : n ≠ 0) :
    PhiS2 V c n h = iprop(scopedAt2 c (owns (c : Thread nD τ) scM2_0 fullShare (sAcc V c (n - 1) (by omega))) (owns (c : Thread nD τ) scM2_1 fullShare (nAcc V c (n - 1) (by omega))) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => res2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = res2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

end Cert.Kernel.Gen

end
-- ==== Proof.K.PoolBody.lean ====
/-
  The pooling region's body obligation: at every grid point, from the invariant and the windows' staging buffers at what
  they then hold, the kernel's body runs to the invariant at the next point and the buffers at what the proof data says it
  leaves. By the point's control case: the accumulators come out of the invariant (at anything before the first point, at
  what the point before left afterwards), the case's run applies, and they go back at this point's contents; the weight's,
  the bias's and — before the last point — the result's buffers pass through untouched. Then the two entailments that tie
  the invariant to the class's invariant at the region's two ends.
-/
import proofs.«409795_j15513421873661_1_alg».proof.Proof.K.PoolDat

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (iblk2 V c 3 t) := by
  unfold Dat.leavesExact; rw [liveAt2_3 t, after2_3]

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  have hN : t.val < 25 := lt_of_lt_of_eq t.isLt (show cfg2.N = 25 from N_2)
  by_cases h0 : t.val % 25 = 0
  · -- the first point: the accumulators start from the zero fill
    have hz : t.val = 0 := by omega
    have h1 : ¬ t.val % 25 = 24 := by omega
    have hc0 : cond2_0 (grid2.coords t) := (hcond2_0 t).mpr h0
    have hc1 : ¬ cond2_1 (grid2.coords t) := fun h => h1 ((hcond2_1 t).mp h)
    rw [Dat.leavesExact_idle (dat2 V c) 4 t (idleAt2_4 t hc1) (noFlush2_4 t hc1)]
    rw [sAcc_zero V c t hz, nAcc_zero V c t hz]
    rw [PhiS2_castSucc V c t, PhiS2_zero V c _ _ hz]; unfold Pipeline.ΦA; rw [scopedRest2_at]
    iintro ⟨⟨Hsc, Hg⟩, Ho, ⟨%d0, H0⟩, ⟨%d1, H1⟩, ⟨%d2, H2⟩, ⟨%d3, H3⟩, ⟨%d4, H4⟩⟩
    ihave Hs := (scopedAt2_split c _ _) $$ Hsc
    icases Hs with ⟨Hoth, HS0, HS1⟩
    iapply (sound_pool_A c Set.univ _ _ _ _ _ _ _ _ _ _ _ _ _ _ _ hc0 hc1 (iblk2 V c 0 t) (iblk2 V c 1 t) _)
    isplitl [H0]; · iexact H0
    isplitl [H1]; · iexact H1
    isplitl [HS0]; · iexact HS0
    isplitl [HS1]; · iexact HS1
    iintro ⟨H0, H1, HS0, HS1⟩
    isplitl [Hoth HS0 HS1 Hg]
    · isplitl [Hoth HS0 HS1]
      · iapply (scopedAt2_join c _ _)
        isplitl [Hoth]; · iexact Hoth
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexists _; iexact H4
  · by_cases h1 : t.val % 25 = 24
    · -- the last point: the result block is stored
      have hz : t.val ≠ 0 := by omega
      have hc0 : ¬ cond2_0 (grid2.coords t) := fun h => h0 ((hcond2_0 t).mp h)
      have hc1 : cond2_1 (grid2.coords t) := (hcond2_1 t).mpr h1
      rw [show (dat2 V c).leavesExact 4 t = owns (c : Thread nD τ) (st2_4 t) fullShare ((dat2 V c).after 4 t) from by
        unfold Dat.leavesExact; rw [liveAt2_4 t hc1], after2_4]
      unfold res2
      rw [sAcc_pos V c t hz, nAcc_pos V c t hz]
      rw [PhiS2_castSucc V c t, PhiS2_pos V c _ _ hz]
      iintro ⟨⟨Hsc, Hg⟩, Ho, ⟨%d0, H0⟩, ⟨%d1, H1⟩, ⟨%d2, H2⟩, ⟨%d3, H3⟩, ⟨%d4, H4⟩⟩
      ihave Hs := (scopedAt2_split c _ _) $$ Hsc
      icases Hs with ⟨Hoth, HS0, HS1⟩
      iapply (sound_pool_C c Set.univ _ _ _ _ _ _ _ _ _ _ _ _ _ _ _ hc0 hc1 (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [Hoth HS0 HS1 Hg]
      · isplitl [Hoth HS0 HS1]
        · iapply (scopedAt2_join c _ _)
          isplitl [Hoth]; · iexact Hoth
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · -- a middle point
      have hz : t.val ≠ 0 := by omega
      have hc0 : ¬ cond2_0 (grid2.coords t) := fun h => h0 ((hcond2_0 t).mp h)
      have hc1 : ¬ cond2_1 (grid2.coords t) := fun h => h1 ((hcond2_1 t).mp h)
      rw [Dat.leavesExact_idle (dat2 V c) 4 t (idleAt2_4 t hc1) (noFlush2_4 t hc1)]
      rw [sAcc_pos V c t hz, nAcc_pos V c t hz]
      rw [PhiS2_castSucc V c t, PhiS2_pos V c _ _ hz]
      iintro ⟨⟨Hsc, Hg⟩, Ho, ⟨%d0, H0⟩, ⟨%d1, H1⟩, ⟨%d2, H2⟩, ⟨%d3, H3⟩, ⟨%d4, H4⟩⟩
      ihave Hs := (scopedAt2_split c _ _) $$ Hsc
      icases Hs with ⟨Hoth, HS0, HS1⟩
      iapply (sound_pool_B c Set.univ _ _ _ _ _ _ _ _ _ _ _ _ _ _ _ hc0 hc1 (iblk2 V c 0 t) (iblk2 V c 1 t) _ _ _)
      isplitl [H0]; · iexact H0
      isplitl [H1]; · iexact H1
      isplitl [HS0]; · iexact HS0
      isplitl [HS1]; · iexact HS1
      iintro ⟨H0, H1, HS0, HS1⟩
      isplitl [Hoth HS0 HS1 Hg]
      · isplitl [Hoth HS0 HS1]
        · iapply (scopedAt2_join c _ _)
          isplitl [Hoth]; · iexact Hoth
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The library's body obligation for the pooling region, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulators' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega)]
  unfold Pipeline.ΦA; rw [scopedRest2_at]
  iintro ⟨Hsc, Hg⟩
  ihave Hs := (scopedAt2_split c _ _) $$ Hsc
  icases Hs with ⟨Hoth, HS0, HS1⟩
  isplitl [Hoth HS0 HS1]
  · iapply (scopedAt2_join c _ _)
    isplitl [Hoth]; · iexact Hoth
    isplitl [HS0]; · iexists _; iexact HS0
    iexists _; iexact HS1
  iexact Hg

end Cert.Kernel.Gen

end
-- ==== Proof.K.Run.lean ====
/-
  The whole program's run. @main is twelve items: a stretch of host operations, the first matrix product's region, four
  stretches (the first graph aggregation, bias and relu), the second product's region, four stretches (the second
  aggregation, bias and relu), the pooling region. Here: what every unscoped buffer holds at each boundary between items —
  a fold from the launch memory, a host stretch applying its operations, a region leaving its arrays at what its write-backs
  leave and everything else alone —; the three regions' proof data at their entry contents; each region as a segment over
  the thread state "every unscoped buffer at the boundary's contents, the generator register at some state, nothing owed";
  and the launch: every weakly fair execution terminates with every unscoped buffer at the last boundary's contents. From it
  the arguments end as launched (no stretch writes one, no region changes one) and the result buffer ends at what the
  pooling region's last point stored. At any float family.
-/
import proofs.«409795_j15513421873661_1_alg».proof.Proof.K.Mat0
import proofs.«409795_j15513421873661_1_alg».proof.Proof.K.Mat1
import proofs.«409795_j15513421873661_1_alg».proof.Proof.K.PoolBody
import proofs.«409795_j15513421873661_1_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Y0 : Dev nD → Valuation τ sig (Elt F) := fun c b => (s₀ m ρ).mem ((c : Dev nD), b)
/-- After the host stretch `hostOps0`. -/
abbrev Y1 : Dev nD → Valuation τ sig (Elt F) := fun c => StableHlo.after hostOps0 (Y0 m ρ c)
/-- The same read at the TensorCore's references: what region 0's proof data take. -/
abbrev Yr1 : (c : Dev nD) → (b : Ref sig .tc) → Buf (Elt F) ((c : Thread nD τ).loc b) := fun c b => Y1 m ρ c b
/-- At region 0's exit: its arrays at what the pipeline leaves (the inputs as entered, the output's write-backs folded), every
    other buffer as entered. -/
def Y2 (c : Dev nD) : Valuation τ sig (Elt F) :=
  Pipeline.withArrays spec0 c (Y1 m ρ c) fun w => (dat0 (Yr1 m ρ) c).arrAt w cfg0.N
theorem Y2_arr (c : Dev nD) (w : Fin cfg0.W) :
    Y2 m ρ c (Proc.devRef .tc (Pipeline.arrRef spec0 w)) = (dat0 (Yr1 m ρ) c).arrAt w cfg0.N := by
  unfold Y2; exact Pipeline.withArrays_arr spec0 launch0.win.arr_inj c _ _ w
theorem Y2_of_ne (c : Dev nD) (b : Ref sig .tc) (hb : ∀ w, Pipeline.arrRef spec0 w ≠ b) :
    Y2 m ρ c (Proc.devRef .tc b) = Y1 m ρ c (Proc.devRef .tc b) := by
  unfold Y2; exact Pipeline.withArrays_of_ne spec0 c _ _ b hb
abbrev Yr2 : (c : Dev nD) → (b : Ref sig .tc) → Buf (Elt F) ((c : Thread nD τ).loc b) := fun c b => Y2 m ρ c b
theorem hF0 (c : Dev nD) (w : Fin cfg0.W) : (dat0 (Yr1 m ρ) c).arrAt w cfg0.N = Yr2 m ρ c (Pipeline.arrRef spec0 w) :=
  (Y2_arr m ρ c w).symm
theorem hrest0 (c : Dev nD) : ∀ b, b ∉ Finset.univ.image (Pipeline.arrRef spec0) → Yr2 m ρ c b = Yr1 m ρ c b :=
  fun b hb => Y2_of_ne m ρ c b fun w e => hb (Finset.mem_image.mpr ⟨w, Finset.mem_univ _, e⟩)
/-- After the host stretch `hostOps1`. -/
abbrev Y3 : Dev nD → Valuation τ sig (Elt F) := fun c => StableHlo.after hostOps1 (Y2 m ρ c)
/-- After the host stretch `hostOps1_1`. -/
abbrev Y4 : Dev nD → Valuation τ sig (Elt F) := fun c => StableHlo.after hostOps1_1 (Y3 m ρ c)
/-- After the host stretch `hostOps1_2`. -/
abbrev Y5 : Dev nD → Valuation τ sig (Elt F) := fun c => StableHlo.after hostOps1_2 (Y4 m ρ c)
/-- After the host stretch `hostOps1_3`. -/
abbrev Y6 : Dev nD → Valuation τ sig (Elt F) := fun c => StableHlo.after hostOps1_3 (Y5 m ρ c)
/-- The same read at the TensorCore's references: what region 1's proof data take. -/
abbrev Yr6 : (c : Dev nD) → (b : Ref sig .tc) → Buf (Elt F) ((c : Thread nD τ).loc b) := fun c b => Y6 m ρ c b
/-- At region 1's exit: its arrays at what the pipeline leaves (the inputs as entered, the output's write-backs folded), every
    other buffer as entered. -/
def Y7 (c : Dev nD) : Valuation τ sig (Elt F) :=
  Pipeline.withArrays spec1 c (Y6 m ρ c) fun w => (dat1 (Yr6 m ρ) c).arrAt w cfg1.N
theorem Y7_arr (c : Dev nD) (w : Fin cfg1.W) :
    Y7 m ρ c (Proc.devRef .tc (Pipeline.arrRef spec1 w)) = (dat1 (Yr6 m ρ) c).arrAt w cfg1.N := by
  unfold Y7; exact Pipeline.withArrays_arr spec1 launch1.win.arr_inj c _ _ w
theorem Y7_of_ne (c : Dev nD) (b : Ref sig .tc) (hb : ∀ w, Pipeline.arrRef spec1 w ≠ b) :
    Y7 m ρ c (Proc.devRef .tc b) = Y6 m ρ c (Proc.devRef .tc b) := by
  unfold Y7; exact Pipeline.withArrays_of_ne spec1 c _ _ b hb
abbrev Yr7 : (c : Dev nD) → (b : Ref sig .tc) → Buf (Elt F) ((c : Thread nD τ).loc b) := fun c b => Y7 m ρ c b
theorem hF1 (c : Dev nD) (w : Fin cfg1.W) : (dat1 (Yr6 m ρ) c).arrAt w cfg1.N = Yr7 m ρ c (Pipeline.arrRef spec1 w) :=
  (Y7_arr m ρ c w).symm
theorem hrest1 (c : Dev nD) : ∀ b, b ∉ Finset.univ.image (Pipeline.arrRef spec1) → Yr7 m ρ c b = Yr6 m ρ c b :=
  fun b hb => Y7_of_ne m ρ c b fun w e => hb (Finset.mem_image.mpr ⟨w, Finset.mem_univ _, e⟩)
/-- After the host stretch `hostOps2`. -/
abbrev Y8 : Dev nD → Valuation τ sig (Elt F) := fun c => StableHlo.after hostOps2 (Y7 m ρ c)
/-- After the host stretch `hostOps2_1`. -/
abbrev Y9 : Dev nD → Valuation τ sig (Elt F) := fun c => StableHlo.after hostOps2_1 (Y8 m ρ c)
/-- After the host stretch `hostOps2_2`. -/
abbrev Y10 : Dev nD → Valuation τ sig (Elt F) := fun c => StableHlo.after hostOps2_2 (Y9 m ρ c)
/-- After the host stretch `hostOps2_3`. -/
abbrev Y11 : Dev nD → Valuation τ sig (Elt F) := fun c => StableHlo.after hostOps2_3 (Y10 m ρ c)
/-- The same read at the TensorCore's references: what region 2's proof data take. -/
abbrev Yr11 : (c : Dev nD) → (b : Ref sig .tc) → Buf (Elt F) ((c : Thread nD τ).loc b) := fun c b => Y11 m ρ c b
/-- At region 2's exit: its arrays at what the pipeline leaves (the inputs as entered, the output's write-backs folded), every
    other buffer as entered. -/
def Y12 (c : Dev nD) : Valuation τ sig (Elt F) :=
  Pipeline.withArrays spec2 c (Y11 m ρ c) fun w => (dat2 (Yr11 m ρ) c).arrAt w cfg2.N
theorem Y12_arr (c : Dev nD) (w : Fin cfg2.W) :
    Y12 m ρ c (Proc.devRef .tc (Pipeline.arrRef spec2 w)) = (dat2 (Yr11 m ρ) c).arrAt w cfg2.N := by
  unfold Y12; exact Pipeline.withArrays_arr spec2 launch2.win.arr_inj c _ _ w
theorem Y12_of_ne (c : Dev nD) (b : Ref sig .tc) (hb : ∀ w, Pipeline.arrRef spec2 w ≠ b) :
    Y12 m ρ c (Proc.devRef .tc b) = Y11 m ρ c (Proc.devRef .tc b) := by
  unfold Y12; exact Pipeline.withArrays_of_ne spec2 c _ _ b hb
abbrev Yr12 : (c : Dev nD) → (b : Ref sig .tc) → Buf (Elt F) ((c : Thread nD τ).loc b) := fun c b => Y12 m ρ c b
theorem hF2 (c : Dev nD) (w : Fin cfg2.W) : (dat2 (Yr11 m ρ) c).arrAt w cfg2.N = Yr12 m ρ c (Pipeline.arrRef spec2 w) :=
  (Y12_arr m ρ c w).symm
theorem hrest2 (c : Dev nD) : ∀ b, b ∉ Finset.univ.image (Pipeline.arrRef spec2) → Yr12 m ρ c b = Yr11 m ρ c b :=
  fun b hb => Y12_of_ne m ρ c b fun w e => hb (Finset.mem_image.mpr ⟨w, Finset.mem_univ _, e⟩)

/-- Region 0 changes no buffer but its product `main_v5`: an input array is never written, a buffer it does not window bypasses it. -/
theorem Y2_keep (c : Dev nD) (b : Ref sig .tc) (hb : b ≠ main_v5) :
    Y2 m ρ c (Proc.devRef .tc b) = Y1 m ρ c (Proc.devRef .tc b) := by
  by_cases h : ∀ w, Pipeline.arrRef spec0 w ≠ b
  · exact Y2_of_ne m ρ c b h
  · push Not at h; obtain ⟨w, rfl⟩ := h
    rw [Y2_arr]
    match w with
    | ⟨0, _⟩ => exact ((dat0 (Yr1 m ρ) c).arrAt_in 0 rfl _).trans (A_eq0 (Yr1 m ρ) c 0)
    | ⟨1, _⟩ => exact ((dat0 (Yr1 m ρ) c).arrAt_in 1 rfl _).trans (A_eq0 (Yr1 m ρ) c 1)
    | ⟨2, _⟩ => exact absurd rfl hb
/-- Region 1 changes no buffer but its product `main_v49`: an input array is never written, a buffer it does not window bypasses it. -/
theorem Y7_keep (c : Dev nD) (b : Ref sig .tc) (hb : b ≠ main_v49) :
    Y7 m ρ c (Proc.devRef .tc b) = Y6 m ρ c (Proc.devRef .tc b) := by
  by_cases h : ∀ w, Pipeline.arrRef spec1 w ≠ b
  · exact Y7_of_ne m ρ c b h
  · push Not at h; obtain ⟨w, rfl⟩ := h
    rw [Y7_arr]
    match w with
    | ⟨0, _⟩ => exact ((dat1 (Yr6 m ρ) c).arrAt_in 0 rfl _).trans (A_eq1 (Yr6 m ρ) c 0)
    | ⟨1, _⟩ => exact ((dat1 (Yr6 m ρ) c).arrAt_in 1 rfl _).trans (A_eq1 (Yr6 m ρ) c 1)
    | ⟨2, _⟩ => exact absurd rfl hb
/-- Region 2 changes no buffer but its product `main_v93`: an input array is never written, a buffer it does not window bypasses it. -/
theorem Y12_keep (c : Dev nD) (b : Ref sig .tc) (hb : b ≠ main_v93) :
    Y12 m ρ c (Proc.devRef .tc b) = Y11 m ρ c (Proc.devRef .tc b) := by
  by_cases h : ∀ w, Pipeline.arrRef spec2 w ≠ b
  · exact Y12_of_ne m ρ c b h
  · push Not at h; obtain ⟨w, rfl⟩ := h
    rw [Y12_arr]
    match w with
    | ⟨0, _⟩ => exact ((dat2 (Yr11 m ρ) c).arrAt_in 0 rfl _).trans (A_eq2 (Yr11 m ρ) c 0)
    | ⟨1, _⟩ => exact ((dat2 (Yr11 m ρ) c).arrAt_in 1 rfl _).trans (A_eq2 (Yr11 m ρ) c 1)
    | ⟨2, _⟩ => exact ((dat2 (Yr11 m ρ) c).arrAt_in 2 rfl _).trans (A_eq2 (Yr11 m ρ) c 2)
    | ⟨3, _⟩ => exact ((dat2 (Yr11 m ρ) c).arrAt_in 3 rfl _).trans (A_eq2 (Yr11 m ρ) c 3)
    | ⟨4, _⟩ => exact absurd rfl hb

/-- `main_arg0` reaches the end as launched: no host stretch writes it and no region changes it. -/
theorem Y12_main_arg0 (c : Dev nD) : Y12 m ρ c (Proc.devRef .tc main_arg0) = m ((c : Thread nD τ).loc main_arg0) :=
  (Y12_keep m ρ c main_arg0 (by decide)).trans <| (StableHlo.after_of_writes_sub hostOps2_3 _ hostOps2_3_writes (r := main_arg0) (by decide)).trans <|
  (StableHlo.after_of_writes_sub hostOps2_2 _ hostOps2_2_writes (r := main_arg0) (by decide)).trans <| (StableHlo.after_of_writes_sub hostOps2_1 _ hostOps2_1_writes (r := main_arg0) (by decide)).trans <|
  (StableHlo.after_of_writes_sub hostOps2 _ hostOps2_writes (r := main_arg0) (by decide)).trans <| (Y7_keep m ρ c main_arg0 (by decide)).trans <|
  (StableHlo.after_of_writes_sub hostOps1_3 _ hostOps1_3_writes (r := main_arg0) (by decide)).trans <| (StableHlo.after_of_writes_sub hostOps1_2 _ hostOps1_2_writes (r := main_arg0) (by decide)).trans <|
  (StableHlo.after_of_writes_sub hostOps1_1 _ hostOps1_1_writes (r := main_arg0) (by decide)).trans <| (StableHlo.after_of_writes_sub hostOps1 _ hostOps1_writes (r := main_arg0) (by decide)).trans <|
  (Y2_keep m ρ c main_arg0 (by decide)).trans <| (StableHlo.after_of_writes_sub hostOps0 _ hostOps0_writes (r := main_arg0) (by decide)).trans rfl
/-- `main_arg1` reaches the end as launched: no host stretch writes it and no region changes it. -/
theorem Y12_main_arg1 (c : Dev nD) : Y12 m ρ c (Proc.devRef .tc main_arg1) = m ((c : Thread nD τ).loc main_arg1) :=
  (Y12_keep m ρ c main_arg1 (by decide)).trans <| (StableHlo.after_of_writes_sub hostOps2_3 _ hostOps2_3_writes (r := main_arg1) (by decide)).trans <|
  (StableHlo.after_of_writes_sub hostOps2_2 _ hostOps2_2_writes (r := main_arg1) (by decide)).trans <| (StableHlo.after_of_writes_sub hostOps2_1 _ hostOps2_1_writes (r := main_arg1) (by decide)).trans <|
  (StableHlo.after_of_writes_sub hostOps2 _ hostOps2_writes (r := main_arg1) (by decide)).trans <| (Y7_keep m ρ c main_arg1 (by decide)).trans <|
  (StableHlo.after_of_writes_sub hostOps1_3 _ hostOps1_3_writes (r := main_arg1) (by decide)).trans <| (StableHlo.after_of_writes_sub hostOps1_2 _ hostOps1_2_writes (r := main_arg1) (by decide)).trans <|
  (StableHlo.after_of_writes_sub hostOps1_1 _ hostOps1_1_writes (r := main_arg1) (by decide)).trans <| (StableHlo.after_of_writes_sub hostOps1 _ hostOps1_writes (r := main_arg1) (by decide)).trans <|
  (Y2_keep m ρ c main_arg1 (by decide)).trans <| (StableHlo.after_of_writes_sub hostOps0 _ hostOps0_writes (r := main_arg1) (by decide)).trans rfl
/-- `main_arg2` reaches the end as launched: no host stretch writes it and no region changes it. -/
theorem Y12_main_arg2 (c : Dev nD) : Y12 m ρ c (Proc.devRef .tc main_arg2) = m ((c : Thread nD τ).loc main_arg2) :=
  (Y12_keep m ρ c main_arg2 (by decide)).trans <| (StableHlo.after_of_writes_sub hostOps2_3 _ hostOps2_3_writes (r := main_arg2) (by decide)).trans <|
  (StableHlo.after_of_writes_sub hostOps2_2 _ hostOps2_2_writes (r := main_arg2) (by decide)).trans <| (StableHlo.after_of_writes_sub hostOps2_1 _ hostOps2_1_writes (r := main_arg2) (by decide)).trans <|
  (StableHlo.after_of_writes_sub hostOps2 _ hostOps2_writes (r := main_arg2) (by decide)).trans <| (Y7_keep m ρ c main_arg2 (by decide)).trans <|
  (StableHlo.after_of_writes_sub hostOps1_3 _ hostOps1_3_writes (r := main_arg2) (by decide)).trans <| (StableHlo.after_of_writes_sub hostOps1_2 _ hostOps1_2_writes (r := main_arg2) (by decide)).trans <|
  (StableHlo.after_of_writes_sub hostOps1_1 _ hostOps1_1_writes (r := main_arg2) (by decide)).trans <| (StableHlo.after_of_writes_sub hostOps1 _ hostOps1_writes (r := main_arg2) (by decide)).trans <|
  (Y2_keep m ρ c main_arg2 (by decide)).trans <| (StableHlo.after_of_writes_sub hostOps0 _ hostOps0_writes (r := main_arg2) (by decide)).trans rfl
/-- `main_arg3` reaches the end as launched: no host stretch writes it and no region changes it. -/
theorem Y12_main_arg3 (c : Dev nD) : Y12 m ρ c (Proc.devRef .tc main_arg3) = m ((c : Thread nD τ).loc main_arg3) :=
  (Y12_keep m ρ c main_arg3 (by decide)).trans <| (StableHlo.after_of_writes_sub hostOps2_3 _ hostOps2_3_writes (r := main_arg3) (by decide)).trans <|
  (StableHlo.after_of_writes_sub hostOps2_2 _ hostOps2_2_writes (r := main_arg3) (by decide)).trans <| (StableHlo.after_of_writes_sub hostOps2_1 _ hostOps2_1_writes (r := main_arg3) (by decide)).trans <|
  (StableHlo.after_of_writes_sub hostOps2 _ hostOps2_writes (r := main_arg3) (by decide)).trans <| (Y7_keep m ρ c main_arg3 (by decide)).trans <|
  (StableHlo.after_of_writes_sub hostOps1_3 _ hostOps1_3_writes (r := main_arg3) (by decide)).trans <| (StableHlo.after_of_writes_sub hostOps1_2 _ hostOps1_2_writes (r := main_arg3) (by decide)).trans <|
  (StableHlo.after_of_writes_sub hostOps1_1 _ hostOps1_1_writes (r := main_arg3) (by decide)).trans <| (StableHlo.after_of_writes_sub hostOps1 _ hostOps1_writes (r := main_arg3) (by decide)).trans <|
  (Y2_keep m ρ c main_arg3 (by decide)).trans <| (StableHlo.after_of_writes_sub hostOps0 _ hostOps0_writes (r := main_arg3) (by decide)).trans rfl
/-- `main_arg4` reaches the end as launched: no host stretch writes it and no region changes it. -/
theorem Y12_main_arg4 (c : Dev nD) : Y12 m ρ c (Proc.devRef .tc main_arg4) = m ((c : Thread nD τ).loc main_arg4) :=
  (Y12_keep m ρ c main_arg4 (by decide)).trans <| (StableHlo.after_of_writes_sub hostOps2_3 _ hostOps2_3_writes (r := main_arg4) (by decide)).trans <|
  (StableHlo.after_of_writes_sub hostOps2_2 _ hostOps2_2_writes (r := main_arg4) (by decide)).trans <| (StableHlo.after_of_writes_sub hostOps2_1 _ hostOps2_1_writes (r := main_arg4) (by decide)).trans <|
  (StableHlo.after_of_writes_sub hostOps2 _ hostOps2_writes (r := main_arg4) (by decide)).trans <| (Y7_keep m ρ c main_arg4 (by decide)).trans <|
  (StableHlo.after_of_writes_sub hostOps1_3 _ hostOps1_3_writes (r := main_arg4) (by decide)).trans <| (StableHlo.after_of_writes_sub hostOps1_2 _ hostOps1_2_writes (r := main_arg4) (by decide)).trans <|
  (StableHlo.after_of_writes_sub hostOps1_1 _ hostOps1_1_writes (r := main_arg4) (by decide)).trans <| (StableHlo.after_of_writes_sub hostOps1 _ hostOps1_writes (r := main_arg4) (by decide)).trans <|
  (Y2_keep m ρ c main_arg4 (by decide)).trans <| (StableHlo.after_of_writes_sub hostOps0 _ hostOps0_writes (r := main_arg4) (by decide)).trans rfl
/-- `main_arg5` reaches the end as launched: no host stretch writes it and no region changes it. -/
theorem Y12_main_arg5 (c : Dev nD) : Y12 m ρ c (Proc.devRef .tc main_arg5) = m ((c : Thread nD τ).loc main_arg5) :=
  (Y12_keep m ρ c main_arg5 (by decide)).trans <| (StableHlo.after_of_writes_sub hostOps2_3 _ hostOps2_3_writes (r := main_arg5) (by decide)).trans <|
  (StableHlo.after_of_writes_sub hostOps2_2 _ hostOps2_2_writes (r := main_arg5) (by decide)).trans <| (StableHlo.after_of_writes_sub hostOps2_1 _ hostOps2_1_writes (r := main_arg5) (by decide)).trans <|
  (StableHlo.after_of_writes_sub hostOps2 _ hostOps2_writes (r := main_arg5) (by decide)).trans <| (Y7_keep m ρ c main_arg5 (by decide)).trans <|
  (StableHlo.after_of_writes_sub hostOps1_3 _ hostOps1_3_writes (r := main_arg5) (by decide)).trans <| (StableHlo.after_of_writes_sub hostOps1_2 _ hostOps1_2_writes (r := main_arg5) (by decide)).trans <|
  (StableHlo.after_of_writes_sub hostOps1_1 _ hostOps1_1_writes (r := main_arg5) (by decide)).trans <| (StableHlo.after_of_writes_sub hostOps1 _ hostOps1_writes (r := main_arg5) (by decide)).trans <|
  (Y2_keep m ρ c main_arg5 (by decide)).trans <| (StableHlo.after_of_writes_sub hostOps0 _ hostOps0_writes (r := main_arg5) (by decide)).trans rfl
/-- `main_arg6` reaches the end as launched: no host stretch writes it and no region changes it. -/
theorem Y12_main_arg6 (c : Dev nD) : Y12 m ρ c (Proc.devRef .tc main_arg6) = m ((c : Thread nD τ).loc main_arg6) :=
  (Y12_keep m ρ c main_arg6 (by decide)).trans <| (StableHlo.after_of_writes_sub hostOps2_3 _ hostOps2_3_writes (r := main_arg6) (by decide)).trans <|
  (StableHlo.after_of_writes_sub hostOps2_2 _ hostOps2_2_writes (r := main_arg6) (by decide)).trans <| (StableHlo.after_of_writes_sub hostOps2_1 _ hostOps2_1_writes (r := main_arg6) (by decide)).trans <|
  (StableHlo.after_of_writes_sub hostOps2 _ hostOps2_writes (r := main_arg6) (by decide)).trans <| (Y7_keep m ρ c main_arg6 (by decide)).trans <|
  (StableHlo.after_of_writes_sub hostOps1_3 _ hostOps1_3_writes (r := main_arg6) (by decide)).trans <| (StableHlo.after_of_writes_sub hostOps1_2 _ hostOps1_2_writes (r := main_arg6) (by decide)).trans <|
  (StableHlo.after_of_writes_sub hostOps1_1 _ hostOps1_1_writes (r := main_arg6) (by decide)).trans <| (StableHlo.after_of_writes_sub hostOps1 _ hostOps1_writes (r := main_arg6) (by decide)).trans <|
  (Y2_keep m ρ c main_arg6 (by decide)).trans <| (StableHlo.after_of_writes_sub hostOps0 _ hostOps0_writes (r := main_arg6) (by decide)).trans rfl
/-- `main_arg7` reaches the end as launched: no host stretch writes it and no region changes it. -/
theorem Y12_main_arg7 (c : Dev nD) : Y12 m ρ c (Proc.devRef .tc main_arg7) = m ((c : Thread nD τ).loc main_arg7) :=
  (Y12_keep m ρ c main_arg7 (by decide)).trans <| (StableHlo.after_of_writes_sub hostOps2_3 _ hostOps2_3_writes (r := main_arg7) (by decide)).trans <|
  (StableHlo.after_of_writes_sub hostOps2_2 _ hostOps2_2_writes (r := main_arg7) (by decide)).trans <| (StableHlo.after_of_writes_sub hostOps2_1 _ hostOps2_1_writes (r := main_arg7) (by decide)).trans <|
  (StableHlo.after_of_writes_sub hostOps2 _ hostOps2_writes (r := main_arg7) (by decide)).trans <| (Y7_keep m ρ c main_arg7 (by decide)).trans <|
  (StableHlo.after_of_writes_sub hostOps1_3 _ hostOps1_3_writes (r := main_arg7) (by decide)).trans <| (StableHlo.after_of_writes_sub hostOps1_2 _ hostOps1_2_writes (r := main_arg7) (by decide)).trans <|
  (StableHlo.after_of_writes_sub hostOps1_1 _ hostOps1_1_writes (r := main_arg7) (by decide)).trans <| (StableHlo.after_of_writes_sub hostOps1 _ hostOps1_writes (r := main_arg7) (by decide)).trans <|
  (Y2_keep m ρ c main_arg7 (by decide)).trans <| (StableHlo.after_of_writes_sub hostOps0 _ hostOps0_writes (r := main_arg7) (by decide)).trans rfl
/-- `main_arg8` reaches the end as launched: no host stretch writes it and no region changes it. -/
theorem Y12_main_arg8 (c : Dev nD) : Y12 m ρ c (Proc.devRef .tc main_arg8) = m ((c : Thread nD τ).loc main_arg8) :=
  (Y12_keep m ρ c main_arg8 (by decide)).trans <| (StableHlo.after_of_writes_sub hostOps2_3 _ hostOps2_3_writes (r := main_arg8) (by decide)).trans <|
  (StableHlo.after_of_writes_sub hostOps2_2 _ hostOps2_2_writes (r := main_arg8) (by decide)).trans <| (StableHlo.after_of_writes_sub hostOps2_1 _ hostOps2_1_writes (r := main_arg8) (by decide)).trans <|
  (StableHlo.after_of_writes_sub hostOps2 _ hostOps2_writes (r := main_arg8) (by decide)).trans <| (Y7_keep m ρ c main_arg8 (by decide)).trans <|
  (StableHlo.after_of_writes_sub hostOps1_3 _ hostOps1_3_writes (r := main_arg8) (by decide)).trans <| (StableHlo.after_of_writes_sub hostOps1_2 _ hostOps1_2_writes (r := main_arg8) (by decide)).trans <|
  (StableHlo.after_of_writes_sub hostOps1_1 _ hostOps1_1_writes (r := main_arg8) (by decide)).trans <| (StableHlo.after_of_writes_sub hostOps1 _ hostOps1_writes (r := main_arg8) (by decide)).trans <|
  (Y2_keep m ρ c main_arg8 (by decide)).trans <| (StableHlo.after_of_writes_sub hostOps0 _ hostOps0_writes (r := main_arg8) (by decide)).trans rfl

/-- The result buffer ends at the pooling region's product: what its write-backs leave in its output array. -/
theorem Y12_result (c : Dev nD) : Y12 m ρ c (Proc.devRef .tc main_v93) = (dat2 (Yr11 m ρ) c).arrAt 4 cfg2.N :=
  Y12_arr m ρ c 4

/-! ## The proof data family and the thread state -/

abbrev admK : (p : Fin 3) → (pcfgs (F := F) p).Adm := fun p => (cfgs p).toPCfg_adm
/-- Every region's proof data, each at its region's entry contents. -/
def pdatsK : (p : Fin 3) → (c : Dev nD) → Dat τ (Elt F) Unit ℕ (UR sig nD τ) ℕ (Pipeline.pin (pcfgs (F := F)) admK p) c
  | ⟨0, _⟩ => fun c => dat0 (Yr1 m ρ) c
  | ⟨1, _⟩ => fun c => dat1 (Yr6 m ρ) c
  | ⟨2, _⟩ => fun c => dat2 (Yr11 m ρ) c
abbrev 𝒱K : Variants := Variants.none
abbrev LK : GSem nD τ sig → Finset Unit := fun _ => ∅
abbrev lvK : GSem nD τ sig → Unit → ℕ := fun _ _ => 0
/-- What rides beside the buffers through every item: the generator register at some state, and the core owing nothing. -/
abbrev Rid (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rid

theorem mem_ucK (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev TnK (c : Dev nD) : sProp 𝕄 := iprop(StableHlo.held (c : Thread nD τ) (Pipeline.ucRefs τ sig) (Y12 m ρ c) ∗ ∃ r, prngReg c r)

/-! ## The regions as segments -/

set_option backward.isDefEq.respectTransparency.types false in
/-- Region 0 over the thread state: entered from every unscoped buffer at `Y1`, left at `Y2`. Its arrays are split out of
    the unscoped buffers and put back at what the write-backs leave; the generator register goes into the invariant and comes
    back; nothing is owed; the kernel has no semaphore of its own. -/
def regK0 : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (Yr1 m ρ) c).loose
  hwaits := Pipeline.hwaits_of_owed_zero _ _ _ _ LK lvK 0 fun _ _ => rfl
  pre c := iprop(StableHlo.held (c : Thread nD τ) (Pipeline.ucRefs τ sig) (Y1 m ρ c) ∗ Rid c)
  post c := iprop(StableHlo.held (c : Thread nD τ) (Pipeline.ucRefs τ sig) (Y2 m ρ c) ∗ Rid c)
  X c := iprop(∃ r, prngReg c r)
  Y c := iprop(∃ r, prngReg c r)
  Z c := Pipeline.unscopedRest (Ix := Unit) (Name := ℕ) (U := UR sig nD τ) (Lvl := ℕ) spec0 c (Yr1 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (Yr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (Yr1 m ρ c) (Yr2 m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Y6`, left at `Y7`. Its arrays are split out of
    the unscoped buffers and put back at what the write-backs leave; the generator register goes into the invariant and comes
    back; nothing is owed; the kernel has no semaphore of its own. -/
def regK1 : Pipeline.RegionSeg (pcfgs (F := F)) admK (pdatsK m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (Yr6 m ρ) c).loose
  hwaits := Pipeline.hwaits_of_owed_zero _ _ _ _ LK lvK 1 fun _ _ => rfl
  pre c := iprop(StableHlo.held (c : Thread nD τ) (Pipeline.ucRefs τ sig) (Y6 m ρ c) ∗ Rid c)
  post c := iprop(StableHlo.held (c : Thread nD τ) (Pipeline.ucRefs τ sig) (Y7 m ρ c) ∗ Rid c)
  X c := iprop(∃ r, prngReg c r)
  Y c := iprop(∃ r, prngReg c r)
  Z c := Pipeline.unscopedRest (Ix := Unit) (Name := ℕ) (U := UR sig nD τ) (Lvl := ℕ) spec1 c (Yr6 m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (Yr6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (Yr6 m ρ c) (Yr7 m ρ c) ((pdatsK m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Y11`, left at `Y12`. Its arrays are split out of
    the unscoped buffers and put back at what the write-backs leave; the generator register goes into the invariant and comes
    back; nothing is owed; the kernel has no semaphore of its own. -/
def regK2 : Pipeline.RegionSeg (pcfgs (F := F)) admK (pdatsK m ρ) () defs₀ 𝒱K LK lvK 2 where
  win := launch2.win.to₀
  block_pos := launch2.block_pos
  stage_whole := launch2.stage_whole
  K := PEmpty
  osem k := k.elim
  ho := Pipeline.OwnSemFacts.none _
  hbody c := (body_obligation2 (Yr11 m ρ) c).loose
  hwaits := Pipeline.hwaits_of_owed_zero _ _ _ _ LK lvK 2 fun _ _ => rfl
  pre c := iprop(StableHlo.held (c : Thread nD τ) (Pipeline.ucRefs τ sig) (Y11 m ρ c) ∗ Rid c)
  post c := iprop(TnK m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Yr11 m ρ c)
  hentry c := by
    rw [Pipeline.ownSems0_none]
    have hsplit := Pipeline.arrays_of_unscopedBufs (p := 2) (pcfgs (F := F)) admK (pdatsK m ρ) launch2.win launch2.arr_whole c
      ((pdatsK m ρ 2 c).share_full fun _ => rfl) (Yr11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 2 c).Φ 0 = (dat2 (Yr11 m ρ) c).Φ 0 from rfl]
    iintro ⟨Hp, -, Hr⟩
    iapply (hin2 (Yr11 m ρ) c)
    unfold Pipeline.ΦA
    isplitl [Hr]; · iexact Hr
    iexact Hp
  hout c := by
    rw [Pipeline.ownSems0_none, show (pdatsK m ρ 2 c).Φ (Fin.last _) = (dat2 (Yr11 m ρ) c).Φ (Fin.last cfg2.N) from rfl]
    iintro HP
    ihave H := (hout2 (Yr11 m ρ) c) $$ HP
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdatsK m ρ) ((pdatsK m ρ 2 c).share_full fun _ => rfl)
      (Yr11 m ρ c) (Yr12 m ρ c) ((pdatsK m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsK : List (Pipeline.Seg (pcfgs (F := F)) admK (pdatsK m ρ) () defs₀ 𝒱K LK lvK) :=
  [ .host (hsegK hostOps0 hostOps0_sub hostOps0_fresh (Y0 m ρ)),
    .region (regK0 m ρ),
    .host (hsegK hostOps1 hostOps1_sub hostOps1_fresh (Y2 m ρ)),
    .host (hsegK hostOps1_1 hostOps1_1_sub hostOps1_1_fresh (Y3 m ρ)),
    .host (hsegK hostOps1_2 hostOps1_2_sub hostOps1_2_fresh (Y4 m ρ)),
    .host (hsegK hostOps1_3 hostOps1_3_sub hostOps1_3_fresh (Y5 m ρ)),
    .region (regK1 m ρ),
    .host (hsegK hostOps2 hostOps2_sub hostOps2_fresh (Y7 m ρ)),
    .host (hsegK hostOps2_1 hostOps2_1_sub hostOps2_1_fresh (Y8 m ρ)),
    .host (hsegK hostOps2_2 hostOps2_2_sub hostOps2_2_fresh (Y9 m ρ)),
    .host (hsegK hostOps2_3 hostOps2_3_sub hostOps2_3_fresh (Y10 m ρ)),
    .region (regK2 m ρ) ]

theorem main_runK (c : Dev nD) : main (F := F) c = Pipeline.Seg.run (segsK m ρ) := (main_chain c).trans (by chain_rfl)

set_option backward.isDefEq.respectTransparency.types false in
/-- THE RUN: from any memory with zero counters every weakly fair execution of @main terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Y12 m ρ c b) :=
  Pipeline.θ_run_regions_kit (pcfgs (F := F)) admK (pdatsK m ρ) () cellOf_inj emb₁ defs₀ 𝒱K LK lvK m ρ main (segsK m ρ)
    (fun c Q => by rw [main_runK m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Y0 m ρ c) ∗ Rid c)) (Tₙ := TnK m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (Y0 m ρ c)
        from Pipeline.unscopedBufs_held c (Y0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y12 m ρ c b)
    (hfin := fun c s' => by
      iintro ⟨⟨Hh, -⟩, HSI⟩
      unfold StableHlo.held
      imodintro
      iapply (pointsTo_read_all (Pipeline.ucRefs τ sig) (fun b => (((c : Thread nD τ)).1, b)) (Y12 m ρ c) s')
      isplitl [Hh] <;> iassumption)
    (hQ := fun s h c => h c)

/-- THE FRAME, at any float family: the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_ucK main_arg0 (by decide))).trans (Y12_main_arg0 m ρ c),
     (h c _ (mem_ucK main_arg1 (by decide))).trans (Y12_main_arg1 m ρ c),
     (h c _ (mem_ucK main_arg2 (by decide))).trans (Y12_main_arg2 m ρ c),
     (h c _ (mem_ucK main_arg3 (by decide))).trans (Y12_main_arg3 m ρ c),
     (h c _ (mem_ucK main_arg4 (by decide))).trans (Y12_main_arg4 m ρ c),
     (h c _ (mem_ucK main_arg5 (by decide))).trans (Y12_main_arg5 m ρ c),
     (h c _ (mem_ucK main_arg6 (by decide))).trans (Y12_main_arg6 m ρ c),
     (h c _ (mem_ucK main_arg7 (by decide))).trans (Y12_main_arg7 m ρ c),
     (h c _ (mem_ucK main_arg8 (by decide))).trans (Y12_main_arg8 m ρ c)⟩) (run_all m ρ)

/-- THE RESULT: the result buffer ends at the pooling region's product, and the arguments as launched. -/
theorem run_result : θ_run defs (onTc (τ := τ) (main (F := F))) ⟨m, fun _ => 0, ρ⟩ (fun r => ∀ c : Dev nD,
      r.2.mem ((c.tc : Thread nD τ).loc main_v93) = (dat2 (Yr11 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_ucK main_v93 (by decide))).trans (Y12_result m ρ c),
     (h c _ (mem_ucK main_arg0 (by decide))).trans (Y12_main_arg0 m ρ c),
     (h c _ (mem_ucK main_arg1 (by decide))).trans (Y12_main_arg1 m ρ c),
     (h c _ (mem_ucK main_arg2 (by decide))).trans (Y12_main_arg2 m ρ c),
     (h c _ (mem_ucK main_arg3 (by decide))).trans (Y12_main_arg3 m ρ c),
     (h c _ (mem_ucK main_arg4 (by decide))).trans (Y12_main_arg4 m ρ c),
     (h c _ (mem_ucK main_arg5 (by decide))).trans (Y12_main_arg5 m ρ c),
     (h c _ (mem_ucK main_arg6 (by decide))).trans (Y12_main_arg6 m ρ c),
     (h c _ (mem_ucK main_arg7 (by decide))).trans (Y12_main_arg7 m ρ c),
     (h c _ (mem_ucK main_arg8 (by decide))).trans (Y12_main_arg8 m ρ c)⟩) (run_all m ρ)

end Cert.Kernel.Gen

end
-- ==== Proof.KI.Mat0.lean ====
/-
  The first matrix product, `x · w1`, as a grid of ten row blocks: per grid point the kernel loads a 5000×128 block of
  `x` and the whole 128×128 `w1`, multiplies them into a zero accumulator and stores the 5000×128 block of the product.
  Here: each window's block at a point, what the body leaves in the product's staging buffer, the body's triple,
  and the proof data and body obligation the launch theorem takes — at any float family, at the contents `V` the
  region is entered with.
-/
import proofs.«409795_j15513421873661_1_alg».proof.Proof.Gen.KernelIdeal.Launch
import proofs.«409795_j15513421873661_1_alg».proof.Proof.Gen.KernelIdeal.Skeleton
import proofs.«409795_j15513421873661_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the product's region is entered: every statement below is at this parameter
variable (V : (c : Dev nD) → (b : Ref sig .tc) → Buf (Elt F) ((c : Thread nD τ).loc b))

/-- Window `w`'s block at grid point `t`: the rows `5000·t … 5000·t+4999` of the left factor (window 0), the whole right
    factor (window 1), the same rows of the product (window 2), read off the arrays as the region finds them. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds the point's row block whenever the body runs, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor is fetched once, at the first point; its block index never moves, so its staging buffer holds the
    whole factor at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_out : Rect S5000x128 := Rect.unit (s := S5000x128) ![0, 0] S5000x128.size inb_S5000x128_S5000x128_0_0
abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

/-- What the body leaves in the product's staging buffer: its one store, of the row block times the right factor,
    over the whole buffer. -/
def out0_2 (x0 : Vec F S5000x128 .f32) (x1 : Vec F S128x128 .f32) : Vec F S5000x128 .f32 :=
  View.canon [⟨r0_out, k0_pay1 (View.ld x0 r0_x) (View.ld x1 r0_w)⟩]

theorem cover0_2 (p0 : Vec F S5000x128 .f32) (y : S5000x128.Idx) :
    ∃ pc ∈ ([⟨r0_out, p0⟩] : List (View.Piece (Elt F) S5000x128 .f32)), y ∈ pc.1.set :=
  View.cover_of_tiled [⟨r0_out, p0⟩] S5000x128.size (by rfl) y

set_option maxHeartbeats 1000000 in
/-- The body on whole staging buffers, the factors' at `x0`, `x1` and the product's at anything, runs to its return with
    the factors' buffers as they were and the product's at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this region on core `c`: the arrays as entered; after the body at point `t` each factor's buffer
    at its block and the product's at `out0_2` of the blocks; nothing carried between points beyond the class's
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Mat1.lean ====
/-
  The second matrix product, `relu(agg1 + b1) · w2`, as a grid of ten row blocks: per grid point the kernel loads a
  5000×128 block of the left factor and the whole 128×128 `w2`, multiplies them into a zero accumulator and stores the
  5000×128 block of the product. Here: each window's block at a point, what the body leaves in the product's staging
  buffer, the body's triple, and the proof data and body obligation the launch theorem takes — at any float family,
  at the contents `V` the region is entered with.
-/
import proofs.«409795_j15513421873661_1_alg».proof.Proof.Gen.KernelIdeal.Launch
import proofs.«409795_j15513421873661_1_alg».proof.Proof.Gen.KernelIdeal.Skeleton
import proofs.«409795_j15513421873661_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the product's region is entered: every statement below is at this parameter
variable (V : (c : Dev nD) → (b : Ref sig .tc) → Buf (Elt F) ((c : Thread nD τ).loc b))

/-- Window `w`'s block at grid point `t`: the rows `5000·t … 5000·t+4999` of the left factor (window 0), the whole right
    factor (window 1), the same rows of the product (window 2), read off the arrays as the region finds them. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds the point's row block whenever the body runs, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right factor is fetched once, at the first point; its block index never moves, so its staging buffer holds the
    whole factor at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_out : Rect S5000x128 := Rect.unit (s := S5000x128) ![0, 0] S5000x128.size inb_S5000x128_S5000x128_0_0
abbrev r1_x : Rect S5000x128 := Rect.unit (s := S5000x128) ![0, 0] S5000x128.size inb_S5000x128_S5000x128_0_0
abbrev r1_w : Rect S128x128 := Rect.unit (s := S128x128) ![0, 0] S128x128.size inb_S128x128_S128x128_0_0

/-- What the body leaves in the product's staging buffer: its one store, of the row block times the right factor,
    over the whole buffer. -/
def out1_2 (x0 : Vec F S5000x128 .f32) (x1 : Vec F S128x128 .f32) : Vec F S5000x128 .f32 :=
  View.canon [⟨r1_out, k1_pay1 (View.ld x0 r1_x) (View.ld x1 r1_w)⟩]

theorem cover1_2 (p0 : Vec F S5000x128 .f32) (y : S5000x128.Idx) :
    ∃ pc ∈ ([⟨r1_out, p0⟩] : List (View.Piece (Elt F) S5000x128 .f32)), y ∈ pc.1.set :=
  View.cover_of_tiled [⟨r1_out, p0⟩] S5000x128.size (by rfl) y

set_option maxHeartbeats 1000000 in
/-- The body on whole staging buffers, the factors' at `x0`, `x1` and the product's at anything, runs to its return with
    the factors' buffers as they were and the product's at `out1_2 x0 x1`. -/
theorem sound_kernel1 (c : Dev nD) (E : Set ℕ) (i : grid1.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this region on core `c`: the arrays as entered; after the body at point `t` each factor's buffer
    at its block and the product's at `out1_2` of the blocks; nothing carried between points beyond the class's
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.PoolRuns.lean ====
/-
  The pooling kernel's body, case by case. The grid has 25 points, each handed a 2000-row block of the node features and
  of the graph ids. Every point adds the block's one-hot(ids)ᵀ · features to a 512×128 accumulator and the block's
  per-graph node counts to a 512×1 accumulator, both kept in scratch memory across points; the first point zeroes the
  accumulators first; the last point also divides the sums by max(count, 1), multiplies by the 128×1 weight, adds the
  bias, applies the logistic function and stores the 512 results. Three control cases: the first point (A), a middle
  point (B), the last point (C). Every load and store covers its whole buffer, so each case leaves in a buffer exactly
  the payload of its last store. Stated at any float family.
-/
import proofs.«409795_j15513421873661_1_alg».proof.Proof.Gen.KernelIdeal.Launch
import proofs.«409795_j15513421873661_1_alg».proof.Proof.Gen.KernelIdeal.Skeleton
import proofs.«409795_j15513421873661_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first `scf.if`'s condition (zero the accumulators), from the grid coordinate. -/
abbrev cond2_0 (i : grid2.Coords) : Prop := (Scalar.cmpi .ne (Scalar.extui (Scalar.cmpi .eq (BitVec.ofNat 32 (i 0).val) 0#32)) 0#32) = 1#1
/-- The second `scf.if`'s condition (finish and store the result). -/
abbrev cond2_1 (i : grid2.Coords) : Prop := k2_cond2 i = 1#1

/-- The accumulators are zeroed at the first point only. -/
theorem hcond2_0 : ∀ t : Fin cfg2.N, cond2_0 (grid2.coords t) ↔ t.val % 25 = 0 :=
  (by decide +kernel : ∀ t : Fin grid2.N, cond2_0 (grid2.coords t) ↔ t.val % 25 = 0)
/-- The result is stored at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

theorem hz2 : (![0, 0] : Fin 2 → Nat) = fun _ => 0 := funext fun a => by fin_cases a <;> rfl
theorem hz1 : (![0] : Fin 1 → Nat) = fun _ => 0 := funext fun a => by fin_cases a <;> rfl

set_option maxHeartbeats 2000000 in
/-- CASE A, the first point: both accumulators are zeroed, then receive the block's contribution. -/
theorem sound_pool_A (c : Dev nD) (E : Set ℕ) (i : grid2.Coords) (arg1 : Memref sig .tc .vmem S2000x128 .f32) (harg1 : arg1.IsWhole) (arg2 : Memref sig .tc .vmem S2000x1 .i32) (harg2 : arg2.IsWhole) (arg3 : Memref sig .tc .vmem S128x1 .f32) (harg3 : arg3.IsWhole) (arg4 : Memref sig .tc .vmem S1 .f32) (harg4 : arg4.IsWhole) (arg5 : Memref sig .tc .vmem S512 .f32) (harg5 : arg5.IsWhole) (arg6 : Memref sig .tc .vmem S512x128 .f32) (harg6 : arg6.IsWhole) (arg7 : Memref sig .tc .vmem S512x1 .f32) (harg7 : arg7.IsWhole)
    (hc0 : cond2_0 i) (hc1 : ¬cond2_1 i)
    (h : Vec F S2000x128 .f32) (b : Vec F S2000x1 .i32) (K : PUnit → sProp 𝕄) :
    iprop(owns (c : Thread nD τ) arg1 fullShare h ∗ owns (c : Thread nD τ) arg2 fullShare b
        ∗ (∃ d, owns (c : Thread nD τ) arg6 fullShare d) ∗ (∃ d, owns (c : Thread nD τ) arg7 fullShare d)
        ∗ (iprop(owns (c : Thread nD τ) arg1 fullShare h ∗ owns (c : Thread nD τ) arg2 fullShare b
            ∗ owns (c : Thread nD τ) arg6 fullShare (k2_pay4 b h (k2_pay1 (F := F)))
            ∗ owns (c : Thread nD τ) arg7 fullShare (k2_pay5 b (k2_pay2 (F := F)))) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%d6, %f6, -, H6⟩, ⟨%d7, %f7, -, H7⟩, Hk⟩
  subst hf0
  subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    try sl_unfold_words
    rw [View.read_writes_eq_canon _ _ _ (fun y => ⟨_, List.mem_cons_self .., View.mem_set_unit_zero hz2 inb_S512x128_S512x128_0_0 y⟩)]
    rw [View.canon_cons_unit_zero (S := S512x128) hz2]
    simp only [View.readAt_eq_ld, View.ld_unit_zero (S := S2000x1) hz2, View.ld_unit_zero (S := S2000x128) hz2,
      View.readCov_unit_zero (S := S512x128) _ hz2]
  iexists _; isplitr
  swap; · iexact H7
  ipureintro
  try sl_unfold_words
  rw [View.read_writes_eq_canon _ _ _ (fun y => ⟨_, List.mem_cons_self .., View.mem_set_unit_zero hz2 inb_S512x1_S512x1_0_0 y⟩)]
  rw [View.canon_cons_unit_zero (S := S512x1) hz2]
  simp only [View.readAt_eq_ld, View.ld_unit_zero (S := S2000x1) hz2, View.readCov_unit_zero (S := S512x1) _ hz2]

set_option maxHeartbeats 2000000 in
/-- CASE B, a middle point: both accumulators receive the block's contribution over what the point before left. -/
theorem sound_pool_B (c : Dev nD) (E : Set ℕ) (i : grid2.Coords) (arg1 : Memref sig .tc .vmem S2000x128 .f32) (harg1 : arg1.IsWhole) (arg2 : Memref sig .tc .vmem S2000x1 .i32) (harg2 : arg2.IsWhole) (arg3 : Memref sig .tc .vmem S128x1 .f32) (harg3 : arg3.IsWhole) (arg4 : Memref sig .tc .vmem S1 .f32) (harg4 : arg4.IsWhole) (arg5 : Memref sig .tc .vmem S512 .f32) (harg5 : arg5.IsWhole) (arg6 : Memref sig .tc .vmem S512x128 .f32) (harg6 : arg6.IsWhole) (arg7 : Memref sig .tc .vmem S512x1 .f32) (harg7 : arg7.IsWhole)
    (hc0 : ¬cond2_0 i) (hc1 : ¬cond2_1 i)
    (h : Vec F S2000x128 .f32) (b : Vec F S2000x1 .i32) (s : Vec F S512x128 .f32) (n : Vec F S512x1 .f32) (K : PUnit → sProp 𝕄) :
    iprop(owns (c : Thread nD τ) arg1 fullShare h ∗ owns (c : Thread nD τ) arg2 fullShare b
        ∗ owns (c : Thread nD τ) arg6 fullShare s ∗ owns (c : Thread nD τ) arg7 fullShare n
        ∗ (iprop(owns (c : Thread nD τ) arg1 fullShare h ∗ owns (c : Thread nD τ) arg2 fullShare b
            ∗ owns (c : Thread nD τ) arg6 fullShare (k2_pay4 b h s)
            ∗ owns (c : Thread nD τ) arg7 fullShare (k2_pay5 b n)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f6, %hf6, H6⟩, ⟨%f7, %hf7, H7⟩, Hk⟩
  subst hf0
  subst hf1
  subst hf6
  subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    try sl_unfold_words
    rw [View.read_writes_eq_canon _ _ _ (fun y => ⟨_, List.mem_cons_self .., View.mem_set_unit_zero hz2 inb_S512x128_S512x128_0_0 y⟩)]
    rw [View.canon_cons_unit_zero (S := S512x128) hz2]
    simp only [View.readAt_eq_ld, View.ld_unit_zero (S := S2000x1) hz2, View.ld_unit_zero (S := S2000x128) hz2,
      View.ld_unit_zero (S := S512x128) hz2]
  iexists _; isplitr
  swap; · iexact H7
  ipureintro
  try sl_unfold_words
  rw [View.read_writes_eq_canon _ _ _ (fun y => ⟨_, List.mem_cons_self .., View.mem_set_unit_zero hz2 inb_S512x1_S512x1_0_0 y⟩)]
  rw [View.canon_cons_unit_zero (S := S512x1) hz2]
  simp only [View.readAt_eq_ld, View.ld_unit_zero (S := S2000x1) hz2, View.ld_unit_zero (S := S512x1) hz2]

set_option maxHeartbeats 2000000 in
/-- CASE C, the last point: the accumulators receive the last contribution, and the result buffer receives the
    logistic of (sums / max(count, 1)) · weight + bias. -/
theorem sound_pool_C (c : Dev nD) (E : Set ℕ) (i : grid2.Coords) (arg1 : Memref sig .tc .vmem S2000x128 .f32) (harg1 : arg1.IsWhole) (arg2 : Memref sig .tc .vmem S2000x1 .i32) (harg2 : arg2.IsWhole) (arg3 : Memref sig .tc .vmem S128x1 .f32) (harg3 : arg3.IsWhole) (arg4 : Memref sig .tc .vmem S1 .f32) (harg4 : arg4.IsWhole) (arg5 : Memref sig .tc .vmem S512 .f32) (harg5 : arg5.IsWhole) (arg6 : Memref sig .tc .vmem S512x128 .f32) (harg6 : arg6.IsWhole) (arg7 : Memref sig .tc .vmem S512x1 .f32) (harg7 : arg7.IsWhole)
    (hc0 : ¬cond2_0 i) (hc1 : cond2_1 i)
    (h : Vec F S2000x128 .f32) (b : Vec F S2000x1 .i32) (w : Vec F S128x1 .f32) (bb : Vec F S1 .f32)
    (s : Vec F S512x128 .f32) (n : Vec F S512x1 .f32) (K : PUnit → sProp 𝕄) :
    iprop(owns (c : Thread nD τ) arg1 fullShare h ∗ owns (c : Thread nD τ) arg2 fullShare b
        ∗ owns (c : Thread nD τ) arg3 fullShare w ∗ owns (c : Thread nD τ) arg4 fullShare bb
        ∗ (∃ d, owns (c : Thread nD τ) arg5 fullShare d)
        ∗ owns (c : Thread nD τ) arg6 fullShare s ∗ owns (c : Thread nD τ) arg7 fullShare n
        ∗ (iprop(owns (c : Thread nD τ) arg1 fullShare h ∗ owns (c : Thread nD τ) arg2 fullShare b
            ∗ owns (c : Thread nD τ) arg3 fullShare w ∗ owns (c : Thread nD τ) arg4 fullShare bb
            ∗ owns (c : Thread nD τ) arg5 fullShare (k2_pay6 (k2_pay4 b h s) (k2_pay5 b n) w bb)
            ∗ owns (c : Thread nD τ) arg6 fullShare (k2_pay4 b h s)
            ∗ owns (c : Thread nD τ) arg7 fullShare (k2_pay5 b n)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f3, %hf3, H3⟩, ⟨%f4, %hf4, H4⟩, ⟨%d5, %f5, -, H5⟩, ⟨%f6, %hf6, H6⟩, ⟨%f7, %hf7, H7⟩, Hk⟩
  subst hf0
  subst hf1
  subst hf3
  subst hf4
  subst hf6
  subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try sl_unfold_words
    rw [View.read_writes_eq_canon _ _ _ (fun y => ⟨_, List.mem_cons_self .., View.mem_set_unit_zero hz1 inb_S512_S512_0 y⟩)]
    rw [View.canon_cons_unit_zero (S := S512) hz1]
    simp only [View.readAt_eq_ld, View.ld_unit_zero (S := S2000x1) hz2, View.ld_unit_zero (S := S2000x128) hz2,
      View.ld_unit_zero (S := S512x128) hz2, View.ld_unit_zero (S := S512x1) hz2, View.ld_unit_zero (S := S128x1) hz2,
      View.ld_unit_zero (S := S1) hz1, View.readCov_unit_zero (S := S512x128) _ hz2, View.readCov_unit_zero (S := S512x1) _ hz2]
  isplitl [H6]
  · iexists _; isplitr
    swap; · iexact H6
    ipureintro
    try sl_unfold_words
    rw [View.read_writes_eq_canon _ _ _ (fun y => ⟨_, List.mem_cons_self .., View.mem_set_unit_zero hz2 inb_S512x128_S512x128_0_0 y⟩)]
    rw [View.canon_cons_unit_zero (S := S512x128) hz2]
    simp only [View.readAt_eq_ld, View.ld_unit_zero (S := S2000x1) hz2, View.ld_unit_zero (S := S2000x128) hz2,
      View.ld_unit_zero (S := S512x128) hz2]
  iexists _; isplitr
  swap; · iexact H7
  ipureintro
  try sl_unfold_words
  rw [View.read_writes_eq_canon _ _ _ (fun y => ⟨_, List.mem_cons_self .., View.mem_set_unit_zero hz2 inb_S512x1_S512x1_0_0 y⟩)]
  rw [View.canon_cons_unit_zero (S := S512x1) hz2]
  simp only [View.readAt_eq_ld, View.ld_unit_zero (S := S2000x1) hz2, View.ld_unit_zero (S := S512x1) hz2]

end Cert.KernelIdeal.Gen

end
-- ==== Proof.KI.PoolDat.lean ====
/-
  The pooling region's proof data. What the two scratch accumulators hold after each grid point is a recursion over the
  points: `sAcc n` is the sum accumulator after point `n` (point 0 starts from the zero fill), `nAcc n` the count
  accumulator; the result block, stored at the last point, is the kernel's closing payload of the two accumulators, the
  weight and the bias. The region's invariant between points holds the two scratch buffers at those contents (at anything
  before the first point), beside the scoped buffers of the other two regions at anything. The result window is idle at
  every point but the last: its staging buffer is handed back untouched there. At any float family, at the contents `V`
  the region is entered with.
-/
import proofs.«409795_j15513421873661_1_alg».proof.Proof.KI.PoolRuns

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows `2000·t … 2000·t+1999` of the node features (window 0) and of the graph
    ids (window 1), the whole weight (2), the whole bias (3), the whole result (4), read off the arrays as entered. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The two scratch accumulators, whole scoped buffers of the kernel's own. -/
abbrev scM2_0 : Memref sig .tc .vmem S512x128 .f32 := Memref.whole cc2_scratch0
abbrev scM2_1 : Memref sig .tc .vmem S512x1 .f32 := Memref.whole cc2_scratch1

/-- The sum accumulator after point `n`: the block's contribution added to what the point before left (to the zero fill at
    point 0). -/
def sAcc (c : Dev nD) : (n : ℕ) → n < cfg2.N → Vec F S512x128 .f32
  | 0, h => k2_pay4 (iblk2 V c 1 ⟨0, h⟩) (iblk2 V c 0 ⟨0, h⟩) (k2_pay1 (F := F))
  | n + 1, h => k2_pay4 (iblk2 V c 1 ⟨n + 1, h⟩) (iblk2 V c 0 ⟨n + 1, h⟩) (sAcc c n (Nat.lt_of_succ_lt h))

/-- The count accumulator after point `n`. -/
def nAcc (c : Dev nD) : (n : ℕ) → n < cfg2.N → Vec F S512x1 .f32
  | 0, h => k2_pay5 (iblk2 V c 1 ⟨0, h⟩) (k2_pay2 (F := F))
  | n + 1, h => k2_pay5 (iblk2 V c 1 ⟨n + 1, h⟩) (nAcc c n (Nat.lt_of_succ_lt h))

theorem sAcc_zero (c : Dev nD) (t : Fin cfg2.N) (hz : t.val = 0) :
    sAcc V c t.val t.isLt = k2_pay4 (iblk2 V c 1 t) (iblk2 V c 0 t) (k2_pay1 (F := F)) := by
  obtain ⟨n, hn⟩ := t; cases n with
  | zero => rfl
  | succ n => exact absurd hz (Nat.succ_ne_zero n)
theorem nAcc_zero (c : Dev nD) (t : Fin cfg2.N) (hz : t.val = 0) :
    nAcc V c t.val t.isLt = k2_pay5 (iblk2 V c 1 t) (k2_pay2 (F := F)) := by
  obtain ⟨n, hn⟩ := t; cases n with
  | zero => rfl
  | succ n => exact absurd hz (Nat.succ_ne_zero n)
theorem sAcc_pos (c : Dev nD) (t : Fin cfg2.N) (hz : t.val ≠ 0) :
    sAcc V c t.val t.isLt = k2_pay4 (iblk2 V c 1 t) (iblk2 V c 0 t) (sAcc V c (t.val - 1) (Nat.lt_of_le_of_lt (Nat.sub_le _ _) t.isLt)) := by
  obtain ⟨n, hn⟩ := t; cases n with
  | zero => exact absurd rfl hz
  | succ n => rfl
theorem nAcc_pos (c : Dev nD) (t : Fin cfg2.N) (hz : t.val ≠ 0) :
    nAcc V c t.val t.isLt = k2_pay5 (iblk2 V c 1 t) (nAcc V c (t.val - 1) (Nat.lt_of_le_of_lt (Nat.sub_le _ _) t.isLt)) := by
  obtain ⟨n, hn⟩ := t; cases n with
  | zero => exact absurd rfl hz
  | succ n => rfl

/-- What the last point stores in the result block, stated at any point (only the last point's is ever read). -/
def res2 (c : Dev nD) (t : Fin cfg2.N) : Vec F S512 .f32 :=
  k2_pay6 (sAcc V c t.val t.isLt) (nAcc V c t.val t.isLt) (iblk2 V c 2 t) (iblk2 V c 3 t)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Before the last point the result window is idle and not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last point it is live. -/
theorem liveAt2_4 : ∀ t : Fin cfg2.N, cond2_1 (grid2.coords t) → cfg2.idle 4 (grid2.coords t) = false := by decide +kernel

/-! ## The scoped buffers beside the staging buffers -/

/-- The other two regions' staging buffers, each whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- Every scoped buffer that is no staging buffer of this region: the others at anything, the two accumulators as `X0`, `X1` say. -/
def scopedAt2 (c : Dev nD) (X0 X1 : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ X0 ∗ X1)

theorem scopedRest2_at (c : Dev nD) :
    (Pipeline.scopedRest (Ix := Unit) (Name := ℕ) (U := UR sig nD τ) (Lvl := ℕ) (Val := Elt F) spec2 c : sProp 𝕄)
      = scopedAt2 c (iprop(∃ d, owns (c : Thread nD τ) scM2_0 fullShare d)) (iprop(∃ d, owns (c : Thread nD τ) scM2_1 fullShare d)) := by
  rw [scopedRest2_eq]; unfold scopedAt2; simp only [scM2_0, scM2_1, owns_whole]; try rfl

theorem scopedAt2_split (c : Dev nD) (X0 X1 : sProp 𝕄) : scopedAt2 c X0 X1 ⊢ iprop(others2 (F := F) c ∗ X0 ∗ X1) := by
  unfold scopedAt2 others2
  iintro ⟨O0, O1, O2, O3, O4, O5, O6, O7, O8, O9, HX0, HX1⟩
  isplitl [O0 O1 O2 O3 O4 O5 O6 O7 O8 O9]
  · isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact O9
  isplitl [HX0]; · iexact HX0
  iexact HX1

theorem scopedAt2_join (c : Dev nD) (X0 X1 : sProp 𝕄) : iprop(others2 (F := F) c ∗ X0 ∗ X1) ⊢ scopedAt2 c X0 X1 := by
  unfold scopedAt2 others2
  iintro ⟨⟨O0, O1, O2, O3, O4, O5, O6, O7, O8, O9⟩, HX0, HX1⟩
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [HX0]; · iexact HX0
  iexact HX1

/-! ## The invariant between points -/

/-- Before point `n`: before the first point every scoped buffer at anything (the class's invariant); afterwards the two
    accumulators at what point `n - 1` left, the other scoped buffers at anything; the generator register at some state. -/
def PhiS2 (c : Dev nD) : (n : ℕ) → n ≤ cfg2.N → sProp 𝕄
  | 0, _ => Pipeline.ΦA spec2 c
  | n + 1, hn => iprop(scopedAt2 c (owns (c : Thread nD τ) scM2_0 fullShare (sAcc V c n hn)) (owns (c : Thread nD τ) scM2_1 fullShare (nAcc V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(scopedAt2 c (owns (c : Thread nD τ) scM2_0 fullShare (sAcc V c n hn)) (owns (c : Thread nD τ) scM2_1 fullShare (nAcc V c n hn)) ∗ (∃ r, prngReg c r)) := rfl

theorem PhiS2_pos (c : Dev nD) (n : ℕ) (h : n ≤ cfg2.N) (hz : n ≠ 0) :
    PhiS2 V c n h = iprop(scopedAt2 c (owns (c : Thread nD τ) scM2_0 fullShare (sAcc V c (n - 1) (by omega))) (owns (c : Thread nD τ) scM2_1 fullShare (nAcc V c (n - 1) (by omega))) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => res2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = res2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

end Cert.KernelIdeal.Gen

end
-- ==== Proof.KI.PoolBody.lean ====
/-
  The pooling region's body obligation: at every grid point, from the invariant and the windows' staging buffers at what
  they then hold, the kernel's body runs to the invariant at the next point and the buffers at what the proof data says it
  leaves. By the point's control case: the accumulators come out of the invariant (at anything before the first point, at
  what the point before left afterwards), the case's run applies, and they go back at this point's contents; the weight's,
  the bias's and — before the last point — the result's buffers pass through untouched. Then the two entailments that tie
  the invariant to the class's invariant at the region's two ends.
-/
import proofs.«409795_j15513421873661_1_alg».proof.Proof.KI.PoolDat

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (iblk2 V c 3 t) := by
  unfold Dat.leavesExact; rw [liveAt2_3 t, after2_3]

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  have hN : t.val < 25 := lt_of_lt_of_eq t.isLt (show cfg2.N = 25 from N_2)
  by_cases h0 : t.val % 25 = 0
  · -- the first point: the accumulators start from the zero fill
    have hz : t.val = 0 := by omega
    have h1 : ¬ t.val % 25 = 24 := by omega
    have hc0 : cond2_0 (grid2.coords t) := (hcond2_0 t).mpr h0
    have hc1 : ¬ cond2_1 (grid2.coords t) := fun h => h1 ((hcond2_1 t).mp h)
    rw [Dat.leavesExact_idle (dat2 V c) 4 t (idleAt2_4 t hc1) (noFlush2_4 t hc1)]
    rw [sAcc_zero V c t hz, nAcc_zero V c t hz]
    rw [PhiS2_castSucc V c t, PhiS2_zero V c _ _ hz]; unfold Pipeline.ΦA; rw [scopedRest2_at]
    iintro ⟨⟨Hsc, Hg⟩, Ho, ⟨%d0, H0⟩, ⟨%d1, H1⟩, ⟨%d2, H2⟩, ⟨%d3, H3⟩, ⟨%d4, H4⟩⟩
    ihave Hs := (scopedAt2_split c _ _) $$ Hsc
    icases Hs with ⟨Hoth, HS0, HS1⟩
    iapply (sound_pool_A c Set.univ _ _ _ _ _ _ _ _ _ _ _ _ _ _ _ hc0 hc1 (iblk2 V c 0 t) (iblk2 V c 1 t) _)
    isplitl [H0]; · iexact H0
    isplitl [H1]; · iexact H1
    isplitl [HS0]; · iexact HS0
    isplitl [HS1]; · iexact HS1
    iintro ⟨H0, H1, HS0, HS1⟩
    isplitl [Hoth HS0 HS1 Hg]
    · isplitl [Hoth HS0 HS1]
      · iapply (scopedAt2_join c _ _)
        isplitl [Hoth]; · iexact Hoth
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexists _; iexact H4
  · by_cases h1 : t.val % 25 = 24
    · -- the last point: the result block is stored
      have hz : t.val ≠ 0 := by omega
      have hc0 : ¬ cond2_0 (grid2.coords t) := fun h => h0 ((hcond2_0 t).mp h)
      have hc1 : cond2_1 (grid2.coords t) := (hcond2_1 t).mpr h1
      rw [show (dat2 V c).leavesExact 4 t = owns (c : Thread nD τ) (st2_4 t) fullShare ((dat2 V c).after 4 t) from by
        unfold Dat.leavesExact; rw [liveAt2_4 t hc1], after2_4]
      unfold res2
      rw [sAcc_pos V c t hz, nAcc_pos V c t hz]
      rw [PhiS2_castSucc V c t, PhiS2_pos V c _ _ hz]
      iintro ⟨⟨Hsc, Hg⟩, Ho, ⟨%d0, H0⟩, ⟨%d1, H1⟩, ⟨%d2, H2⟩, ⟨%d3, H3⟩, ⟨%d4, H4⟩⟩
      ihave Hs := (scopedAt2_split c _ _) $$ Hsc
      icases Hs with ⟨Hoth, HS0, HS1⟩
      iapply (sound_pool_C c Set.univ _ _ _ _ _ _ _ _ _ _ _ _ _ _ _ hc0 hc1 (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [Hoth HS0 HS1 Hg]
      · isplitl [Hoth HS0 HS1]
        · iapply (scopedAt2_join c _ _)
          isplitl [Hoth]; · iexact Hoth
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · -- a middle point
      have hz : t.val ≠ 0 := by omega
      have hc0 : ¬ cond2_0 (grid2.coords t) := fun h => h0 ((hcond2_0 t).mp h)
      have hc1 : ¬ cond2_1 (grid2.coords t) := fun h => h1 ((hcond2_1 t).mp h)
      rw [Dat.leavesExact_idle (dat2 V c) 4 t (idleAt2_4 t hc1) (noFlush2_4 t hc1)]
      rw [sAcc_pos V c t hz, nAcc_pos V c t hz]
      rw [PhiS2_castSucc V c t, PhiS2_pos V c _ _ hz]
      iintro ⟨⟨Hsc, Hg⟩, Ho, ⟨%d0, H0⟩, ⟨%d1, H1⟩, ⟨%d2, H2⟩, ⟨%d3, H3⟩, ⟨%d4, H4⟩⟩
      ihave Hs := (scopedAt2_split c _ _) $$ Hsc
      icases Hs with ⟨Hoth, HS0, HS1⟩
      iapply (sound_pool_B c Set.univ _ _ _ _ _ _ _ _ _ _ _ _ _ _ _ hc0 hc1 (iblk2 V c 0 t) (iblk2 V c 1 t) _ _ _)
      isplitl [H0]; · iexact H0
      isplitl [H1]; · iexact H1
      isplitl [HS0]; · iexact HS0
      isplitl [HS1]; · iexact HS1
      iintro ⟨H0, H1, HS0, HS1⟩
      isplitl [Hoth HS0 HS1 Hg]
      · isplitl [Hoth HS0 HS1]
        · iapply (scopedAt2_join c _ _)
          isplitl [Hoth]; · iexact Hoth
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The library's body obligation for the pooling region, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulators' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega)]
  unfold Pipeline.ΦA; rw [scopedRest2_at]
  iintro ⟨Hsc, Hg⟩
  ihave Hs := (scopedAt2_split c _ _) $$ Hsc
  icases Hs with ⟨Hoth, HS0, HS1⟩
  isplitl [Hoth HS0 HS1]
  · iapply (scopedAt2_join c _ _)
    isplitl [Hoth]; · iexact Hoth
    isplitl [HS0]; · iexists _; iexact HS0
    iexists _; iexact HS1
  iexact Hg

end Cert.KernelIdeal.Gen

end
-- ==== Proof.KI.Run.lean ====
/-
  The whole program's run. @main is twelve items: a stretch of host operations, the first matrix product's region, four
  stretches (the first graph aggregation, bias and relu), the second product's region, four stretches (the second
  aggregation, bias and relu), the pooling region. Here: what every unscoped buffer holds at each boundary between items —
  a fold from the launch memory, a host stretch applying its operations, a region leaving its arrays at what its write-backs
  leave and everything else alone —; the three regions' proof data at their entry contents; each region as a segment over
  the thread state "every unscoped buffer at the boundary's contents, the generator register at some state, nothing owed";
  and the launch: every weakly fair execution terminates with every unscoped buffer at the last boundary's contents. From it
  the arguments end as launched (no stretch writes one, no region changes one) and the result buffer ends at what the
  pooling region's last point stored. At any float family.
-/
import proofs.«409795_j15513421873661_1_alg».proof.Proof.KI.Mat0
import proofs.«409795_j15513421873661_1_alg».proof.Proof.KI.Mat1
import proofs.«409795_j15513421873661_1_alg».proof.Proof.KI.PoolBody
import proofs.«409795_j15513421873661_1_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Y0 : Dev nD → Valuation τ sig (Elt F) := fun c b => (s₀ m ρ).mem ((c : Dev nD), b)
/-- After the host stretch `hostOps0`. -/
abbrev Y1 : Dev nD → Valuation τ sig (Elt F) := fun c => StableHlo.after hostOps0 (Y0 m ρ c)
/-- The same read at the TensorCore's references: what region 0's proof data take. -/
abbrev Yr1 : (c : Dev nD) → (b : Ref sig .tc) → Buf (Elt F) ((c : Thread nD τ).loc b) := fun c b => Y1 m ρ c b
/-- At region 0's exit: its arrays at what the pipeline leaves (the inputs as entered, the output's write-backs folded), every
    other buffer as entered. -/
def Y2 (c : Dev nD) : Valuation τ sig (Elt F) :=
  Pipeline.withArrays spec0 c (Y1 m ρ c) fun w => (dat0 (Yr1 m ρ) c).arrAt w cfg0.N
theorem Y2_arr (c : Dev nD) (w : Fin cfg0.W) :
    Y2 m ρ c (Proc.devRef .tc (Pipeline.arrRef spec0 w)) = (dat0 (Yr1 m ρ) c).arrAt w cfg0.N := by
  unfold Y2; exact Pipeline.withArrays_arr spec0 launch0.win.arr_inj c _ _ w
theorem Y2_of_ne (c : Dev nD) (b : Ref sig .tc) (hb : ∀ w, Pipeline.arrRef spec0 w ≠ b) :
    Y2 m ρ c (Proc.devRef .tc b) = Y1 m ρ c (Proc.devRef .tc b) := by
  unfold Y2; exact Pipeline.withArrays_of_ne spec0 c _ _ b hb
abbrev Yr2 : (c : Dev nD) → (b : Ref sig .tc) → Buf (Elt F) ((c : Thread nD τ).loc b) := fun c b => Y2 m ρ c b
theorem hF0 (c : Dev nD) (w : Fin cfg0.W) : (dat0 (Yr1 m ρ) c).arrAt w cfg0.N = Yr2 m ρ c (Pipeline.arrRef spec0 w) :=
  (Y2_arr m ρ c w).symm
theorem hrest0 (c : Dev nD) : ∀ b, b ∉ Finset.univ.image (Pipeline.arrRef spec0) → Yr2 m ρ c b = Yr1 m ρ c b :=
  fun b hb => Y2_of_ne m ρ c b fun w e => hb (Finset.mem_image.mpr ⟨w, Finset.mem_univ _, e⟩)
/-- After the host stretch `hostOps1`. -/
abbrev Y3 : Dev nD → Valuation τ sig (Elt F) := fun c => StableHlo.after hostOps1 (Y2 m ρ c)
/-- After the host stretch `hostOps1_1`. -/
abbrev Y4 : Dev nD → Valuation τ sig (Elt F) := fun c => StableHlo.after hostOps1_1 (Y3 m ρ c)
/-- After the host stretch `hostOps1_2`. -/
abbrev Y5 : Dev nD → Valuation τ sig (Elt F) := fun c => StableHlo.after hostOps1_2 (Y4 m ρ c)
/-- After the host stretch `hostOps1_3`. -/
abbrev Y6 : Dev nD → Valuation τ sig (Elt F) := fun c => StableHlo.after hostOps1_3 (Y5 m ρ c)
/-- The same read at the TensorCore's references: what region 1's proof data take. -/
abbrev Yr6 : (c : Dev nD) → (b : Ref sig .tc) → Buf (Elt F) ((c : Thread nD τ).loc b) := fun c b => Y6 m ρ c b
/-- At region 1's exit: its arrays at what the pipeline leaves (the inputs as entered, the output's write-backs folded), every
    other buffer as entered. -/
def Y7 (c : Dev nD) : Valuation τ sig (Elt F) :=
  Pipeline.withArrays spec1 c (Y6 m ρ c) fun w => (dat1 (Yr6 m ρ) c).arrAt w cfg1.N
theorem Y7_arr (c : Dev nD) (w : Fin cfg1.W) :
    Y7 m ρ c (Proc.devRef .tc (Pipeline.arrRef spec1 w)) = (dat1 (Yr6 m ρ) c).arrAt w cfg1.N := by
  unfold Y7; exact Pipeline.withArrays_arr spec1 launch1.win.arr_inj c _ _ w
theorem Y7_of_ne (c : Dev nD) (b : Ref sig .tc) (hb : ∀ w, Pipeline.arrRef spec1 w ≠ b) :
    Y7 m ρ c (Proc.devRef .tc b) = Y6 m ρ c (Proc.devRef .tc b) := by
  unfold Y7; exact Pipeline.withArrays_of_ne spec1 c _ _ b hb
abbrev Yr7 : (c : Dev nD) → (b : Ref sig .tc) → Buf (Elt F) ((c : Thread nD τ).loc b) := fun c b => Y7 m ρ c b
theorem hF1 (c : Dev nD) (w : Fin cfg1.W) : (dat1 (Yr6 m ρ) c).arrAt w cfg1.N = Yr7 m ρ c (Pipeline.arrRef spec1 w) :=
  (Y7_arr m ρ c w).symm
theorem hrest1 (c : Dev nD) : ∀ b, b ∉ Finset.univ.image (Pipeline.arrRef spec1) → Yr7 m ρ c b = Yr6 m ρ c b :=
  fun b hb => Y7_of_ne m ρ c b fun w e => hb (Finset.mem_image.mpr ⟨w, Finset.mem_univ _, e⟩)
/-- After the host stretch `hostOps2`. -/
abbrev Y8 : Dev nD → Valuation τ sig (Elt F) := fun c => StableHlo.after hostOps2 (Y7 m ρ c)
/-- After the host stretch `hostOps2_1`. -/
abbrev Y9 : Dev nD → Valuation τ sig (Elt F) := fun c => StableHlo.after hostOps2_1 (Y8 m ρ c)
/-- After the host stretch `hostOps2_2`. -/
abbrev Y10 : Dev nD → Valuation τ sig (Elt F) := fun c => StableHlo.after hostOps2_2 (Y9 m ρ c)
/-- After the host stretch `hostOps2_3`. -/
abbrev Y11 : Dev nD → Valuation τ sig (Elt F) := fun c => StableHlo.after hostOps2_3 (Y10 m ρ c)
/-- The same read at the TensorCore's references: what region 2's proof data take. -/
abbrev Yr11 : (c : Dev nD) → (b : Ref sig .tc) → Buf (Elt F) ((c : Thread nD τ).loc b) := fun c b => Y11 m ρ c b
/-- At region 2's exit: its arrays at what the pipeline leaves (the inputs as entered, the output's write-backs folded), every
    other buffer as entered. -/
def Y12 (c : Dev nD) : Valuation τ sig (Elt F) :=
  Pipeline.withArrays spec2 c (Y11 m ρ c) fun w => (dat2 (Yr11 m ρ) c).arrAt w cfg2.N
theorem Y12_arr (c : Dev nD) (w : Fin cfg2.W) :
    Y12 m ρ c (Proc.devRef .tc (Pipeline.arrRef spec2 w)) = (dat2 (Yr11 m ρ) c).arrAt w cfg2.N := by
  unfold Y12; exact Pipeline.withArrays_arr spec2 launch2.win.arr_inj c _ _ w
theorem Y12_of_ne (c : Dev nD) (b : Ref sig .tc) (hb : ∀ w, Pipeline.arrRef spec2 w ≠ b) :
    Y12 m ρ c (Proc.devRef .tc b) = Y11 m ρ c (Proc.devRef .tc b) := by
  unfold Y12; exact Pipeline.withArrays_of_ne spec2 c _ _ b hb
abbrev Yr12 : (c : Dev nD) → (b : Ref sig .tc) → Buf (Elt F) ((c : Thread nD τ).loc b) := fun c b => Y12 m ρ c b
theorem hF2 (c : Dev nD) (w : Fin cfg2.W) : (dat2 (Yr11 m ρ) c).arrAt w cfg2.N = Yr12 m ρ c (Pipeline.arrRef spec2 w) :=
  (Y12_arr m ρ c w).symm
theorem hrest2 (c : Dev nD) : ∀ b, b ∉ Finset.univ.image (Pipeline.arrRef spec2) → Yr12 m ρ c b = Yr11 m ρ c b :=
  fun b hb => Y12_of_ne m ρ c b fun w e => hb (Finset.mem_image.mpr ⟨w, Finset.mem_univ _, e⟩)

/-- Region 0 changes no buffer but its product `main_v5`: an input array is never written, a buffer it does not window bypasses it. -/
theorem Y2_keep (c : Dev nD) (b : Ref sig .tc) (hb : b ≠ main_v5) :
    Y2 m ρ c (Proc.devRef .tc b) = Y1 m ρ c (Proc.devRef .tc b) := by
  by_cases h : ∀ w, Pipeline.arrRef spec0 w ≠ b
  · exact Y2_of_ne m ρ c b h
  · push Not at h; obtain ⟨w, rfl⟩ := h
    rw [Y2_arr]
    match w with
    | ⟨0, _⟩ => exact ((dat0 (Yr1 m ρ) c).arrAt_in 0 rfl _).trans (A_eq0 (Yr1 m ρ) c 0)
    | ⟨1, _⟩ => exact ((dat0 (Yr1 m ρ) c).arrAt_in 1 rfl _).trans (A_eq0 (Yr1 m ρ) c 1)
    | ⟨2, _⟩ => exact absurd rfl hb
/-- Region 1 changes no buffer but its product `main_v49`: an input array is never written, a buffer it does not window bypasses it. -/
theorem Y7_keep (c : Dev nD) (b : Ref sig .tc) (hb : b ≠ main_v49) :
    Y7 m ρ c (Proc.devRef .tc b) = Y6 m ρ c (Proc.devRef .tc b) := by
  by_cases h : ∀ w, Pipeline.arrRef spec1 w ≠ b
  · exact Y7_of_ne m ρ c b h
  · push Not at h; obtain ⟨w, rfl⟩ := h
    rw [Y7_arr]
    match w with
    | ⟨0, _⟩ => exact ((dat1 (Yr6 m ρ) c).arrAt_in 0 rfl _).trans (A_eq1 (Yr6 m ρ) c 0)
    | ⟨1, _⟩ => exact ((dat1 (Yr6 m ρ) c).arrAt_in 1 rfl _).trans (A_eq1 (Yr6 m ρ) c 1)
    | ⟨2, _⟩ => exact absurd rfl hb
/-- Region 2 changes no buffer but its product `main_v93`: an input array is never written, a buffer it does not window bypasses it. -/
theorem Y12_keep (c : Dev nD) (b : Ref sig .tc) (hb : b ≠ main_v93) :
    Y12 m ρ c (Proc.devRef .tc b) = Y11 m ρ c (Proc.devRef .tc b) := by
  by_cases h : ∀ w, Pipeline.arrRef spec2 w ≠ b
  · exact Y12_of_ne m ρ c b h
  · push Not at h; obtain ⟨w, rfl⟩ := h
    rw [Y12_arr]
    match w with
    | ⟨0, _⟩ => exact ((dat2 (Yr11 m ρ) c).arrAt_in 0 rfl _).trans (A_eq2 (Yr11 m ρ) c 0)
    | ⟨1, _⟩ => exact ((dat2 (Yr11 m ρ) c).arrAt_in 1 rfl _).trans (A_eq2 (Yr11 m ρ) c 1)
    | ⟨2, _⟩ => exact ((dat2 (Yr11 m ρ) c).arrAt_in 2 rfl _).trans (A_eq2 (Yr11 m ρ) c 2)
    | ⟨3, _⟩ => exact ((dat2 (Yr11 m ρ) c).arrAt_in 3 rfl _).trans (A_eq2 (Yr11 m ρ) c 3)
    | ⟨4, _⟩ => exact absurd rfl hb

/-- `main_arg0` reaches the end as launched: no host stretch writes it and no region changes it. -/
theorem Y12_main_arg0 (c : Dev nD) : Y12 m ρ c (Proc.devRef .tc main_arg0) = m ((c : Thread nD τ).loc main_arg0) :=
  (Y12_keep m ρ c main_arg0 (by decide)).trans <| (StableHlo.after_of_writes_sub hostOps2_3 _ hostOps2_3_writes (r := main_arg0) (by decide)).trans <|
  (StableHlo.after_of_writes_sub hostOps2_2 _ hostOps2_2_writes (r := main_arg0) (by decide)).trans <| (StableHlo.after_of_writes_sub hostOps2_1 _ hostOps2_1_writes (r := main_arg0) (by decide)).trans <|
  (StableHlo.after_of_writes_sub hostOps2 _ hostOps2_writes (r := main_arg0) (by decide)).trans <| (Y7_keep m ρ c main_arg0 (by decide)).trans <|
  (StableHlo.after_of_writes_sub hostOps1_3 _ hostOps1_3_writes (r := main_arg0) (by decide)).trans <| (StableHlo.after_of_writes_sub hostOps1_2 _ hostOps1_2_writes (r := main_arg0) (by decide)).trans <|
  (StableHlo.after_of_writes_sub hostOps1_1 _ hostOps1_1_writes (r := main_arg0) (by decide)).trans <| (StableHlo.after_of_writes_sub hostOps1 _ hostOps1_writes (r := main_arg0) (by decide)).trans <|
  (Y2_keep m ρ c main_arg0 (by decide)).trans <| (StableHlo.after_of_writes_sub hostOps0 _ hostOps0_writes (r := main_arg0) (by decide)).trans rfl
/-- `main_arg1` reaches the end as launched: no host stretch writes it and no region changes it. -/
theorem Y12_main_arg1 (c : Dev nD) : Y12 m ρ c (Proc.devRef .tc main_arg1) = m ((c : Thread nD τ).loc main_arg1) :=
  (Y12_keep m ρ c main_arg1 (by decide)).trans <| (StableHlo.after_of_writes_sub hostOps2_3 _ hostOps2_3_writes (r := main_arg1) (by decide)).trans <|
  (StableHlo.after_of_writes_sub hostOps2_2 _ hostOps2_2_writes (r := main_arg1) (by decide)).trans <| (StableHlo.after_of_writes_sub hostOps2_1 _ hostOps2_1_writes (r := main_arg1) (by decide)).trans <|
  (StableHlo.after_of_writes_sub hostOps2 _ hostOps2_writes (r := main_arg1) (by decide)).trans <| (Y7_keep m ρ c main_arg1 (by decide)).trans <|
  (StableHlo.after_of_writes_sub hostOps1_3 _ hostOps1_3_writes (r := main_arg1) (by decide)).trans <| (StableHlo.after_of_writes_sub hostOps1_2 _ hostOps1_2_writes (r := main_arg1) (by decide)).trans <|
  (StableHlo.after_of_writes_sub hostOps1_1 _ hostOps1_1_writes (r := main_arg1) (by decide)).trans <| (StableHlo.after_of_writes_sub hostOps1 _ hostOps1_writes (r := main_arg1) (by decide)).trans <|
  (Y2_keep m ρ c main_arg1 (by decide)).trans <| (StableHlo.after_of_writes_sub hostOps0 _ hostOps0_writes (r := main_arg1) (by decide)).trans rfl
/-- `main_arg2` reaches the end as launched: no host stretch writes it and no region changes it. -/
theorem Y12_main_arg2 (c : Dev nD) : Y12 m ρ c (Proc.devRef .tc main_arg2) = m ((c : Thread nD τ).loc main_arg2) :=
  (Y12_keep m ρ c main_arg2 (by decide)).trans <| (StableHlo.after_of_writes_sub hostOps2_3 _ hostOps2_3_writes (r := main_arg2) (by decide)).trans <|
  (StableHlo.after_of_writes_sub hostOps2_2 _ hostOps2_2_writes (r := main_arg2) (by decide)).trans <| (StableHlo.after_of_writes_sub hostOps2_1 _ hostOps2_1_writes (r := main_arg2) (by decide)).trans <|
  (StableHlo.after_of_writes_sub hostOps2 _ hostOps2_writes (r := main_arg2) (by decide)).trans <| (Y7_keep m ρ c main_arg2 (by decide)).trans <|
  (StableHlo.after_of_writes_sub hostOps1_3 _ hostOps1_3_writes (r := main_arg2) (by decide)).trans <| (StableHlo.after_of_writes_sub hostOps1_2 _ hostOps1_2_writes (r := main_arg2) (by decide)).trans <|
  (StableHlo.after_of_writes_sub hostOps1_1 _ hostOps1_1_writes (r := main_arg2) (by decide)).trans <| (StableHlo.after_of_writes_sub hostOps1 _ hostOps1_writes (r := main_arg2) (by decide)).trans <|
  (Y2_keep m ρ c main_arg2 (by decide)).trans <| (StableHlo.after_of_writes_sub hostOps0 _ hostOps0_writes (r := main_arg2) (by decide)).trans rfl
/-- `main_arg3` reaches the end as launched: no host stretch writes it and no region changes it. -/
theorem Y12_main_arg3 (c : Dev nD) : Y12 m ρ c (Proc.devRef .tc main_arg3) = m ((c : Thread nD τ).loc main_arg3) :=
  (Y12_keep m ρ c main_arg3 (by decide)).trans <| (StableHlo.after_of_writes_sub hostOps2_3 _ hostOps2_3_writes (r := main_arg3) (by decide)).trans <|
  (StableHlo.after_of_writes_sub hostOps2_2 _ hostOps2_2_writes (r := main_arg3) (by decide)).trans <| (StableHlo.after_of_writes_sub hostOps2_1 _ hostOps2_1_writes (r := main_arg3) (by decide)).trans <|
  (StableHlo.after_of_writes_sub hostOps2 _ hostOps2_writes (r := main_arg3) (by decide)).trans <| (Y7_keep m ρ c main_arg3 (by decide)).trans <|
  (StableHlo.after_of_writes_sub hostOps1_3 _ hostOps1_3_writes (r := main_arg3) (by decide)).trans <| (StableHlo.after_of_writes_sub hostOps1_2 _ hostOps1_2_writes (r := main_arg3) (by decide)).trans <|
  (StableHlo.after_of_writes_sub hostOps1_1 _ hostOps1_1_writes (r := main_arg3) (by decide)).trans <| (StableHlo.after_of_writes_sub hostOps1 _ hostOps1_writes (r := main_arg3) (by decide)).trans <|
  (Y2_keep m ρ c main_arg3 (by decide)).trans <| (StableHlo.after_of_writes_sub hostOps0 _ hostOps0_writes (r := main_arg3) (by decide)).trans rfl
/-- `main_arg4` reaches the end as launched: no host stretch writes it and no region changes it. -/
theorem Y12_main_arg4 (c : Dev nD) : Y12 m ρ c (Proc.devRef .tc main_arg4) = m ((c : Thread nD τ).loc main_arg4) :=
  (Y12_keep m ρ c main_arg4 (by decide)).trans <| (StableHlo.after_of_writes_sub hostOps2_3 _ hostOps2_3_writes (r := main_arg4) (by decide)).trans <|
  (StableHlo.after_of_writes_sub hostOps2_2 _ hostOps2_2_writes (r := main_arg4) (by decide)).trans <| (StableHlo.after_of_writes_sub hostOps2_1 _ hostOps2_1_writes (r := main_arg4) (by decide)).trans <|
  (StableHlo.after_of_writes_sub hostOps2 _ hostOps2_writes (r := main_arg4) (by decide)).trans <| (Y7_keep m ρ c main_arg4 (by decide)).trans <|
  (StableHlo.after_of_writes_sub hostOps1_3 _ hostOps1_3_writes (r := main_arg4) (by decide)).trans <| (StableHlo.after_of_writes_sub hostOps1_2 _ hostOps1_2_writes (r := main_arg4) (by decide)).trans <|
  (StableHlo.after_of_writes_sub hostOps1_1 _ hostOps1_1_writes (r := main_arg4) (by decide)).trans <| (StableHlo.after_of_writes_sub hostOps1 _ hostOps1_writes (r := main_arg4) (by decide)).trans <|
  (Y2_keep m ρ c main_arg4 (by decide)).trans <| (StableHlo.after_of_writes_sub hostOps0 _ hostOps0_writes (r := main_arg4) (by decide)).trans rfl
/-- `main_arg5` reaches the end as launched: no host stretch writes it and no region changes it. -/
theorem Y12_main_arg5 (c : Dev nD) : Y12 m ρ c (Proc.devRef .tc main_arg5) = m ((c : Thread nD τ).loc main_arg5) :=
  (Y12_keep m ρ c main_arg5 (by decide)).trans <| (StableHlo.after_of_writes_sub hostOps2_3 _ hostOps2_3_writes (r := main_arg5) (by decide)).trans <|
  (StableHlo.after_of_writes_sub hostOps2_2 _ hostOps2_2_writes (r := main_arg5) (by decide)).trans <| (StableHlo.after_of_writes_sub hostOps2_1 _ hostOps2_1_writes (r := main_arg5) (by decide)).trans <|
  (StableHlo.after_of_writes_sub hostOps2 _ hostOps2_writes (r := main_arg5) (by decide)).trans <| (Y7_keep m ρ c main_arg5 (by decide)).trans <|
  (StableHlo.after_of_writes_sub hostOps1_3 _ hostOps1_3_writes (r := main_arg5) (by decide)).trans <| (StableHlo.after_of_writes_sub hostOps1_2 _ hostOps1_2_writes (r := main_arg5) (by decide)).trans <|
  (StableHlo.after_of_writes_sub hostOps1_1 _ hostOps1_1_writes (r := main_arg5) (by decide)).trans <| (StableHlo.after_of_writes_sub hostOps1 _ hostOps1_writes (r := main_arg5) (by decide)).trans <|
  (Y2_keep m ρ c main_arg5 (by decide)).trans <| (StableHlo.after_of_writes_sub hostOps0 _ hostOps0_writes (r := main_arg5) (by decide)).trans rfl
/-- `main_arg6` reaches the end as launched: no host stretch writes it and no region changes it. -/
theorem Y12_main_arg6 (c : Dev nD) : Y12 m ρ c (Proc.devRef .tc main_arg6) = m ((c : Thread nD τ).loc main_arg6) :=
  (Y12_keep m ρ c main_arg6 (by decide)).trans <| (StableHlo.after_of_writes_sub hostOps2_3 _ hostOps2_3_writes (r := main_arg6) (by decide)).trans <|
  (StableHlo.after_of_writes_sub hostOps2_2 _ hostOps2_2_writes (r := main_arg6) (by decide)).trans <| (StableHlo.after_of_writes_sub hostOps2_1 _ hostOps2_1_writes (r := main_arg6) (by decide)).trans <|
  (StableHlo.after_of_writes_sub hostOps2 _ hostOps2_writes (r := main_arg6) (by decide)).trans <| (Y7_keep m ρ c main_arg6 (by decide)).trans <|
  (StableHlo.after_of_writes_sub hostOps1_3 _ hostOps1_3_writes (r := main_arg6) (by decide)).trans <| (StableHlo.after_of_writes_sub hostOps1_2 _ hostOps1_2_writes (r := main_arg6) (by decide)).trans <|
  (StableHlo.after_of_writes_sub hostOps1_1 _ hostOps1_1_writes (r := main_arg6) (by decide)).trans <| (StableHlo.after_of_writes_sub hostOps1 _ hostOps1_writes (r := main_arg6) (by decide)).trans <|
  (Y2_keep m ρ c main_arg6 (by decide)).trans <| (StableHlo.after_of_writes_sub hostOps0 _ hostOps0_writes (r := main_arg6) (by decide)).trans rfl
/-- `main_arg7` reaches the end as launched: no host stretch writes it and no region changes it. -/
theorem Y12_main_arg7 (c : Dev nD) : Y12 m ρ c (Proc.devRef .tc main_arg7) = m ((c : Thread nD τ).loc main_arg7) :=
  (Y12_keep m ρ c main_arg7 (by decide)).trans <| (StableHlo.after_of_writes_sub hostOps2_3 _ hostOps2_3_writes (r := main_arg7) (by decide)).trans <|
  (StableHlo.after_of_writes_sub hostOps2_2 _ hostOps2_2_writes (r := main_arg7) (by decide)).trans <| (StableHlo.after_of_writes_sub hostOps2_1 _ hostOps2_1_writes (r := main_arg7) (by decide)).trans <|
  (StableHlo.after_of_writes_sub hostOps2 _ hostOps2_writes (r := main_arg7) (by decide)).trans <| (Y7_keep m ρ c main_arg7 (by decide)).trans <|
  (StableHlo.after_of_writes_sub hostOps1_3 _ hostOps1_3_writes (r := main_arg7) (by decide)).trans <| (StableHlo.after_of_writes_sub hostOps1_2 _ hostOps1_2_writes (r := main_arg7) (by decide)).trans <|
  (StableHlo.after_of_writes_sub hostOps1_1 _ hostOps1_1_writes (r := main_arg7) (by decide)).trans <| (StableHlo.after_of_writes_sub hostOps1 _ hostOps1_writes (r := main_arg7) (by decide)).trans <|
  (Y2_keep m ρ c main_arg7 (by decide)).trans <| (StableHlo.after_of_writes_sub hostOps0 _ hostOps0_writes (r := main_arg7) (by decide)).trans rfl
/-- `main_arg8` reaches the end as launched: no host stretch writes it and no region changes it. -/
theorem Y12_main_arg8 (c : Dev nD) : Y12 m ρ c (Proc.devRef .tc main_arg8) = m ((c : Thread nD τ).loc main_arg8) :=
  (Y12_keep m ρ c main_arg8 (by decide)).trans <| (StableHlo.after_of_writes_sub hostOps2_3 _ hostOps2_3_writes (r := main_arg8) (by decide)).trans <|
  (StableHlo.after_of_writes_sub hostOps2_2 _ hostOps2_2_writes (r := main_arg8) (by decide)).trans <| (StableHlo.after_of_writes_sub hostOps2_1 _ hostOps2_1_writes (r := main_arg8) (by decide)).trans <|
  (StableHlo.after_of_writes_sub hostOps2 _ hostOps2_writes (r := main_arg8) (by decide)).trans <| (Y7_keep m ρ c main_arg8 (by decide)).trans <|
  (StableHlo.after_of_writes_sub hostOps1_3 _ hostOps1_3_writes (r := main_arg8) (by decide)).trans <| (StableHlo.after_of_writes_sub hostOps1_2 _ hostOps1_2_writes (r := main_arg8) (by decide)).trans <|
  (StableHlo.after_of_writes_sub hostOps1_1 _ hostOps1_1_writes (r := main_arg8) (by decide)).trans <| (StableHlo.after_of_writes_sub hostOps1 _ hostOps1_writes (r := main_arg8) (by decide)).trans <|
  (Y2_keep m ρ c main_arg8 (by decide)).trans <| (StableHlo.after_of_writes_sub hostOps0 _ hostOps0_writes (r := main_arg8) (by decide)).trans rfl

/-- The result buffer ends at the pooling region's product: what its write-backs leave in its output array. -/
theorem Y12_result (c : Dev nD) : Y12 m ρ c (Proc.devRef .tc main_v93) = (dat2 (Yr11 m ρ) c).arrAt 4 cfg2.N :=
  Y12_arr m ρ c 4

/-! ## The proof data family and the thread state -/

abbrev admK : (p : Fin 3) → (pcfgs (F := F) p).Adm := fun p => (cfgs p).toPCfg_adm
/-- Every region's proof data, each at its region's entry contents. -/
def pdatsK : (p : Fin 3) → (c : Dev nD) → Dat τ (Elt F) Unit ℕ (UR sig nD τ) ℕ (Pipeline.pin (pcfgs (F := F)) admK p) c
  | ⟨0, _⟩ => fun c => dat0 (Yr1 m ρ) c
  | ⟨1, _⟩ => fun c => dat1 (Yr6 m ρ) c
  | ⟨2, _⟩ => fun c => dat2 (Yr11 m ρ) c
abbrev 𝒱K : Variants := Variants.none
abbrev LK : GSem nD τ sig → Finset Unit := fun _ => ∅
abbrev lvK : GSem nD τ sig → Unit → ℕ := fun _ _ => 0
/-- What rides beside the buffers through every item: the generator register at some state, and the core owing nothing. -/
abbrev Rid (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rid

theorem mem_ucK (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev TnK (c : Dev nD) : sProp 𝕄 := iprop(StableHlo.held (c : Thread nD τ) (Pipeline.ucRefs τ sig) (Y12 m ρ c) ∗ ∃ r, prngReg c r)

/-! ## The regions as segments -/

set_option backward.isDefEq.respectTransparency.types false in
/-- Region 0 over the thread state: entered from every unscoped buffer at `Y1`, left at `Y2`. Its arrays are split out of
    the unscoped buffers and put back at what the write-backs leave; the generator register goes into the invariant and comes
    back; nothing is owed; the kernel has no semaphore of its own. -/
def regK0 : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (Yr1 m ρ) c).loose
  hwaits := Pipeline.hwaits_of_owed_zero _ _ _ _ LK lvK 0 fun _ _ => rfl
  pre c := iprop(StableHlo.held (c : Thread nD τ) (Pipeline.ucRefs τ sig) (Y1 m ρ c) ∗ Rid c)
  post c := iprop(StableHlo.held (c : Thread nD τ) (Pipeline.ucRefs τ sig) (Y2 m ρ c) ∗ Rid c)
  X c := iprop(∃ r, prngReg c r)
  Y c := iprop(∃ r, prngReg c r)
  Z c := Pipeline.unscopedRest (Ix := Unit) (Name := ℕ) (U := UR sig nD τ) (Lvl := ℕ) spec0 c (Yr1 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (Yr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (Yr1 m ρ c) (Yr2 m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Y6`, left at `Y7`. Its arrays are split out of
    the unscoped buffers and put back at what the write-backs leave; the generator register goes into the invariant and comes
    back; nothing is owed; the kernel has no semaphore of its own. -/
def regK1 : Pipeline.RegionSeg (pcfgs (F := F)) admK (pdatsK m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (Yr6 m ρ) c).loose
  hwaits := Pipeline.hwaits_of_owed_zero _ _ _ _ LK lvK 1 fun _ _ => rfl
  pre c := iprop(StableHlo.held (c : Thread nD τ) (Pipeline.ucRefs τ sig) (Y6 m ρ c) ∗ Rid c)
  post c := iprop(StableHlo.held (c : Thread nD τ) (Pipeline.ucRefs τ sig) (Y7 m ρ c) ∗ Rid c)
  X c := iprop(∃ r, prngReg c r)
  Y c := iprop(∃ r, prngReg c r)
  Z c := Pipeline.unscopedRest (Ix := Unit) (Name := ℕ) (U := UR sig nD τ) (Lvl := ℕ) spec1 c (Yr6 m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (Yr6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (Yr6 m ρ c) (Yr7 m ρ c) ((pdatsK m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Y11`, left at `Y12`. Its arrays are split out of
    the unscoped buffers and put back at what the write-backs leave; the generator register goes into the invariant and comes
    back; nothing is owed; the kernel has no semaphore of its own. -/
def regK2 : Pipeline.RegionSeg (pcfgs (F := F)) admK (pdatsK m ρ) () defs₀ 𝒱K LK lvK 2 where
  win := launch2.win.to₀
  block_pos := launch2.block_pos
  stage_whole := launch2.stage_whole
  K := PEmpty
  osem k := k.elim
  ho := Pipeline.OwnSemFacts.none _
  hbody c := (body_obligation2 (Yr11 m ρ) c).loose
  hwaits := Pipeline.hwaits_of_owed_zero _ _ _ _ LK lvK 2 fun _ _ => rfl
  pre c := iprop(StableHlo.held (c : Thread nD τ) (Pipeline.ucRefs τ sig) (Y11 m ρ c) ∗ Rid c)
  post c := iprop(TnK m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Yr11 m ρ c)
  hentry c := by
    rw [Pipeline.ownSems0_none]
    have hsplit := Pipeline.arrays_of_unscopedBufs (p := 2) (pcfgs (F := F)) admK (pdatsK m ρ) launch2.win launch2.arr_whole c
      ((pdatsK m ρ 2 c).share_full fun _ => rfl) (Yr11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 2 c).Φ 0 = (dat2 (Yr11 m ρ) c).Φ 0 from rfl]
    iintro ⟨Hp, -, Hr⟩
    iapply (hin2 (Yr11 m ρ) c)
    unfold Pipeline.ΦA
    isplitl [Hr]; · iexact Hr
    iexact Hp
  hout c := by
    rw [Pipeline.ownSems0_none, show (pdatsK m ρ 2 c).Φ (Fin.last _) = (dat2 (Yr11 m ρ) c).Φ (Fin.last cfg2.N) from rfl]
    iintro HP
    ihave H := (hout2 (Yr11 m ρ) c) $$ HP
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdatsK m ρ) ((pdatsK m ρ 2 c).share_full fun _ => rfl)
      (Yr11 m ρ c) (Yr12 m ρ c) ((pdatsK m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsK : List (Pipeline.Seg (pcfgs (F := F)) admK (pdatsK m ρ) () defs₀ 𝒱K LK lvK) :=
  [ .host (hsegK hostOps0 hostOps0_sub hostOps0_fresh (Y0 m ρ)),
    .region (regK0 m ρ),
    .host (hsegK hostOps1 hostOps1_sub hostOps1_fresh (Y2 m ρ)),
    .host (hsegK hostOps1_1 hostOps1_1_sub hostOps1_1_fresh (Y3 m ρ)),
    .host (hsegK hostOps1_2 hostOps1_2_sub hostOps1_2_fresh (Y4 m ρ)),
    .host (hsegK hostOps1_3 hostOps1_3_sub hostOps1_3_fresh (Y5 m ρ)),
    .region (regK1 m ρ),
    .host (hsegK hostOps2 hostOps2_sub hostOps2_fresh (Y7 m ρ)),
    .host (hsegK hostOps2_1 hostOps2_1_sub hostOps2_1_fresh (Y8 m ρ)),
    .host (hsegK hostOps2_2 hostOps2_2_sub hostOps2_2_fresh (Y9 m ρ)),
    .host (hsegK hostOps2_3 hostOps2_3_sub hostOps2_3_fresh (Y10 m ρ)),
    .region (regK2 m ρ) ]

theorem main_runK (c : Dev nD) : main (F := F) c = Pipeline.Seg.run (segsK m ρ) := (main_chain c).trans (by chain_rfl)

set_option backward.isDefEq.respectTransparency.types false in
/-- THE RUN: from any memory with zero counters every weakly fair execution of @main terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Y12 m ρ c b) :=
  Pipeline.θ_run_regions_kit (pcfgs (F := F)) admK (pdatsK m ρ) () cellOf_inj emb₁ defs₀ 𝒱K LK lvK m ρ main (segsK m ρ)
    (fun c Q => by rw [main_runK m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Y0 m ρ c) ∗ Rid c)) (Tₙ := TnK m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (Y0 m ρ c)
        from Pipeline.unscopedBufs_held c (Y0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y12 m ρ c b)
    (hfin := fun c s' => by
      iintro ⟨⟨Hh, -⟩, HSI⟩
      unfold StableHlo.held
      imodintro
      iapply (pointsTo_read_all (Pipeline.ucRefs τ sig) (fun b => (((c : Thread nD τ)).1, b)) (Y12 m ρ c) s')
      isplitl [Hh] <;> iassumption)
    (hQ := fun s h c => h c)

/-- THE FRAME, at any float family: the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_ucK main_arg0 (by decide))).trans (Y12_main_arg0 m ρ c),
     (h c _ (mem_ucK main_arg1 (by decide))).trans (Y12_main_arg1 m ρ c),
     (h c _ (mem_ucK main_arg2 (by decide))).trans (Y12_main_arg2 m ρ c),
     (h c _ (mem_ucK main_arg3 (by decide))).trans (Y12_main_arg3 m ρ c),
     (h c _ (mem_ucK main_arg4 (by decide))).trans (Y12_main_arg4 m ρ c),
     (h c _ (mem_ucK main_arg5 (by decide))).trans (Y12_main_arg5 m ρ c),
     (h c _ (mem_ucK main_arg6 (by decide))).trans (Y12_main_arg6 m ρ c),
     (h c _ (mem_ucK main_arg7 (by decide))).trans (Y12_main_arg7 m ρ c),
     (h c _ (mem_ucK main_arg8 (by decide))).trans (Y12_main_arg8 m ρ c)⟩) (run_all m ρ)

/-- THE RESULT: the result buffer ends at the pooling region's product, and the arguments as launched. -/
theorem run_result : θ_run defs (onTc (τ := τ) (main (F := F))) ⟨m, fun _ => 0, ρ⟩ (fun r => ∀ c : Dev nD,
      r.2.mem ((c.tc : Thread nD τ).loc main_v93) = (dat2 (Yr11 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_ucK main_v93 (by decide))).trans (Y12_result m ρ c),
     (h c _ (mem_ucK main_arg0 (by decide))).trans (Y12_main_arg0 m ρ c),
     (h c _ (mem_ucK main_arg1 (by decide))).trans (Y12_main_arg1 m ρ c),
     (h c _ (mem_ucK main_arg2 (by decide))).trans (Y12_main_arg2 m ρ c),
     (h c _ (mem_ucK main_arg3 (by decide))).trans (Y12_main_arg3 m ρ c),
     (h c _ (mem_ucK main_arg4 (by decide))).trans (Y12_main_arg4 m ρ c),
     (h c _ (mem_ucK main_arg5 (by decide))).trans (Y12_main_arg5 m ρ c),
     (h c _ (mem_ucK main_arg6 (by decide))).trans (Y12_main_arg6 m ρ c),
     (h c _ (mem_ucK main_arg7 (by decide))).trans (Y12_main_arg7 m ρ c),
     (h c _ (mem_ucK main_arg8 (by decide))).trans (Y12_main_arg8 m ρ c)⟩) (run_all m ρ)

end Cert.KernelIdeal.Gen

end
-- ==== Proof.Bridge.Layer.lean ====
/-
  The two programs share their graph-convolution arithmetic: after each layer's linear map both append self-loops to the
  edge list, count each node's in-degree by a scatter-add of ones, take its inverse square root (zero where the degree is
  not positive), scale each gathered source row by the product of the two endpoint factors, scatter-add the scaled rows to
  their target nodes, add the bias and clamp at zero. The reference then pools: per graph id the sum of the node rows and
  the node count by two scatter-adds, the quotient by max(count, 1), the linear map to one logit per graph plus the bias,
  and the logistic function written as 1 / (1 + exp(−x)). Here these two stretches are named as functions of their
  operands — `gcnLayer` of the layer's linear output, the edge list and the bias; `refTail` of the last layer's output,
  the graph ids, the weight and the bias — and the reference's stages are shown to be exactly them, at any float family.
-/
import proofs.«409795_j15513421873661_1_alg».proof.Proof.RefRead

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

/-- An index vector as a gather takes it: a negative index counted from the end (plus 50000), as a column. -/
def wrapIdx (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- Row `r` of the edge list (the sources, `r = 0`; the targets, `r = 1`) with the self-loops `0 … 49999` appended. -/
def srcWithLoops (ei : (⟨S2x800000, .i32⟩ : BufTy).Contents (Elt F)) : (⟨S850000, .i32⟩ : BufTy).Contents (Elt F) :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0
def dstWithLoops (ei : (⟨S2x800000, .i32⟩ : BufTy).Contents (Elt F)) : (⟨S850000, .i32⟩ : BufTy).Contents (Elt F) :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- Each node's in-degree, self-loop included: a scatter-add of ones over the targets. -/
def degree (ei : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant (F := F) S_ .f32 0x00000000#32))
    (broadcastInDim S850000x1 ![0] bcast_S850000_S850000x1_0 (dstWithLoops (F := F) ei)) (broadcastInDim S850000 ![] bcast_S_S850000 (constant (F := F) S_ .f32 0x3F800000#32))

/-- Its inverse square root, zero where the degree is not positive. -/
def invSqrtDegree (ei : (⟨S2x800000, .i32⟩ : BufTy).Contents (Elt F)) : (⟨S50000, .f32⟩ : BufTy).Contents (Elt F) :=
  select (cmpf (F := F) .ogt (degree (F := F) ei) (broadcastInDim S50000 ![] bcast_S_S50000 (constant (F := F) S_ .f32 0x00000000#32))) (Host.rsqrt (degree (F := F) ei))
    (broadcastInDim S50000 ![] bcast_S_S50000 (id (constant (F := F) S_ .f32 0x00000000#32)))

/-- One graph-convolution layer after its linear map `h`: each edge's source row of `h`, scaled by the product of the
    two endpoints' factors, added into its target's row; then the bias, then the clamp at zero. -/
def gcnLayer (h : (⟨S50000x128, .f32⟩ : BufTy).Contents (Elt F)) (ei : (⟨S2x800000, .i32⟩ : BufTy).Contents (Elt F)) (bias : (⟨S128, .f32⟩ : BufTy).Contents (Elt F)) : (⟨S50000x128, .f32⟩ : BufTy).Contents (Elt F) :=
  maximumf
    (addf
      (Host.scatterAdd scatter_S50000x128_S850000x1_S850000x128_1_0_0_1 (broadcastInDim S50000x128 ![] bcast_S_S50000x128 (constant (F := F) S_ .f32 0x00000000#32))
        (broadcastInDim S850000x1 ![0] bcast_S850000_S850000x1_0 (dstWithLoops (F := F) ei))
        (mulf
          (Host.gather gather_S50000x128_S850000x1_S850000x128_1_0_n_n_0_1_1128 h (wrapIdx (F := F) (srcWithLoops (F := F) ei)))
          (broadcastInDim S850000x128 ![0, 1] bcast_S850000x1_S850000x128_0_1
            (broadcastInDim S850000x1 ![0] bcast_S850000_S850000x1_0
              (mulf
                (Host.gather gather_S50000_S850000x1_S850000_n_0_n_n_0_1_1 (invSqrtDegree (F := F) ei) (wrapIdx (F := F) (srcWithLoops (F := F) ei)))
                (Host.gather gather_S50000_S850000x1_S850000_n_0_n_n_0_1_1 (invSqrtDegree (F := F) ei) (wrapIdx (F := F) (dstWithLoops (F := F) ei))))))))
      (broadcastInDim S50000x128 ![0, 1] bcast_S1x128_S50000x128_0_1 (broadcastInDim S1x128 ![1] bcast_S128_S1x128_1 bias)))
    (broadcastInDim S50000x128 ![] bcast_S_S50000x128 (constant (F := F) S_ .f32 0x00000000#32))

/-- The pooling tail: per graph id the sum of the node rows over max(count, 1), the linear map to one logit, the bias,
    and 1 / (1 + exp(−x)). -/
def refTail (h : (⟨S50000x128, .f32⟩ : BufTy).Contents (Elt F)) (b : (⟨S50000, .i32⟩ : BufTy).Contents (Elt F)) (w : (⟨S128x1, .f32⟩ : BufTy).Contents (Elt F)) (bias : (⟨S1, .f32⟩ : BufTy).Contents (Elt F)) : (⟨S512, .f32⟩ : BufTy).Contents (Elt F) :=
  shapeCast _
    (Host.divf (broadcastInDim S512x1 ![] bcast_S_S512x1 (constant (F := F) S_ .f32 0x3F800000#32))
      (addf (broadcastInDim S512x1 ![] bcast_S_S512x1 (constant (F := F) S_ .f32 0x3F800000#32))
        (Host.exp (Host.negf
          (addf
            (Host.dotGeneral dot_S512x128_S128x1_S512x1_1_0_0_1_n_n none
              (Host.divf
                (Host.scatterAdd scatter_S512x128_S50000x1_S50000x128_1_0_0_1 (broadcastInDim S512x128 ![] bcast_S_S512x128 (constant (F := F) S_ .f32 0x00000000#32))
                  (broadcastInDim S50000x1 ![0] bcast_S50000_S50000x1_0 b) h)
                (broadcastInDim S512x128 ![0, 1] bcast_S512x1_S512x128_0_1
                  (broadcastInDim S512x1 ![0] bcast_S512_S512x1_0
                    (maximumf
                      (Host.scatterAdd scatter_S512_S50000x1_S50000_n_0_0_1 (broadcastInDim S512 ![] bcast_S_S512 (constant (F := F) S_ .f32 0x00000000#32))
                        (broadcastInDim S50000x1 ![0] bcast_S50000_S50000x1_0 b) (broadcastInDim S50000 ![] bcast_S_S50000 (constant (F := F) S_ .f32 0x3F800000#32)))
                      (broadcastInDim S512 ![] bcast_S_S512 (constant (F := F) S_ .f32 0x3F800000#32))))))
              w)
            (broadcastInDim S512x1 ![0, 1] bcast_S1x1_S512x1_0_1 (broadcastInDim S1x1 ![1] bcast_S1_S1x1_1 bias)))))))
    shapeCasts_S512x1_S512

/-! ## The reference's stages are these functions -/

open Cert.ReferenceIdeal.ReadP in
/-- The first layer: the reference's value after its first clamp is the layer function of its first product. -/
theorem layer1_ref (x0 : (⟨S50000x128, .f32⟩ : BufTy).Contents (Elt F)) (x1 : (⟨S128x128, .f32⟩ : BufTy).Contents (Elt F)) (x2 : (⟨S128, .f32⟩ : BufTy).Contents (Elt F)) (x7 : (⟨S2x800000, .i32⟩ : BufTy).Contents (Elt F)) :
    val_main_v47 (F := F) x0 x1 x2 x7 = gcnLayer (val_main_v4 (F := F) x0 x1) x7 x2 := rfl

open Cert.ReferenceIdeal.ReadP in
/-- The second layer, of the second product. -/
theorem layer2_ref (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x7 : (⟨S2x800000, .i32⟩ : BufTy).Contents (Elt F)) :
    val_main_v91 (F := F) x0 x1 x2 x3 x4 x7 = gcnLayer (val_main_v48 (F := F) x0 x1 x2 x3 x7) x7 x4 := rfl

open Cert.ReferenceIdeal.ReadP in
/-- The pooling tail, of the second layer's output. -/
theorem tail_ref (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 : (⟨S128x1, .f32⟩ : BufTy).Contents (Elt F)) (x6 : (⟨S1, .f32⟩ : BufTy).Contents (Elt F)) (x7 : (⟨S2x800000, .i32⟩ : BufTy).Contents (Elt F)) (x8 : (⟨S50000, .i32⟩ : BufTy).Contents (Elt F)) :
    val_main_v114 (F := F) x0 x1 x2 x3 x4 x5 x6 x7 x8 = refTail (val_main_v91 (F := F) x0 x1 x2 x3 x4 x7) x8 x5 x6 := rfl

end Cert.Bridge

end
-- ==== Proof.KI.HostGlue.lean ====
/-
  What the kernel's program does between its regions, read as functions. Before the first product: two rows of the edge
  list are sliced out and the graph ids reshaped into a column; the arguments are untouched. Between the first product and
  the second, and between the second and the pooling region, the host operations are one graph-convolution layer's
  arithmetic after its linear map — the function `gcnLayer` of the product, the edge list and the layer's bias. Every
  argument array reaches every region as launched. At any float family.
-/
import proofs.«409795_j15513421873661_1_alg».proof.Proof.KI.Run
import proofs.«409795_j15513421873661_1_alg».proof.Proof.Bridge.Layer

set_option maxRecDepth 16384

noncomputable section

namespace Cert.KernelIdeal.Gen

open Idealize.ShloMosaic Idealize.ShloMosaic.TcCoe Idealize.ShloMosaic.Tactic
open Idealize.SL Idealize.SL.Sem
open Idealize.ShloMosaic.StableHlo

variable {F : FTy → Type} [FloatOps F]
variable (m : (ℓ : Loc nD τ sig) → Buf (Elt F) ℓ) (ρ : Dev nD → PrngReg)

/-! ## References no stretch writes keep their contents -/

theorem Y1_keep (c : Dev nD) (r : Ref sig .tc) (h : r ∉ hostOps0_W) : Y1 m ρ c (Proc.devRef .tc r) = m ((c : Thread nD τ).loc r) :=
  (StableHlo.after_of_writes_sub hostOps0 _ hostOps0_writes h).trans rfl

theorem Y6_keep (c : Dev nD) (r : Ref sig .tc) (h1 : r ∉ hostOps1_W) (h2 : r ∉ hostOps1_1_W) (h3 : r ∉ hostOps1_2_W) (h4 : r ∉ hostOps1_3_W) :
    Y6 m ρ c (Proc.devRef .tc r) = Y2 m ρ c (Proc.devRef .tc r) :=
  (StableHlo.after_of_writes_sub hostOps1_3 _ hostOps1_3_writes h4).trans <| (StableHlo.after_of_writes_sub hostOps1_2 _ hostOps1_2_writes h3).trans <|
  (StableHlo.after_of_writes_sub hostOps1_1 _ hostOps1_1_writes h2).trans <| (StableHlo.after_of_writes_sub hostOps1 _ hostOps1_writes h1)

theorem Y11_keep (c : Dev nD) (r : Ref sig .tc) (h1 : r ∉ hostOps2_W) (h2 : r ∉ hostOps2_1_W) (h3 : r ∉ hostOps2_2_W) (h4 : r ∉ hostOps2_3_W) :
    Y11 m ρ c (Proc.devRef .tc r) = Y7 m ρ c (Proc.devRef .tc r) :=
  (StableHlo.after_of_writes_sub hostOps2_3 _ hostOps2_3_writes h4).trans <| (StableHlo.after_of_writes_sub hostOps2_2 _ hostOps2_2_writes h3).trans <|
  (StableHlo.after_of_writes_sub hostOps2_1 _ hostOps2_1_writes h2).trans <| (StableHlo.after_of_writes_sub hostOps2 _ hostOps2_writes h1)

/-- An argument array at the first region's entry. -/
theorem Y1_arg (c : Dev nD) (r : Ref sig .tc) (h : r ∉ hostOps0_W) : Yr1 m ρ c r = m ((c : Thread nD τ).loc r) := Y1_keep m ρ c r h

/-- A reference written by nothing up to the second region's entry (an argument): as launched. -/
theorem Y6_arg (c : Dev nD) (r : Ref sig .tc) (h0 : r ∉ hostOps0_W) (hv : r ≠ main_v5) (h1 : r ∉ hostOps1_W) (h2 : r ∉ hostOps1_1_W) (h3 : r ∉ hostOps1_2_W) (h4 : r ∉ hostOps1_3_W) :
    Yr6 m ρ c r = m ((c : Thread nD τ).loc r) :=
  (Y6_keep m ρ c r h1 h2 h3 h4).trans <| (Y2_keep m ρ c r hv).trans (Y1_keep m ρ c r h0)

/-- The same up to the pooling region's entry. -/
theorem Y11_arg (c : Dev nD) (r : Ref sig .tc) (h0 : r ∉ hostOps0_W) (hv : r ≠ main_v5) (h1 : r ∉ hostOps1_W) (h2 : r ∉ hostOps1_1_W) (h3 : r ∉ hostOps1_2_W) (h4 : r ∉ hostOps1_3_W)
    (hv' : r ≠ main_v49) (h5 : r ∉ hostOps2_W) (h6 : r ∉ hostOps2_1_W) (h7 : r ∉ hostOps2_2_W) (h8 : r ∉ hostOps2_3_W) :
    Yr11 m ρ c r = m ((c : Thread nD τ).loc r) :=
  (Y11_keep m ρ c r h5 h6 h7 h8).trans <| (Y7_keep m ρ c r hv').trans (Y6_arg m ρ c r h0 hv h1 h2 h3 h4)

/-! ## The first stretch: the edge list's two rows and the ids' column -/

/-- The sources' row of the edge list, as the first stretch leaves it. -/
theorem Y1_row (c : Dev nD) :
    Y1 m ρ c (Proc.devRef .tc main_v1) = shapeCast _ (extractStridedSlice S1x800000 ![0, 0] (m ((c : Thread nD τ).loc main_arg7)) slices_S2x800000_S1x800000_0_0) shapeCasts_S1x800000_S800000 := by
  show StableHlo.after hostOps0 (Y0 m ρ c) (Proc.devRef .tc main_v1) = _
  after_results; rfl

/-- The targets' row. -/
theorem Y1_col (c : Dev nD) :
    Y1 m ρ c (Proc.devRef .tc main_v3) = shapeCast _ (extractStridedSlice S1x800000 ![1, 0] (m ((c : Thread nD τ).loc main_arg7)) slices_S2x800000_S1x800000_1_0) shapeCasts_S1x800000_S800000 := by
  show StableHlo.after hostOps0 (Y0 m ρ c) (Proc.devRef .tc main_v3) = _
  after_results; rfl

/-- The graph ids as a column. -/
theorem Y1_ids (c : Dev nD) :
    Y1 m ρ c (Proc.devRef .tc main_v4) = shapeCast S50000x1 (m ((c : Thread nD τ).loc main_arg8)) shapeCasts_S50000_S50000x1 := by
  show StableHlo.after hostOps0 (Y0 m ρ c) (Proc.devRef .tc main_v4) = _
  after_results; rfl

/-- A reference the first layer's stretches and the first two regions leave alone holds at the second product's exit what
    the first stretch left in it. -/
theorem Y7_to_Y1 (c : Dev nD) (r : Ref sig .tc) (hv : r ≠ main_v5) (h1 : r ∉ hostOps1_W) (h2 : r ∉ hostOps1_1_W) (h3 : r ∉ hostOps1_2_W) (h4 : r ∉ hostOps1_3_W) (hv' : r ≠ main_v49) :
    Y7 m ρ c (Proc.devRef .tc r) = Y1 m ρ c (Proc.devRef .tc r) :=
  (Y7_keep m ρ c r hv').trans <| (Y6_keep m ρ c r h1 h2 h3 h4).trans (Y2_keep m ρ c r hv)

/-- The graph ids' column reaches the pooling region as the first stretch made it. -/
theorem Y11_ids (c : Dev nD) :
    Yr11 m ρ c main_v4 = shapeCast S50000x1 (m ((c : Thread nD τ).loc main_arg8)) shapeCasts_S50000_S50000x1 :=
  (Y11_keep m ρ c main_v4 (by decide) (by decide) (by decide) (by decide)).trans <|
    (Y7_to_Y1 m ρ c main_v4 (by decide) (by decide) (by decide) (by decide) (by decide) (by decide)).trans (Y1_ids m ρ c)

/-! ## The two layers -/

set_option maxHeartbeats 4000000 in
/-- Between the first product and the second the host operations are one layer: of the first product, the edge list and the
    first bias. -/
theorem glue1 (c : Dev nD) :
    Y6 m ρ c (Proc.devRef .tc main_v48) = Cert.Bridge.gcnLayer (F := F) (Y2 m ρ c (Proc.devRef .tc main_v5)) (m ((c : Thread nD τ).loc main_arg7)) (m ((c : Thread nD τ).loc main_arg2)) := by
  show StableHlo.after hostOps1_3 (StableHlo.after hostOps1_2 (StableHlo.after hostOps1_1 (StableHlo.after hostOps1 (Y2 m ρ c)))) (Proc.devRef .tc main_v48) = _
  after_results_simp
  repeat (first
    | rw [StableHlo.nullary_result] | rw [StableHlo.unary_result] | rw [StableHlo.binary_result] | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  simp only [TRef.ofBuf, TRef.toBuf, cast_eq]
  rw [Y2_keep m ρ c main_v1 (by decide), Y2_keep m ρ c main_v3 (by decide), Y2_keep m ρ c main_arg2 (by decide), Y1_row, Y1_col, Y1_keep m ρ c main_arg2 (by decide)]
  rfl

set_option maxHeartbeats 4000000 in
/-- Between the second product and the pooling region: one layer again, of the second product and the second bias. -/
theorem glue2 (c : Dev nD) :
    Y11 m ρ c (Proc.devRef .tc main_v92) = Cert.Bridge.gcnLayer (F := F) (Y7 m ρ c (Proc.devRef .tc main_v49)) (m ((c : Thread nD τ).loc main_arg7)) (m ((c : Thread nD τ).loc main_arg4)) := by
  show StableHlo.after hostOps2_3 (StableHlo.after hostOps2_2 (StableHlo.after hostOps2_1 (StableHlo.after hostOps2 (Y7 m ρ c)))) (Proc.devRef .tc main_v92) = _
  after_results_simp
  repeat (first
    | rw [StableHlo.nullary_result] | rw [StableHlo.unary_result] | rw [StableHlo.binary_result] | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  simp only [TRef.ofBuf, TRef.toBuf, cast_eq]
  rw [Y7_to_Y1 m ρ c main_v1 (by decide) (by decide) (by decide) (by decide) (by decide) (by decide),
    Y7_to_Y1 m ρ c main_v3 (by decide) (by decide) (by decide) (by decide) (by decide) (by decide),
    Y7_to_Y1 m ρ c main_arg4 (by decide) (by decide) (by decide) (by decide) (by decide) (by decide),
    Y1_row, Y1_col, Y1_keep m ρ c main_arg4 (by decide)]
  rfl

end Cert.KernelIdeal.Gen

end
-- ==== Proof.KI.MatValue.lean ====
/-
  The two tiled matrix products, read as whole matrices. Each region multiplies a 50000×128 left factor by a 128×128 right
  factor in ten row blocks of 5000 rows: grid point t loads rows 5000·t … 5000·t+4999 of the left factor and the whole right
  factor, forms the block's product into a zero accumulator and writes it back to the same rows of the result. At the
  extended reals an entry of a block's product is the plain sum  ∑ k, x (r, k) · w (k, j)  over the 128 contraction indices,
  and so is the entry of the whole-matrix dot_general; row 5000·t + r of the whole product reads row 5000·t + r of the left
  factor, which is row r of point t's block. Hence what point t writes back is block t of the whole product, the ten blocks
  cover every row, and the result array after the region is the whole product.
-/
import proofs.«409795_j15513421873661_1_alg».proof.Proof.KI.Mat0
import proofs.«409795_j15513421873661_1_alg».proof.Proof.KI.Mat1
import proofs.«409795_j15513421873661_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## A block's product at an entry -/

/-- A zero offset on both axes. -/
theorem origin2 : (![0, 0] : Fin 2 → Nat) = fun _ => 0 := funext fun a => by
  match a with
  | ⟨0, _⟩ => rfl
  | ⟨1, _⟩ => rfl

/-- Of the block's dot, at output entry j and contraction index q: the left operand's row is j's row, -/
theorem lhs_block_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- its column the contraction index, -/
theorem lhs_block_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- the right operand's row the contraction index, -/
theorem rhs_block_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- and its column j's column. -/
theorem rhs_block_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of j, k) of a row block. -/
abbrev rowAt (j : S5000x128.Idx) (k : Fin 128) : S5000x128.Idx := fun a => match a with
  | ⟨0, _⟩ => ⟨(j 0).val, (j 0).isLt⟩
  | ⟨1, _⟩ => ⟨k.val, k.isLt⟩
/-- Entry (k, column of j) of the right factor. -/
abbrev colAt (j : S5000x128.Idx) (k : Fin 128) : S128x128.Idx := fun a => match a with
  | ⟨0, _⟩ => ⟨k.val, k.isLt⟩
  | ⟨1, _⟩ => ⟨(j 1).val, (j 1).isLt⟩

/-- The block's matmul into the zero accumulator, at an entry: the sum over the contraction index of row times column. -/
theorem blockDot_apply (x : FVec Ideal S5000x128 .bf16) (w : FVec Ideal S128x128 .bf16) (j : S5000x128.Idx) :
    matmul (F := Ideal) dot_S5000x128_S128x128_S5000x128_1_0_0_1_n_n none x w (constant S5000x128 .f32 0x00000000#32) j
      = ∑ k : Fin 128, x (rowAt j k) * w (colAt j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt j k := funext fun a => Fin.ext (by
    match a with
    | ⟨0, _⟩ => exact lhs_block_0 _ _
    | ⟨1, _⟩ => exact (lhs_block_1 _ _).trans hk)
  have er : dot_S5000x128_S128x128_S5000x128_1_0_0_1_n_n.rhsIdx j ((ValueIdx.contrEquiv1 dot_S5000x128_S128x128_S5000x128_1_0_0_1_n_n 128 rfl rfl).symm k) = colAt j k := funext fun a => Fin.ext (by
    match a with
    | ⟨0, _⟩ => exact (rhs_block_0 _ _).trans hk
    | ⟨1, _⟩ => exact rhs_block_1 _ _)
  rw [el, er]

/-- The first region's payload at an entry (the narrowing of the operands is the identity at the extended reals). -/
theorem pay0_apply (x : Vec Ideal S5000x128 .f32) (w : Vec Ideal S128x128 .f32) (j : S5000x128.Idx) :
    k0_pay1 (F := Ideal) x w j = ∑ k : Fin 128, x (rowAt j k) * w (colAt j k) := by
  unfold k0_pay1
  exact blockDot_apply _ _ j

/-- The second region's payload at an entry (its reshape to the same shape is the identity too). -/
theorem pay1_apply (x : Vec Ideal S5000x128 .f32) (w : Vec Ideal S128x128 .f32) (j : S5000x128.Idx) :
    k1_pay1 (F := Ideal) x w j = ∑ k : Fin 128, x (rowAt j k) * w (colAt j k) := by
  unfold k1_pay1
  rw [shapeCast_self]
  exact blockDot_apply _ _ j

/-! ## The first product: x · w1 -/

/-- The block indices over the grid: point t's row block of the left factor and of the product is block t, the right
    factor's block never moves, and no window moves along the columns. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product as the host's dot_general of the arrays the region is entered with. -/
abbrev whole0 (V : (c : Dev nD) → (b : Ref sig .tc) → Buf (Elt Ideal) ((c : Thread nD τ).loc b)) (c : Dev nD) : S50000x128.Idx → EReal :=
  Host.dotGeneral (F := Ideal) (φ₁ := .f32) (φ₂ := .f32) Cert.ReferenceIdeal.dot_S50000x128_S128x128_S50000x128_1_0_0_1_n_n none (V c main_arg0) (V c main_arg1)

/-- A block's product is the whole product's entry, once the block's rows are the left factor's rows at that entry and
    the right factor is the whole one. -/
theorem block_eq_whole (x : Vec Ideal S5000x128 .f32) (w : Vec Ideal S128x128 .f32)
    (A0 : FVec Ideal S50000x128 .f32) (A1 : FVec Ideal S128x128 .f32) (j : S5000x128.Idx) (i : S50000x128.Idx)
    (hx : ∀ k : Fin 128, x (rowAt j k) = A0 (Cert.ReferenceIdeal.ReadP.lidx_main_v4 i k))
    (hw : ∀ k : Fin 128, w (colAt j k) = A1 (Cert.ReferenceIdeal.ReadP.ridx_main_v4 i k)) :
    (∑ k : Fin 128, x (rowAt j k) * w (colAt j k))
      = Host.dotGeneral (F := Ideal) (φ₁ := .f32) (φ₂ := .f32) Cert.ReferenceIdeal.dot_S50000x128_S128x128_S50000x128_1_0_0_1_n_n none A0 A1 i := by
  refine Eq.trans ?_ (Cert.ReferenceIdeal.ReadP.val_main_v4_apply A0 A1 i).symm
  exact Finset.sum_congr rfl fun k _ => by rw [hx k, hw k]

/-- What point t writes back is block t of the whole product. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (whole0 V c) := by
  show (cfg0.win 2).cut (grid0.coords t) ((dat0 (F := Ideal) V c).after 2 t) = _
  rw [after0_2]
  unfold out0_2
  rw [View.canon_unit_zero origin2]
  simp only [View.ld_unit_zero (S := S5000x128) origin2, View.ld_unit_zero (S := S128x128) origin2]
  obtain ⟨e0, e1, e2, e3, e4, e5⟩ := index_facts0 t
  funext j
  show k0_pay1 (F := Ideal) (iblk0 V c 0 t) (iblk0 V c 1 t) j = whole0 V c (((cfg0.win 2).blk t).view.emb j)
  refine (pay0_apply _ _ j).trans (block_eq_whole _ _ _ _ j _ (fun k => ?_) (fun k => ?_))
  · show V c main_arg0 (((cfg0.win 0).blk t).view.emb (rowAt j k)) = V c main_arg0 (Cert.ReferenceIdeal.ReadP.lidx_main_v4 (((cfg0.win 2).blk t).view.emb j) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg1 (((cfg0.win 1).blk t).view.emb (colAt j k)) = V c main_arg1 (Cert.ReferenceIdeal.ReadP.ridx_main_v4 (((cfg0.win 2).blk t).view.emb j) k)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An entry of the product lies in point t's block iff each coordinate is in the block's range. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v5).slice (win0_2.rect t)).set ↔ _
  rw [View.set_slice_whole, Rect.mem_set_unit]
  exact Iff.rfl

/-- Row r of the product lies in the block of point r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by show (i 0).val / 5000 < 10; omega⟩
  have ht : t.val = (i 0).val / 5000 := rfl
  obtain ⟨e0, e1, e2, e3, e4, e5⟩ := index_facts0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The product's array after the region's ten write-backs is the whole matrix product x · w1. -/
theorem product0 (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S50000x128_S128x128_S50000x128_1_0_0_1_n_n none (V c main_arg0) (V c main_arg1) :=
  (dat0 (F := Ideal) V c).arrAt_eq_of_cover 2 (whole0 V c) (fun t _ => flushed0_eq V c t) cover0

/-! ## The second product: h · w2, h the first layer's activations -/

/-- The block indices over the grid: point t's row block of the left factor and of the product is block t, the right
    factor's block never moves, and no window moves along the columns. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole product as the host's dot_general of the arrays the region is entered with. -/
abbrev whole1 (V : (c : Dev nD) → (b : Ref sig .tc) → Buf (Elt Ideal) ((c : Thread nD τ).loc b)) (c : Dev nD) : S50000x128.Idx → EReal :=
  Host.dotGeneral (F := Ideal) (φ₁ := .f32) (φ₂ := .f32) Cert.ReferenceIdeal.dot_S50000x128_S128x128_S50000x128_1_0_0_1_n_n none (V c main_v48) (V c main_arg3)

/-- What point t writes back is block t of the whole product. -/
theorem flushed1_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (whole1 V c) := by
  show (cfg1.win 2).cut (grid1.coords t) ((dat1 (F := Ideal) V c).after 2 t) = _
  rw [after1_2]
  unfold out1_2
  rw [View.canon_unit_zero origin2]
  simp only [View.ld_unit_zero (S := S5000x128) origin2, View.ld_unit_zero (S := S128x128) origin2]
  obtain ⟨e0, e1, e2, e3, e4, e5⟩ := index_facts1 t
  funext j
  show k1_pay1 (F := Ideal) (iblk1 V c 0 t) (iblk1 V c 1 t) j = whole1 V c (((cfg1.win 2).blk t).view.emb j)
  refine (pay1_apply _ _ j).trans (block_eq_whole _ _ _ _ j _ (fun k => ?_) (fun k => ?_))
  · show V c main_v48 (((cfg1.win 0).blk t).view.emb (rowAt j k)) = V c main_v48 (Cert.ReferenceIdeal.ReadP.lidx_main_v4 (((cfg1.win 2).blk t).view.emb j) k)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg3 (((cfg1.win 1).blk t).view.emb (colAt j k)) = V c main_arg3 (Cert.ReferenceIdeal.ReadP.ridx_main_v4 (((cfg1.win 2).blk t).view.emb j) k)
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An entry of the product lies in point t's block iff each coordinate is in the block's range. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Row r of the product lies in the block of point r / 5000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 5000, by show (i 0).val / 5000 < 10; omega⟩
  have ht : t.val = (i 0).val / 5000 := rfl
  obtain ⟨e0, e1, e2, e3, e4, e5⟩ := index_facts1 t
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The product's array after the region's ten write-backs is the whole matrix product h · w2 (h the first layer's activations). -/
theorem product1 (V : (c : Dev nD) → (b : Ref sig .tc) → Buf (Elt Ideal) ((c : Thread nD τ).loc b)) (c : Dev nD) :
    (dat1 (F := Ideal) V c).arrAt 2 cfg1.N
      = Host.dotGeneral (F := Ideal) (φ₁ := .f32) (φ₂ := .f32) Cert.ReferenceIdeal.dot_S50000x128_S128x128_S50000x128_1_0_0_1_n_n none (V c main_v48) (V c main_arg3) :=
  (dat1 (F := Ideal) V c).arrAt_eq_of_cover 2 (whole1 V c) (fun t _ => flushed1_eq V c t) cover1

end Cert.KernelIdeal.Gen

end
-- ==== Proof.KI.PoolValue.lean ====
/-
  The pooling region's result, as a value. At the ideal instance (extended reals, exact operations) the 512 numbers the
  pooling kernel leaves in its result array are, graph id by graph id, the logistic function of the mean node row times
  the weight plus the bias: with oh(n, g) = 1 when node n carries graph id g and 0 otherwise, the per-graph sums are
  S[g, d] = ∑ₙ oh(n, g) · h[n, d] and the counts C[g] = ∑ₙ oh(n, g), and the result at g is
  logistic(∑_d (S[g, d] / max(C[g], 1)) · w[d] + b). The kernel reaches S and C tile by tile (25 tiles of 2000 nodes, a
  one-hot matrix product per tile added to an accumulator); the reference reaches them by two scatter-adds; both then
  apply the same operations. This module proves each side equal to that closed form and joins them.
-/
import proofs.«409795_j15513421873661_1_alg».proof.Proof.KI.PoolDat
import proofs.«409795_j15513421873661_1_alg».proof.Proof.Bridge.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

/-! ## The closed form -/

/-- The one-hot entry: `1` when the id word `a` is the graph id `g`, else `0`. -/
def oh (a : BitVec 32) (g : Fin 512) : EReal := if a = BitVec.ofNat 32 g.val then 1 else 0

/-- The pooled, scored value of graph `g`: the logistic of (sum of its node rows / max(count, 1)) · weight + bias. -/
def poolAt (h : Vec Ideal S50000x128 .f32) (ids : Fin 50000 → BitVec 32) (w : Vec Ideal S128x1 .f32) (b : Vec Ideal S1 .f32)
    (g : Fin 512) : EReal :=
  Ideal.logistic ((∑ d : Fin 128, Ideal.div (∑ n : Fin 50000, oh (ids n) g * h (ix2 n d)) (max (∑ n : Fin 50000, oh (ids n) g) 1) * w (ix2 d 0)) + b (ix1 0))

/-- The last grid point, the only one whose result block is written back. -/
abbrev tLast : Fin cfg2.N := ⟨24, by decide⟩

/-! ## The windows' blocks, read off the arrays -/

variable (V : (c : Dev nD) → (b : Ref sig .tc) → Buf (Elt Ideal) ((c : Thread nD τ).loc b))

/-- The block index of the feature window at point `t` is `(t, 0)`. -/
theorem idx2_0 : ∀ t : Fin cfg2.N, win2_0.index t 0 = t.val ∧ win2_0.index t 1 = 0 := by decide +kernel
/-- The block index of the id window at point `t` is `(t, 0)`. -/
theorem idx2_1 : ∀ t : Fin cfg2.N, win2_1.index t 0 = t.val ∧ win2_1.index t 1 = 0 := by decide +kernel

/-- Row `r` of the feature block at point `t` is row `2000·t + r` of the node features. -/
theorem iblk2_0_at (c : Dev nD) (t : Fin cfg2.N) (r : Fin 2000) (d : Fin 128) (hk : 2000 * t.val + r.val < 50000) :
    (iblk2 (F := Ideal) V c 0 t : Vec Ideal S2000x128 .f32) (ix2 r d) = V c main_v92 (ix2 ⟨2000 * t.val + r.val, hk⟩ d) := by
  unfold iblk2
  rw [View.read_apply]
  show V c main_v92 _ = V c main_v92 _
  congr 1
  funext a
  apply Fin.ext
  match a with
  | ⟨0, _⟩ => show win2_0.index t 0 * 2000 + 1 * r.val = 2000 * t.val + r.val
              rw [(idx2_0 t).1]; omega
  | ⟨1, _⟩ => show win2_0.index t 1 * 128 + 1 * d.val = d.val
              rw [(idx2_0 t).2]; omega

/-- Row `r` of the id block at point `t` is row `2000·t + r` of the graph ids. -/
theorem iblk2_1_at (c : Dev nD) (t : Fin cfg2.N) (r : Fin 2000) (hk : 2000 * t.val + r.val < 50000) :
    (iblk2 (F := Ideal) V c 1 t : Vec Ideal S2000x1 .i32) (ix2 r 0) = V c main_v4 (ix2 ⟨2000 * t.val + r.val, hk⟩ 0) := by
  unfold iblk2
  rw [View.read_apply]
  show V c main_v4 _ = V c main_v4 _
  congr 1
  funext a
  apply Fin.ext
  match a with
  | ⟨0, _⟩ => show win2_1.index t 0 * 2000 + 1 * r.val = 2000 * t.val + r.val
              rw [(idx2_1 t).1]; omega
  | ⟨1, _⟩ => show win2_1.index t 1 * 1 + 1 * (0 : Fin 1).val = (0 : Fin 1).val
              rw [(idx2_1 t).2]; rfl

/-- The weight window's block index is `(0, 0)` at every point. -/
theorem idx2_2 : ∀ t : Fin cfg2.N, win2_2.index t 0 = 0 ∧ win2_2.index t 1 = 0 := by decide +kernel
/-- The bias window's block index is `0` at every point. -/
theorem idx2_3 : ∀ t : Fin cfg2.N, win2_3.index t 0 = 0 := by decide +kernel
/-- The result window's block index is `0` at every point. -/
theorem idx2_4 : ∀ t : Fin cfg2.N, win2_4.index t 0 = 0 := by decide +kernel

/-- The weight block at every point is the whole weight array. -/
theorem iblk2_2_eq (c : Dev nD) (t : Fin cfg2.N) : (iblk2 (F := Ideal) V c 2 t : Vec Ideal S128x1 .f32) = V c main_arg5 := by
  unfold iblk2
  have hz' : (fun a => win2_2.index t a * main_arg5.ty.shape.size a) = fun _ => 0 := funext fun a => by
    match a with
    | ⟨0, _⟩ => show win2_2.index t 0 * _ = 0; rw [(idx2_2 t).1, Nat.zero_mul]
    | ⟨1, _⟩ => show win2_2.index t 1 * _ = 0; rw [(idx2_2 t).2, Nat.zero_mul]
  exact Memref.read_access_unit_zero (Elt Ideal) main_arg5 hz' (fun a => by rw [congrFun hz' a]; simp) (V c main_arg5)

/-- The bias block at every point is the whole bias array. -/
theorem iblk2_3_eq (c : Dev nD) (t : Fin cfg2.N) : (iblk2 (F := Ideal) V c 3 t : Vec Ideal S1 .f32) = V c main_arg6 := by
  unfold iblk2
  have hz' : (fun a => win2_3.index t a * main_arg6.ty.shape.size a) = fun _ => 0 := funext fun a => by
    match a with
    | ⟨0, _⟩ => show win2_3.index t 0 * _ = 0; rw [idx2_3 t, Nat.zero_mul]
  exact Memref.read_access_unit_zero (Elt Ideal) main_arg6 hz' (fun a => by rw [congrFun hz' a]; simp) (V c main_arg6)

/-! ## The result array after the region -/

/-- The one write-back, at the last point, writes the closing payload: block 0 of the 512-element array read through a zero
    offset is the array. -/
theorem pool_flushed (c : Dev nD) (t : Fin cfg2.N) (hf : (cfg2.win 4).flush t = true) :
    (dat2 (F := Ideal) V c).flushed 4 t = ((cfg2.win 4).blk t).view.read (Elt Ideal) (res2 (F := Ideal) V c tLast) := by
  have hN : cfg2.N = 25 := N_2
  have h24 : t.val = 24 := by have := (flush2_4 t).mp hf; have := t.isLt; omega
  obtain rfl : t = tLast := Fin.ext h24
  show (cfg2.win 4).cut (grid2.coords tLast) ((dat2 (F := Ideal) V c).after 4 tLast) = _
  rw [after2_4]
  have hz' : (fun a => win2_4.index tLast a * main_v93.ty.shape.size a) = fun _ => 0 := funext fun a => by
    match a with
    | ⟨0, _⟩ => show win2_4.index tLast 0 * _ = 0; rw [idx2_4 tLast, Nat.zero_mul]
  exact (Memref.read_access_unit_zero (Elt Ideal) main_v93 hz' (fun a => by rw [congrFun hz' a]; simp) (res2 (F := Ideal) V c tLast)).symm

/-- So the result array ends holding the last point's closing payload: that point's block covers the array. -/
theorem pool_arr (c : Dev nD) : (dat2 (F := Ideal) V c).arrAt 4 cfg2.N = res2 (F := Ideal) V c tLast :=
  (dat2 (F := Ideal) V c).arrAt_eq_of_cover 4 (res2 (F := Ideal) V c tLast) (pool_flushed V c) fun i =>
    ⟨tLast, (flush2_4 tLast).mpr rfl, by
      show i ∈ ((View.whole main_v93).slice (win2_4.rect tLast)).set
      rw [View.set_slice_whole, Rect.mem_set_unit]
      intro a
      have h0 : (i 0 : Nat) < 512 := (i 0).isLt
      match a with
      | ⟨0, _⟩ => show win2_4.index tLast 0 * win2_4.size 0 ≤ (i 0 : Nat) ∧ (i 0 : Nat) < win2_4.index tLast 0 * win2_4.size 0 + win2_4.xsize (grid2.coords tLast) 0
                  rw [show win2_4.index tLast 0 * win2_4.size 0 = 0 from by decide +kernel, show win2_4.xsize (grid2.coords tLast) 0 = 512 from by decide +kernel]; omega⟩

/-! ## The closing payload at an index -/

/-- The closing product's operand indices: at result index `(g, ·)` and contraction index `q` the left operand is read at
    `(g, q)` and the right one at `(q, ·)`. -/
theorem lhs_pay6_0 (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem lhs_pay6_1 (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
theorem rhs_pay6_0 (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
theorem rhs_pay6_1 (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

/-- The word `0x3F800000` is the number one. -/
theorem one_f32 : Ideal.ofBits .f32 0x3F800000#32 = 1 := IdealRules.sign_bit.ideal_onePat .f32

/-- The closing payload at graph `g`: the logistic of (the sum row of `g` divided by max(count of `g`, 1)) times the
    weight column, plus the bias. -/
theorem k2_pay6_at (s : Vec Ideal S512x128 .f32) (n : Vec Ideal S512x1 .f32) (w : Vec Ideal S128x1 .f32) (b : Vec Ideal S1 .f32) (g : Fin 512) :
    k2_pay6 (F := Ideal) s n w b (ix1 g) = Ideal.logistic ((∑ d : Fin 128, Ideal.div (s (ix2 g d)) (max (n (ix2 g 0)) 1) * w (ix2 d 0)) + b (ix1 0)) := by
  unfold k2_pay6
  refine (shapeCast_apply _ shapeCasts_S512x1_S512 (ix1 g) (ix2 g (0 : Fin 1)) ?_).trans ?_
  · rw [Shape.rowMajor_val_two, Shape.rowMajor_val_one]
    show g.val * 1 + 0 = g.val
    omega
  show Ideal.logistic (_ + _) = Ideal.logistic (_ + _)
  congr 2
  · -- the product into the zero accumulator is the sum over the contraction index, re-indexed to the 128 feature columns
    refine (Ideal.matmul_constant_zero_apply dot_S512x128_S128x1_S512x1_1_0_0_1_n_n none _ _ (ix2 g (0 : Fin 1))).trans ?_
    rw [← Equiv.sum_comp (contrEquiv1 dot_S512x128_S128x1_S512x1_1_0_0_1_n_n 128 rfl rfl).symm]
    refine Finset.sum_congr rfl fun d _ => ?_
    have hk := contrEquiv1_symm_val dot_S512x128_S128x1_S512x1_1_0_0_1_n_n 128 rfl rfl d
    have el : dot_S512x128_S128x1_S512x1_1_0_0_1_n_n.lhsIdx (ix2 g (0 : Fin 1)) ((contrEquiv1 dot_S512x128_S128x1_S512x1_1_0_0_1_n_n 128 rfl rfl).symm d) = ix2 g d :=
      funext fun a => Fin.ext (by
        match a with
        | ⟨0, _⟩ => exact lhs_pay6_0 _ _
        | ⟨1, _⟩ => exact (lhs_pay6_1 _ _).trans hk)
    have er : dot_S512x128_S128x1_S512x1_1_0_0_1_n_n.rhsIdx (ix2 g (0 : Fin 1)) ((contrEquiv1 dot_S512x128_S128x1_S512x1_1_0_0_1_n_n 128 rfl rfl).symm d) = ix2 d (0 : Fin 1) :=
      funext fun a => Fin.ext (by
        match a with
        | ⟨0, _⟩ => exact (rhs_pay6_0 _ _).trans hk
        | ⟨1, _⟩ => exact rhs_pay6_1 _ _)
    rw [el, er]
    -- the format changes are the identity, the quotient is the ideal division, the divisor the maximum with one
    show Ideal.div (s (ix2 g d)) (broadcastTo S512x128 (maximumf n (broadcast S512x1 (Ideal.ofBits .f32 0x3F800000#32))) broadcasts_S512x1_S512x128 (ix2 g d)) * w (ix2 d 0) = _
    have hb : broadcastTo S512x128 (maximumf n (broadcast S512x1 (Ideal.ofBits .f32 0x3F800000#32))) broadcasts_S512x1_S512x128 (ix2 g d)
        = max (n (ix2 g 0)) 1 := by
      refine (broadcastTo_apply _ broadcasts_S512x1_S512x128 (ix2 g d) (ix2 g (0 : Fin 1)) fun a => ?_).trans ?_
      · match a with
        | ⟨0, _⟩ => show g.val = if (512 : Nat) = 1 then 0 else g.val; rw [if_neg (by decide)]
        | ⟨1, _⟩ => show 0 = if (1 : Nat) = 1 then 0 else d.val; rw [if_pos rfl]
      · show max (n (ix2 g 0)) (Ideal.ofBits .f32 0x3F800000#32) = _
        rw [one_f32]
    rw [hb]
  · -- the bias, reshaped to one by one and broadcast down the 512 rows
    refine (broadcastTo_apply _ broadcasts_S1x1_S512x1 (ix2 g (0 : Fin 1)) (ix2 (0 : Fin 1) (0 : Fin 1)) fun a => ?_).trans ?_
    · match a with
      | ⟨0, _⟩ => show 0 = if (1 : Nat) = 1 then 0 else g.val; rw [if_pos rfl]
      | ⟨1, _⟩ => show 0 = if (1 : Nat) = 1 then 0 else 0; rw [if_pos rfl]
    · refine shapeCast_apply _ shapeCasts_S1_S1x1 (ix2 (0 : Fin 1) (0 : Fin 1)) (ix1 (0 : Fin 1)) ?_
      rw [Shape.rowMajor_val_two, Shape.rowMajor_val_one]
      rfl

/-! ## The per-point payloads at an index -/

/-- the extended real of the bf16 word of 1.0 -/
theorem ofBits_one_bf16 : Ideal.ofBits .bf16 0x3F80#16 = 1 := by
  simp [Ideal.ofBits, Ideal.ieee, -EReal.coe_mul]; norm_num

/-- The word comparison, widened and converted, is the indicator of equality. -/
theorem onehot_word (a a' : BitVec 32) :
    (FloatOps.sitofp (F := Ideal) .f32 (BitVec.setWidth 32 (IntOp.cmpi .eq a a')) : EReal) = if a = a' then 1 else 0 := by
  by_cases h : a = a'
  · subst h
    rw [if_pos rfl]
    have e : IntOp.cmpi .eq a a = 1#1 := by simp [IntOp.cmpi]
    rw [e]
    show (((BitVec.setWidth 32 1#1).toInt : ℝ) : EReal) = 1
    rw [show (BitVec.setWidth 32 1#1).toInt = 1 from by decide]
    norm_num
  · rw [if_neg h]
    have e : IntOp.cmpi .eq a a' = 0#1 := by
      have hb : (a == a') = false := by simpa using h
      simp [IntOp.cmpi, hb]
    rw [e]
    show (((BitVec.setWidth 32 0#1).toInt : ℝ) : EReal) = 0
    rw [show (BitVec.setWidth 32 0#1).toInt = 0 from by decide]
    norm_num

/-- The one-hot matrix at (r, g): 1 when row r's id is g. -/
theorem k2_pay3_at (ids : Vec Ideal S2000x1 .i32) (r : Fin 2000) (g : Fin 512) :
    k2_pay3 (F := Ideal) ids (ix2 r g) = oh (ids (ix2 r 0)) g := by
  unfold k2_pay3
  dsimp only
  rw [truncf_apply, sitofp_apply, extui_apply]
  show FloatOps.sitofp (F := Ideal) .f32 (BitVec.setWidth 32 (IntOp.cmpi .eq
      (broadcastTo S2000x512 (shapeCast S2000x1 ids shapeCasts_S2000x1_S2000x1) broadcasts_S2000x1_S2000x512 (ix2 r g))
      (iota Kind.tc S2000x512 32 [1] iota_S2000x512_d1_w32 (ix2 r g)))) = _
  rw [iota_single_apply, shapeCast_self,
    broadcastTo_apply ids broadcasts_S2000x1_S2000x512 (ix2 r g) (ix2 r 0) (fun a => match a with
      | ⟨0, _⟩ => by show r.val = if (2000 : Nat) = 1 then 0 else r.val; rw [if_neg (by decide)]
      | ⟨1, _⟩ => by show 0 = if (1 : Nat) = 1 then 0 else g.val; rw [if_pos rfl])]
  exact onehot_word _ _

theorem lhs4_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
theorem lhs4_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
theorem rhs4_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
theorem rhs4_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- One point's contribution to the sums: the accumulator plus, over the tile's 2000 rows, one-hot times feature. -/
theorem k2_pay4_at (ids : Vec Ideal S2000x1 .i32) (x : Vec Ideal S2000x128 .f32) (acc : Vec Ideal S512x128 .f32) (g : Fin 512) (d : Fin 128) :
    k2_pay4 (F := Ideal) ids x acc (ix2 g d) = acc (ix2 g d) + ∑ r : Fin 2000, oh (ids (ix2 r 0)) g * x (ix2 r d) := by
  unfold k2_pay4
  rw [shapeCast_self, shapeCast_self, addf_apply]
  refine congrArg (acc (ix2 g d) + ·) ?_
  simp only [matmul]
  rw [Ideal.matmul_constant_zero_apply, ← Equiv.sum_comp (contrEquiv1 dot_S2000x512_S2000x128_S512x128_0_0_1_1_n_n 2000 rfl rfl).symm]
  refine Finset.sum_congr rfl fun r _ => ?_
  have hk := contrEquiv1_symm_val dot_S2000x512_S2000x128_S512x128_0_0_1_1_n_n 2000 rfl rfl r
  have el : dot_S2000x512_S2000x128_S512x128_0_0_1_1_n_n.lhsIdx (ix2 g d) ((contrEquiv1 dot_S2000x512_S2000x128_S512x128_0_0_1_1_n_n 2000 rfl rfl).symm r) = ix2 r g := funext fun a => Fin.ext (by
    match a with
    | ⟨0, _⟩ => exact (lhs4_0 _ _).trans hk
    | ⟨1, _⟩ => exact lhs4_1 _ _)
  have er : dot_S2000x512_S2000x128_S512x128_0_0_1_1_n_n.rhsIdx (ix2 g d) ((contrEquiv1 dot_S2000x512_S2000x128_S512x128_0_0_1_1_n_n 2000 rfl rfl).symm r) = ix2 r d := funext fun a => Fin.ext (by
    match a with
    | ⟨0, _⟩ => exact (rhs4_0 _ _).trans hk
    | ⟨1, _⟩ => exact rhs4_1 _ _)
  rw [el, er, k2_pay3_at, truncf_apply]

theorem lhs5_0 (i : S512x1.Idx) (q : dot_S2000x512_S2000x1_S512x1_0_0_1_1_n_n.contr.Idx) :
    (dot_S2000x512_S2000x1_S512x1_0_0_1_1_n_n.lhsIdx i q 0).val = (q ⟨0, by decide⟩).val :=
  dot_S2000x512_S2000x1_S512x1_0_0_1_1_n_n.lhsIdx_val_of_single rfl i q
theorem lhs5_1 (i : S512x1.Idx) (q : dot_S2000x512_S2000x1_S512x1_0_0_1_1_n_n.contr.Idx) :
    (dot_S2000x512_S2000x1_S512x1_0_0_1_1_n_n.lhsIdx i q 1).val = (i 0).val := by
  unfold DotDims.lhsIdx
  rw [dif_neg (show ¬(1 : Fin S2000x512.rank) ∈ dot_S2000x512_S2000x1_S512x1_0_0_1_1_n_n.lhsBatch by decide), dif_pos (show (1 : Fin S2000x512.rank) ∈ dot_S2000x512_S2000x1_S512x1_0_0_1_1_n_n.lhsNonContracting by decide)]
  rfl

/-- One point's contribution to the counts: the accumulator plus the number of the tile's rows whose id is g. -/
theorem k2_pay5_at (ids : Vec Ideal S2000x1 .i32) (acc : Vec Ideal S512x1 .f32) (g : Fin 512) :
    k2_pay5 (F := Ideal) ids acc (ix2 g 0) = acc (ix2 g 0) + ∑ r : Fin 2000, oh (ids (ix2 r 0)) g := by
  unfold k2_pay5
  rw [shapeCast_self, addf_apply]
  refine congrArg (acc (ix2 g 0) + ·) ?_
  simp only [matmul]
  rw [Ideal.matmul_constant_zero_apply, ← Equiv.sum_comp (contrEquiv1 dot_S2000x512_S2000x1_S512x1_0_0_1_1_n_n 2000 rfl rfl).symm]
  refine Finset.sum_congr rfl fun r _ => ?_
  have hk := contrEquiv1_symm_val dot_S2000x512_S2000x1_S512x1_0_0_1_1_n_n 2000 rfl rfl r
  have el : dot_S2000x512_S2000x1_S512x1_0_0_1_1_n_n.lhsIdx (ix2 g 0) ((contrEquiv1 dot_S2000x512_S2000x1_S512x1_0_0_1_1_n_n 2000 rfl rfl).symm r) = ix2 r g := funext fun a => Fin.ext (by
    match a with
    | ⟨0, _⟩ => exact (lhs5_0 _ _).trans hk
    | ⟨1, _⟩ => exact lhs5_1 _ _)
  rw [el, k2_pay3_at, broadcast_apply]
  show oh (ids (ix2 r 0)) g * Ideal.ofBits .bf16 0x3F80#16 = _
  rw [ofBits_one_bf16, mul_one]

/-- The zero fills. -/
theorem k2_pay1_at (g : Fin 512) (d : Fin 128) : k2_pay1 (F := Ideal) (ix2 g d) = 0 := by
  unfold k2_pay1
  rw [shapeCast_self, broadcast_apply]
  exact Ideal.ofBits_zero_f32
theorem k2_pay2_at (g : Fin 512) : k2_pay2 (F := Ideal) (ix2 g 0) = 0 := by
  unfold k2_pay2
  rw [shapeCast_self, broadcast_apply]
  exact Ideal.ofBits_zero_f32

/-! ## The accumulators after each point: partial sums over the nodes seen so far -/

/-- Node k's term of graph g's sum at feature d (zero past the last node). -/
def sTerm (c : Dev nD) (g : Fin 512) (d : Fin 128) (k : ℕ) : EReal :=
  if hk : k < 50000 then oh (V c main_v4 (ix2 ⟨k, hk⟩ 0)) g * V c main_v92 (ix2 ⟨k, hk⟩ d) else 0
/-- Node k's term of graph g's count. -/
def nTerm (c : Dev nD) (g : Fin 512) (k : ℕ) : EReal :=
  if hk : k < 50000 then oh (V c main_v4 (ix2 ⟨k, hk⟩ 0)) g else 0

theorem tile_lt (t : Fin cfg2.N) (r : Fin 2000) : 2000 * t.val + r.val < 50000 := by
  have := t.isLt; have := r.isLt; have hN : cfg2.N = 25 := N_2; omega

/-- A tile's contribution to the sums is the terms of its 2000 nodes. -/
theorem tile_s (c : Dev nD) (t : Fin cfg2.N) (g : Fin 512) (d : Fin 128) :
    ∑ r : Fin 2000, oh ((iblk2 (F := Ideal) V c 1 t : Vec Ideal S2000x1 .i32) (ix2 r 0)) g * (iblk2 (F := Ideal) V c 0 t : Vec Ideal S2000x128 .f32) (ix2 r d)
      = ∑ r ∈ Finset.range 2000, sTerm V c g d (2000 * t.val + r) := by
  rw [← Fin.sum_univ_eq_sum_range (fun r => sTerm V c g d (2000 * t.val + r)) 2000]
  refine Finset.sum_congr rfl fun r _ => ?_
  rw [iblk2_0_at V c t r d (tile_lt t r), iblk2_1_at V c t r (tile_lt t r)]
  unfold sTerm
  rw [dif_pos (tile_lt t r)]
theorem tile_n (c : Dev nD) (t : Fin cfg2.N) (g : Fin 512) :
    ∑ r : Fin 2000, oh ((iblk2 (F := Ideal) V c 1 t : Vec Ideal S2000x1 .i32) (ix2 r 0)) g
      = ∑ r ∈ Finset.range 2000, nTerm V c g (2000 * t.val + r) := by
  rw [← Fin.sum_univ_eq_sum_range (fun r => nTerm V c g (2000 * t.val + r)) 2000]
  refine Finset.sum_congr rfl fun r _ => ?_
  rw [iblk2_1_at V c t r (tile_lt t r)]
  unfold nTerm
  rw [dif_pos (tile_lt t r)]

/-- After point n the sum accumulator holds the terms of the first 2000·(n+1) nodes. -/
theorem sAcc_at (c : Dev nD) (g : Fin 512) (d : Fin 128) : ∀ (n : ℕ) (hn : n < cfg2.N),
    sAcc (F := Ideal) V c n hn (ix2 g d) = ∑ k ∈ Finset.range (2000 * (n + 1)), sTerm V c g d k
  | 0, hn => by
    show k2_pay4 (F := Ideal) (iblk2 V c 1 ⟨0, hn⟩) (iblk2 V c 0 ⟨0, hn⟩) (k2_pay1 (F := Ideal)) (ix2 g d) = _
    rw [k2_pay4_at, k2_pay1_at, zero_add, tile_s V c ⟨0, hn⟩ g d]
    refine Finset.sum_congr rfl fun r _ => ?_
    show sTerm V c g d (2000 * 0 + r) = _
    rw [Nat.mul_zero, Nat.zero_add]
  | n + 1, hn => by
    show k2_pay4 (F := Ideal) (iblk2 V c 1 ⟨n + 1, hn⟩) (iblk2 V c 0 ⟨n + 1, hn⟩) (sAcc (F := Ideal) V c n (Nat.lt_of_succ_lt hn)) (ix2 g d) = _
    rw [k2_pay4_at, sAcc_at c g d n (Nat.lt_of_succ_lt hn), tile_s V c ⟨n + 1, hn⟩ g d,
      show 2000 * (n + 1 + 1) = 2000 * (n + 1) + 2000 from by omega, Finset.sum_range_add]

/-- After point n the count accumulator holds the terms of the first 2000·(n+1) nodes. -/
theorem nAcc_at (c : Dev nD) (g : Fin 512) : ∀ (n : ℕ) (hn : n < cfg2.N),
    nAcc (F := Ideal) V c n hn (ix2 g 0) = ∑ k ∈ Finset.range (2000 * (n + 1)), nTerm V c g k
  | 0, hn => by
    show k2_pay5 (F := Ideal) (iblk2 V c 1 ⟨0, hn⟩) (k2_pay2 (F := Ideal)) (ix2 g 0) = _
    rw [k2_pay5_at, k2_pay2_at, zero_add, tile_n V c ⟨0, hn⟩ g]
    refine Finset.sum_congr rfl fun r _ => ?_
    show nTerm V c g (2000 * 0 + r) = _
    rw [Nat.mul_zero, Nat.zero_add]
  | n + 1, hn => by
    show k2_pay5 (F := Ideal) (iblk2 V c 1 ⟨n + 1, hn⟩) (nAcc (F := Ideal) V c n (Nat.lt_of_succ_lt hn)) (ix2 g 0) = _
    rw [k2_pay5_at, nAcc_at c g n (Nat.lt_of_succ_lt hn), tile_n V c ⟨n + 1, hn⟩ g,
      show 2000 * (n + 1 + 1) = 2000 * (n + 1) + 2000 from by omega, Finset.sum_range_add]

/-- After the last point: the sums over all 50000 nodes. -/
theorem sAcc_last (c : Dev nD) (g : Fin 512) (d : Fin 128) :
    sAcc (F := Ideal) V c tLast.val tLast.isLt (ix2 g d) = ∑ n : Fin 50000, oh (V c main_v4 (ix2 n 0)) g * V c main_v92 (ix2 n d) := by
  rw [sAcc_at V c g d tLast.val tLast.isLt, show 2000 * (tLast.val + 1) = 50000 from rfl, Finset.sum_range]
  refine Finset.sum_congr rfl fun n _ => ?_
  unfold sTerm
  rw [dif_pos n.isLt]
theorem nAcc_last (c : Dev nD) (g : Fin 512) :
    nAcc (F := Ideal) V c tLast.val tLast.isLt (ix2 g 0) = ∑ n : Fin 50000, oh (V c main_v4 (ix2 n 0)) g := by
  rw [nAcc_at V c g tLast.val tLast.isLt, show 2000 * (tLast.val + 1) = 50000 from rfl, Finset.sum_range]
  refine Finset.sum_congr rfl fun n _ => ?_
  unfold nTerm
  rw [dif_pos n.isLt]

/-! ## The reference side -/

section RefSide

open Cert.ReferenceIdeal Cert.ReferenceIdeal.Gen

/-- A 32-bit word read as a signed integer is the graph id g (below 512) exactly when it is the word of g. -/
theorem ref_toInt_eq_iff (a : BitVec 32) (g : Fin 512) : a.toInt = (g.val : Int) ↔ a = BitVec.ofNat 32 g.val := by
  have hg := g.isLt
  have ha := a.isLt
  rw [BitVec.toInt_eq_toNat_cond]
  constructor
  · intro h
    apply BitVec.eq_of_toNat_eq
    rw [BitVec.toNat_ofNat]
    split_ifs at h <;> omega
  · intro h
    rw [h, BitVec.toNat_ofNat]
    split_ifs <;> omega

/-- The first scatter's start and window coordinates for update index (n, d'): the start on the graph axis is the
    id of node n read signed, the start on the feature axis is 0; the window coordinate is 0 on the graph axis and d'
    on the feature axis. -/
theorem sc1_start0 (idc : IVec S50000x1 32) (n : Fin 50000) (d' : Fin 128) :
    scatter_S512x128_S50000x1_S50000x128_1_0_0_1.start (ix2 n d') idc 0 = (idc (ix2 n 0)).toInt := by
  unfold ScatterDims.start
  rw [dif_pos (show (0 : Fin S512x128.rank) ∈ scatter_S512x128_S50000x1_S50000x128_1_0_0_1.scatterDimsToOperandDims by decide)]
  congr 2
  funext a
  match a with
  | ⟨0, _⟩ => exact Fin.ext rfl
  | ⟨1, _⟩ => exact Fin.ext rfl

theorem sc1_start1 (idc : IVec S50000x1 32) (j : S50000x128.Idx) : scatter_S512x128_S50000x1_S50000x128_1_0_0_1.start j idc 1 = 0 := by
  unfold ScatterDims.start
  rw [dif_neg (show ¬ (1 : Fin S512x128.rank) ∈ scatter_S512x128_S50000x1_S50000x128_1_0_0_1.scatterDimsToOperandDims by decide)]

theorem sc1_window0 (j : S50000x128.Idx) : scatter_S512x128_S50000x1_S50000x128_1_0_0_1.window j 0 = 0 := by
  unfold ScatterDims.window
  rw [dif_neg (show ¬ (0 : Fin S512x128.rank) ∈ scatter_S512x128_S50000x1_S50000x128_1_0_0_1.sKept by decide)]

theorem sc1_window1 (n : Fin 50000) (d' : Fin 128) : scatter_S512x128_S50000x1_S50000x128_1_0_0_1.window (ix2 n d') 1 = d'.val := by
  unfold ScatterDims.window
  rw [dif_pos (show (1 : Fin S512x128.rank) ∈ scatter_S512x128_S50000x1_S50000x128_1_0_0_1.sKept by decide)]
  rfl

/-- Update index (n, d') of the first scatter lands at (g, d) exactly when node n carries id g and d' = d. -/
theorem sc1_result (idc : IVec S50000x1 32) (n : Fin 50000) (d' : Fin 128) (g : Fin 512) (d : Fin 128) :
    scatter_S512x128_S50000x1_S50000x128_1_0_0_1.resultIdx? (ix2 n d') idc = some (ix2 g d) ↔ (idc (ix2 n 0) = BitVec.ofNat 32 g.val ∧ d' = d) := by
  have hs0 := sc1_start0 idc n d'
  have hs1 := sc1_start1 idc (ix2 n d')
  have hw0 := sc1_window0 (ix2 n d')
  have hw1 := sc1_window1 n d'
  have hz0 : (S512x128.size 0 : Nat) = 512 := rfl
  have hz1 : (S512x128.size 1 : Nat) = 128 := rfl
  have hg := g.isLt
  have hd := d.isLt
  have hd' := d'.isLt
  unfold ScatterDims.resultIdx?
  by_cases hc : ∀ a, 0 ≤ scatter_S512x128_S50000x1_S50000x128_1_0_0_1.start (ix2 n d') idc a + scatter_S512x128_S50000x1_S50000x128_1_0_0_1.window (ix2 n d') a ∧ scatter_S512x128_S50000x1_S50000x128_1_0_0_1.start (ix2 n d') idc a + scatter_S512x128_S50000x1_S50000x128_1_0_0_1.window (ix2 n d') a < S512x128.size a
  · rw [dif_pos hc, Option.some.injEq]
    constructor
    · intro he
      have e0 : (scatter_S512x128_S50000x1_S50000x128_1_0_0_1.start (ix2 n d') idc 0 + scatter_S512x128_S50000x1_S50000x128_1_0_0_1.window (ix2 n d') 0).toNat = g.val := congrArg (fun f => (f 0).val) he
      have e1 : (scatter_S512x128_S50000x1_S50000x128_1_0_0_1.start (ix2 n d') idc 1 + scatter_S512x128_S50000x1_S50000x128_1_0_0_1.window (ix2 n d') 1).toNat = d.val := congrArg (fun f => (f 1).val) he
      have c0 := (hc 0).1
      rw [hs0, hw0] at e0 c0
      rw [hs1, hw1] at e1
      exact ⟨(ref_toInt_eq_iff _ g).1 (by omega), Fin.ext (by omega)⟩
    · rintro ⟨ha, hdd⟩
      have ha' := (ref_toInt_eq_iff _ g).2 ha
      funext a
      match a with
      | ⟨0, _⟩ =>
        apply Fin.ext
        show (scatter_S512x128_S50000x1_S50000x128_1_0_0_1.start (ix2 n d') idc 0 + scatter_S512x128_S50000x1_S50000x128_1_0_0_1.window (ix2 n d') 0).toNat = g.val
        rw [hs0, hw0]; omega
      | ⟨1, _⟩ =>
        apply Fin.ext
        show (scatter_S512x128_S50000x1_S50000x128_1_0_0_1.start (ix2 n d') idc 1 + scatter_S512x128_S50000x1_S50000x128_1_0_0_1.window (ix2 n d') 1).toNat = d.val
        rw [hs1, hw1, hdd]; omega
  · rw [dif_neg hc]
    constructor
    · intro h; cases h
    · rintro ⟨ha, hdd⟩
      have ha' := (ref_toInt_eq_iff _ g).2 ha
      exfalso; apply hc
      intro a
      match a with
      | ⟨0, _⟩ =>
        show 0 ≤ scatter_S512x128_S50000x1_S50000x128_1_0_0_1.start (ix2 n d') idc 0 + scatter_S512x128_S50000x1_S50000x128_1_0_0_1.window (ix2 n d') 0 ∧ scatter_S512x128_S50000x1_S50000x128_1_0_0_1.start (ix2 n d') idc 0 + scatter_S512x128_S50000x1_S50000x128_1_0_0_1.window (ix2 n d') 0 < S512x128.size 0
        rw [hs0, hw0, hz0]; omega
      | ⟨1, _⟩ =>
        show 0 ≤ scatter_S512x128_S50000x1_S50000x128_1_0_0_1.start (ix2 n d') idc 1 + scatter_S512x128_S50000x1_S50000x128_1_0_0_1.window (ix2 n d') 1 ∧ scatter_S512x128_S50000x1_S50000x128_1_0_0_1.start (ix2 n d') idc 1 + scatter_S512x128_S50000x1_S50000x128_1_0_0_1.window (ix2 n d') 1 < S512x128.size 1
        rw [hs1, hw1, hz1]; omega

/-- The first scatter-add read at (g, d): the operand there plus the rows of the nodes that carry id g, at column d. -/
theorem scatterSum_at (x : FVec Ideal S512x128 .f32) (idc : IVec S50000x1 32) (h : FVec Ideal S50000x128 .f32) (g : Fin 512) (d : Fin 128) :
    Host.scatterAdd (F := Ideal) (φ := .f32) scatter_S512x128_S50000x1_S50000x128_1_0_0_1 x idc h (ix2 g d) = x (ix2 g d) + ∑ n : Fin 50000, oh (idc (ix2 n 0)) g * h (ix2 n d) := by
  unfold Host.scatterAdd
  rw [Ideal.hostScatterAdd_def]
  unfold Ideal.hostScatterAdd
  refine congrArg (fun z => x (ix2 g d) + z) ?_
  rw [Finset.sum_filter, sum_idx2]
  refine Finset.sum_congr rfl fun n _ => ?_
  simp only [sc1_result]
  unfold oh
  by_cases ha : idc (ix2 n 0) = BitVec.ofNat 32 g.val
  · simp only [ha, true_and, if_true, one_mul]
    rw [Finset.sum_ite_eq' Finset.univ d (fun d' => h (ix2 n d'))]
    simp only [Finset.mem_univ, if_true]
  · simp only [ha, false_and, if_false, zero_mul, Finset.sum_const_zero]

/-- A sum over a rank-1 index set is the sum over its coordinate. -/
theorem ref_sum_ix1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ (fun i => congrArg f (eq_ix1 i))

/-- The second scatter (no window axes): update index n starts at the id of node n read signed, window coordinate 0. -/
theorem sc2_start0 (idc : IVec S50000x1 32) (n : Fin 50000) :
    scatter_S512_S50000x1_S50000_n_0_0_1.start (ix1 n) idc 0 = (idc (ix2 n 0)).toInt := by
  unfold ScatterDims.start
  rw [dif_pos (show (0 : Fin S512.rank) ∈ scatter_S512_S50000x1_S50000_n_0_0_1.scatterDimsToOperandDims by decide)]
  congr 2
  funext a
  match a with
  | ⟨0, _⟩ => exact Fin.ext rfl
  | ⟨1, _⟩ => exact Fin.ext rfl

theorem sc2_window0 (j : S50000.Idx) : scatter_S512_S50000x1_S50000_n_0_0_1.window j 0 = 0 := by
  unfold ScatterDims.window
  rw [dif_neg (show ¬ (0 : Fin S512.rank) ∈ scatter_S512_S50000x1_S50000_n_0_0_1.sKept by decide)]

/-- Update index n of the second scatter lands at g exactly when node n carries id g. -/
theorem sc2_result (idc : IVec S50000x1 32) (n : Fin 50000) (g : Fin 512) :
    scatter_S512_S50000x1_S50000_n_0_0_1.resultIdx? (ix1 n) idc = some (ix1 g) ↔ idc (ix2 n 0) = BitVec.ofNat 32 g.val := by
  have hs0 := sc2_start0 idc n
  have hw0 := sc2_window0 (ix1 n)
  have hz0 : (S512.size 0 : Nat) = 512 := rfl
  have hg := g.isLt
  unfold ScatterDims.resultIdx?
  by_cases hc : ∀ a, 0 ≤ scatter_S512_S50000x1_S50000_n_0_0_1.start (ix1 n) idc a + scatter_S512_S50000x1_S50000_n_0_0_1.window (ix1 n) a ∧ scatter_S512_S50000x1_S50000_n_0_0_1.start (ix1 n) idc a + scatter_S512_S50000x1_S50000_n_0_0_1.window (ix1 n) a < S512.size a
  · rw [dif_pos hc, Option.some.injEq]
    constructor
    · intro he
      have e0 : (scatter_S512_S50000x1_S50000_n_0_0_1.start (ix1 n) idc 0 + scatter_S512_S50000x1_S50000_n_0_0_1.window (ix1 n) 0).toNat = g.val := congrArg (fun f => (f 0).val) he
      have c0 := (hc 0).1
      rw [hs0, hw0] at e0 c0
      exact (ref_toInt_eq_iff _ g).1 (by omega)
    · intro ha
      have ha' := (ref_toInt_eq_iff _ g).2 ha
      funext a
      match a with
      | ⟨0, _⟩ =>
        apply Fin.ext
        show (scatter_S512_S50000x1_S50000_n_0_0_1.start (ix1 n) idc 0 + scatter_S512_S50000x1_S50000_n_0_0_1.window (ix1 n) 0).toNat = g.val
        rw [hs0, hw0]; omega
  · rw [dif_neg hc]
    constructor
    · intro h; cases h
    · intro ha
      have ha' := (ref_toInt_eq_iff _ g).2 ha
      exfalso; apply hc
      intro a
      match a with
      | ⟨0, _⟩ =>
        show 0 ≤ scatter_S512_S50000x1_S50000_n_0_0_1.start (ix1 n) idc 0 + scatter_S512_S50000x1_S50000_n_0_0_1.window (ix1 n) 0 ∧ scatter_S512_S50000x1_S50000_n_0_0_1.start (ix1 n) idc 0 + scatter_S512_S50000x1_S50000_n_0_0_1.window (ix1 n) 0 < S512.size 0
        rw [hs0, hw0, hz0]; omega

/-- The second scatter-add read at g: the operand there plus the updates of the nodes that carry id g. -/
theorem scatterCnt_at (x : FVec Ideal S512 .f32) (idc : IVec S50000x1 32) (u : FVec Ideal S50000 .f32) (g : Fin 512) :
    Host.scatterAdd (F := Ideal) (φ := .f32) scatter_S512_S50000x1_S50000_n_0_0_1 x idc u (ix1 g) = x (ix1 g) + ∑ n : Fin 50000, oh (idc (ix2 n 0)) g * u (ix1 n) := by
  unfold Host.scatterAdd
  rw [Ideal.hostScatterAdd_def]
  unfold Ideal.hostScatterAdd
  refine congrArg (fun z => x (ix1 g) + z) ?_
  rw [Finset.sum_filter, ref_sum_ix1]
  refine Finset.sum_congr rfl fun n _ => ?_
  simp only [sc2_result]
  unfold oh
  by_cases ha : idc (ix2 n 0) = BitVec.ofNat 32 g.val
  · simp only [ha, if_true, one_mul]
  · simp only [ha, if_false, zero_mul]

open Cert.ReferenceIdeal.ReadP in
/-- The tail's matrix product read at (g, 0): the sum over the 128 columns of the pooled row times the weight. -/
theorem tailDot_at (y : FVec Ideal S512x128 .f32) (w : FVec Ideal S128x1 .f32) (g : Fin 512) :
    Host.dotGeneral (F := Ideal) dot_S512x128_S128x1_S512x1_1_0_0_1_n_n none y w (ix2 g 0) = ∑ k : Fin 128, y (ix2 g k) * w (ix2 k 0) := by
  simp only [Host.dotGeneral]
  rw [Ideal.dotGeneral_apply, ← Equiv.sum_comp (ValueIdx.contrEquiv1 dot_S512x128_S128x1_S512x1_1_0_0_1_n_n 128 rfl rfl).symm]
  refine Finset.sum_congr rfl fun k _ => ?_
  have hk := ValueIdx.contrEquiv1_symm_val dot_S512x128_S128x1_S512x1_1_0_0_1_n_n 128 rfl rfl k
  have el : dot_S512x128_S128x1_S512x1_1_0_0_1_n_n.lhsIdx (ix2 g 0) ((ValueIdx.contrEquiv1 dot_S512x128_S128x1_S512x1_1_0_0_1_n_n 128 rfl rfl).symm k) = ix2 g k := funext fun a => Fin.ext (by
    match a with
    | ⟨0, _⟩ => exact lhs_main_v104_0 _ _
    | ⟨1, _⟩ => exact (lhs_main_v104_1 _ _).trans hk)
  have er : dot_S512x128_S128x1_S512x1_1_0_0_1_n_n.rhsIdx (ix2 g 0) ((ValueIdx.contrEquiv1 dot_S512x128_S128x1_S512x1_1_0_0_1_n_n 128 rfl rfl).symm k) = ix2 k 0 := funext fun a => Fin.ext (by
    match a with
    | ⟨0, _⟩ => exact (rhs_main_v104_0 _ _).trans hk
    | ⟨1, _⟩ => exact rhs_main_v104_1 _ _)
  rw [el, er]

/-- The word 0x3F800000 is the number one. -/
theorem ref_ofBits_one_f32 : Ideal.ofBits .f32 0x3F800000#32 = 1 := by
  simp [Ideal.ofBits, Ideal.ieee, -EReal.coe_mul]; norm_num

/-- One over one plus the exponential of the negation is the logistic function. -/
theorem ref_logistic_read (one1 one2 z : FVec Ideal S512x1 .f32) (i : S512x1.Idx) (h1 : one1 i = 1) (h2 : one2 i = 1) :
    Host.divf (F := Ideal) one1 (addf one2 (Host.exp (Host.negf z))) i = Ideal.logistic (z i) := by
  show Ideal.div (one1 i) (one2 i + Ideal.exp (-(z i))) = _
  rw [h1, h2]; rfl

/-- The quotient of two arrays read at an index. -/
theorem ref_hostDivf_at {s : Shape} (a c : FVec Ideal s .f32) (i : s.Idx) : Host.divf (F := Ideal) a c i = Ideal.div (a i) (c i) := rfl

/-- A scalar broadcast to any shape reads the scalar everywhere. -/
theorem ref_bcast0_at {s : Shape} {α : Type} (hb : S_.BroadcastsInDim s ![]) (c : S_.Idx → α) (i : s.Idx) :
    broadcastInDim s ![] hb c i = c ix0 :=
  broadcastInDim_apply _ hb c i ix0 (fun a => a.elim0)

/-- The id column: row n of the ids written as a 50000×1 array is the id of node n. -/
theorem idcol_at (b : IVec S50000 32) (n : Fin 50000) :
    broadcastInDim S50000x1 ![0] bcast_S50000_S50000x1_0 b (ix2 n 0) = b (ix1 n) :=
  broadcastInDim_apply _ bcast_S50000_S50000x1_0 b (ix2 n 0) (ix1 n) (fun a => match a with
    | ⟨0, _⟩ => by show n.val = if (50000 : Nat) = 1 then 0 else n.val; rw [if_neg (by decide)])

/-- The bias broadcast to 512×1 reads the one bias everywhere. -/
theorem biasB_at (bias : FVec Ideal S1 .f32) (g : Fin 512) :
    broadcastInDim S512x1 ![0, 1] bcast_S1x1_S512x1_0_1 (broadcastInDim S1x1 ![1] bcast_S1_S1x1_1 bias) (ix2 g 0) = bias (ix1 0) := by
  refine (broadcastInDim_apply _ bcast_S1x1_S512x1_0_1 _ (ix2 g 0) (ix2 0 0) (fun a => match a with
    | ⟨0, _⟩ => by show 0 = if (1 : Nat) = 1 then 0 else g.val; rw [if_pos rfl]
    | ⟨1, _⟩ => by show 0 = if (1 : Nat) = 1 then 0 else 0; rw [if_pos rfl])).trans ?_
  exact broadcastInDim_apply _ bcast_S1_S1x1_1 bias (ix2 0 0) (ix1 0) (fun a => match a with
    | ⟨0, _⟩ => by show 0 = if (1 : Nat) = 1 then 0 else 0; rw [if_pos rfl])

/-- A per-graph vector broadcast along the feature axis reads its entry of the graph at every column. -/
theorem colB_at (m : FVec Ideal S512 .f32) (g : Fin 512) (k : Fin 128) :
    broadcastInDim S512x128 ![0, 1] bcast_S512x1_S512x128_0_1 (broadcastInDim S512x1 ![0] bcast_S512_S512x1_0 m) (ix2 g k) = m (ix1 g) := by
  refine (broadcastInDim_apply _ bcast_S512x1_S512x128_0_1 _ (ix2 g k) (ix2 g 0) (fun a => match a with
    | ⟨0, _⟩ => by show g.val = if (512 : Nat) = 1 then 0 else g.val; rw [if_neg (by decide)]
    | ⟨1, _⟩ => by show 0 = if (1 : Nat) = 1 then 0 else k.val; rw [if_pos rfl])).trans ?_
  exact broadcastInDim_apply _ bcast_S512_S512x1_0 m (ix2 g 0) (ix1 g) (fun a => match a with
    | ⟨0, _⟩ => by show g.val = if (512 : Nat) = 1 then 0 else g.val; rw [if_neg (by decide)])

/-- The per-graph sums: the first scatter-add from zeros at (g, d) is the sum of the rows of the nodes with id g. -/
theorem refSum_at (h : FVec Ideal S50000x128 .f32) (b : IVec S50000 32) (g : Fin 512) (d : Fin 128) :
    Host.scatterAdd (F := Ideal) (φ := .f32) scatter_S512x128_S50000x1_S50000x128_1_0_0_1 (broadcastInDim S512x128 ![] bcast_S_S512x128 (constant (F := Ideal) S_ .f32 0x00000000#32))
      (broadcastInDim S50000x1 ![0] bcast_S50000_S50000x1_0 b) h (ix2 g d) = ∑ n : Fin 50000, oh (b (ix1 n)) g * h (ix2 n d) := by
  refine (scatterSum_at _ _ h g d).trans ?_
  have hz : broadcastInDim S512x128 ![] bcast_S_S512x128 (constant (F := Ideal) S_ .f32 0x00000000#32) (ix2 g d) = (0 : EReal) :=
    (ref_bcast0_at bcast_S_S512x128 _ _).trans Ideal.ofBits_zero_f32
  rw [hz, zero_add]
  refine Finset.sum_congr rfl fun n _ => ?_
  rw [idcol_at b n]

/-- The per-graph counts: the second scatter-add of ones from zeros at g is the number of nodes with id g. -/
theorem refCnt_at (b : IVec S50000 32) (g : Fin 512) :
    Host.scatterAdd (F := Ideal) (φ := .f32) scatter_S512_S50000x1_S50000_n_0_0_1 (broadcastInDim S512 ![] bcast_S_S512 (constant (F := Ideal) S_ .f32 0x00000000#32))
      (broadcastInDim S50000x1 ![0] bcast_S50000_S50000x1_0 b) (broadcastInDim S50000 ![] bcast_S_S50000 (constant (F := Ideal) S_ .f32 0x3F800000#32)) (ix1 g)
      = ∑ n : Fin 50000, oh (b (ix1 n)) g := by
  refine (scatterCnt_at _ _ _ g).trans ?_
  have hz : broadcastInDim S512 ![] bcast_S_S512 (constant (F := Ideal) S_ .f32 0x00000000#32) (ix1 g) = (0 : EReal) :=
    (ref_bcast0_at bcast_S_S512 _ _).trans Ideal.ofBits_zero_f32
  rw [hz, zero_add]
  refine Finset.sum_congr rfl fun n _ => ?_
  have ho : broadcastInDim S50000 ![] bcast_S_S50000 (constant (F := Ideal) S_ .f32 0x3F800000#32) (ix1 n) = (1 : EReal) :=
    (ref_bcast0_at bcast_S_S50000 _ _).trans ref_ofBits_one_f32
  rw [ho, mul_one, idcol_at b n]

/-- The reference's pooling tail at graph g is the closed form. -/
theorem refTail_at (h : Vec Ideal S50000x128 .f32) (b : Vec Ideal S50000 .i32) (w : Vec Ideal S128x1 .f32) (bias : Vec Ideal S1 .f32) (g : Fin 512) :
    Cert.Bridge.refTail (F := Ideal) h b w bias (ix1 g) = poolAt h (fun n => b (ix1 n)) w bias g := by
  unfold Cert.Bridge.refTail
  refine (shapeCast_apply _ shapeCasts_S512x1_S512 (ix1 g) (ix2 g 0) ?_).trans ?_
  · rw [Shape.rowMajor_val_two, Shape.rowMajor_val_one]; show g.val * 1 + 0 = g.val; omega
  refine (ref_logistic_read _ _ _ (ix2 g 0) ((ref_bcast0_at bcast_S_S512x1 _ _).trans ref_ofBits_one_f32) ((ref_bcast0_at bcast_S_S512x1 _ _).trans ref_ofBits_one_f32)).trans ?_
  unfold poolAt
  refine congrArg Ideal.logistic ?_
  refine (addf_apply _ _ _).trans ?_
  refine congrArg₂ (· + ·) ?_ (biasB_at bias g)
  refine (tailDot_at _ w g).trans ?_
  refine Finset.sum_congr rfl fun k _ => ?_
  refine congrArg (· * w (ix2 k 0)) ?_
  refine (ref_hostDivf_at _ _ _).trans ?_
  refine congrArg₂ Ideal.div (refSum_at h b g k) ?_
  refine (colB_at _ g k).trans ?_
  refine (maximumf_apply _ _ _).trans ?_
  refine congrArg₂ max (refCnt_at b g) ?_
  exact (ref_bcast0_at bcast_S_S512 _ _).trans ref_ofBits_one_f32

end RefSide

/-! ## The kernel's result in closed form, and the join with the reference -/

/-- The result array after the pooling region, graph by graph: the closed form over the arrays as entered. -/
theorem kernel_at (c : Dev nD) (g : Fin 512) :
    (dat2 (F := Ideal) V c).arrAt 4 cfg2.N (ix1 g)
      = poolAt (V c main_v92) (fun n => V c main_v4 (ix2 n 0)) (V c main_arg5) (V c main_arg6) g := by
  rw [pool_arr V c]
  unfold res2
  rw [k2_pay6_at, iblk2_2_eq V c tLast, iblk2_3_eq V c tLast, nAcc_last V c g]
  simp only [sAcc_last V c g]
  rfl

/-- The ids as a column are the ids: the reshape [50000] → [50000, 1] keeps the row-major position. -/
theorem ids_col (c : Dev nD) (hb : V c main_v4 = shapeCast S50000x1 (V c main_arg8) shapeCasts_S50000_S50000x1) (n : Fin 50000) :
    V c main_v4 (ix2 n 0) = V c main_arg8 (ix1 n) := by
  rw [hb]
  refine shapeCast_apply _ _ (ix2 n 0) (ix1 n) ?_
  have h1 := Shape.rowMajor_val_one (d := ![50000]) (ix1 n)
  have h2 := Shape.rowMajor_val_two (d := ![50000, 1]) (ix2 n 0)
  refine h1.trans (Eq.trans ?_ h2.symm)
  show n.val = n.val * 1 + 0
  omega

/-- The pooling region leaves in its result array what the reference's pooling tail computes from the same node
    features, graph ids, weight and bias. -/
theorem pool_value (c : Dev nD)
    (hb : V c main_v4 = shapeCast S50000x1 (V c main_arg8) shapeCasts_S50000_S50000x1) :
    (dat2 (F := Ideal) V c).arrAt 4 cfg2.N
      = Cert.Bridge.refTail (F := Ideal) (V c main_v92) (V c main_arg8) (V c main_arg5) (V c main_arg6) := by
  funext j
  have hj : j = ix1 (⟨(j 0).val, (j 0).isLt⟩ : Fin 512) := funext fun a => match a with | ⟨0, _⟩ => rfl
  rw [hj]
  generalize (⟨(j 0).val, (j 0).isLt⟩ : Fin 512) = g
  rw [kernel_at V c g, refTail_at, show (fun n => V c main_v4 (ix2 n 0)) = fun n => V c main_arg8 (ix1 n) from funext (ids_col V c hb)]

end Cert.KernelIdeal.Gen

end
-- ==== Proof.Bridge.Final.lean ====
/-
  The end of the argument. The first region's array is the whole product `x · w1`; the host operations after it are one
  graph-convolution layer, so the second region's left factor is the reference's first-layer output and its array the
  reference's second product; the host operations after that are the second layer, so the pooling region's features are the
  reference's second-layer output; and the pooling region's result is the reference's pooling tail of them. Hence the
  kernel's result buffer ends at the reference's result, as one function of the arguments as launched.
-/
import proofs.«409795_j15513421873661_1_alg».proof.Proof.KI.HostGlue
import proofs.«409795_j15513421873661_1_alg».proof.Proof.KI.MatValue
import proofs.«409795_j15513421873661_1_alg».proof.Proof.KI.PoolValue

set_option maxRecDepth 16384

noncomputable section

namespace Cert.KernelIdeal.Gen

open Idealize.ShloMosaic Idealize.ShloMosaic.TcCoe
open Idealize.SL Idealize.SL.Sem
open Cert.ReferenceIdeal.ReadP (val_main_v4 val_main_v47 val_main_v48 val_main_v91 val_main_v114)

variable (m : (ℓ : Loc nD τ sig) → Buf (Elt Ideal) ℓ) (ρ : Dev nD → PrngReg)

/-- The first region's array is the reference's first product, of the arguments as launched. -/
theorem first_product (c : Dev nD) :
    Y2 m ρ c (Proc.devRef .tc main_v5)
      = val_main_v4 (F := Ideal) (m ((c : Thread nD τ).loc main_arg0)) (m ((c : Thread nD τ).loc main_arg1)) := by
  refine (Y2_arr m ρ c 2).trans ?_
  rw [product0 (Yr1 m ρ) c, Y1_arg m ρ c main_arg0 (by decide), Y1_arg m ρ c main_arg1 (by decide)]
  rfl

/-- The second region's array is the reference's second product: of the first layer's output and the second weight. -/
theorem second_product (c : Dev nD) :
    Y7 m ρ c (Proc.devRef .tc main_v49)
      = val_main_v48 (F := Ideal) (m ((c : Thread nD τ).loc main_arg0)) (m ((c : Thread nD τ).loc main_arg1)) (m ((c : Thread nD τ).loc main_arg2))
          (m ((c : Thread nD τ).loc main_arg3)) (m ((c : Thread nD τ).loc main_arg7)) := by
  refine (Y7_arr m ρ c 2).trans ?_
  rw [product1 (Yr6 m ρ) c, Y6_arg m ρ c main_arg3 (by decide) (by decide) (by decide) (by decide) (by decide) (by decide)]
  show Host.dotGeneral (F := Ideal) (φ₁ := .f32) (φ₂ := .f32) Cert.ReferenceIdeal.dot_S50000x128_S128x128_S50000x128_1_0_0_1_n_n none
      (Y6 m ρ c (Proc.devRef .tc main_v48)) (m ((c : Thread nD τ).loc main_arg3)) = _
  rw [glue1 m ρ c, first_product m ρ c, ← Cert.Bridge.layer1_ref]
  rfl

/-- THE VALUE: the result buffer's final contents are the reference's result, of the arguments as launched. -/
theorem final_eq (c : Dev nD) :
    (dat2 (F := Ideal) (Yr11 m ρ) c).arrAt 4 cfg2.N
      = val_main_v114 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  have h8 : Yr11 m ρ c main_arg8 = m ((c : Thread nD τ).loc main_arg8) := Y11_arg m ρ c main_arg8 (by decide) (by decide) (by decide) (by decide) (by decide) (by decide) (by decide) (by decide) (by decide) (by decide) (by decide)
  have hb : Yr11 m ρ c main_v4 = shapeCast S50000x1 (Yr11 m ρ c main_arg8) shapeCasts_S50000_S50000x1 := by
    rw [h8]; exact Y11_ids m ρ c
  rw [pool_value (Yr11 m ρ) c hb, Cert.Bridge.tail_ref, h8, Y11_arg m ρ c main_arg5 (by decide) (by decide) (by decide) (by decide) (by decide) (by decide) (by decide) (by decide) (by decide) (by decide) (by decide), Y11_arg m ρ c main_arg6 (by decide) (by decide) (by decide) (by decide) (by decide) (by decide) (by decide) (by decide) (by decide) (by decide) (by decide)]
  show Cert.Bridge.refTail (F := Ideal) (Y11 m ρ c (Proc.devRef .tc main_v92)) _ _ _ = _
  rw [glue2 m ρ c, second_product m ρ c, ← Cert.Bridge.layer2_ref]

end Cert.KernelIdeal.Gen

end
-- ==== Proof.lean ====
/-
  The certificate's claim, assembled. The kernel is a two-layer graph convolution followed by a global mean pool, a linear
  map and a sigmoid: two tiled matrix products and one pooling kernel run as regions, with the irregular neighbour
  aggregation in plain host operations between them; the reference is the same network in plain array operations.
  * The word-level program and its idealization each run to the end from any memory, nothing faulting, and leave their
    argument arrays unchanged: the three regions are segments of one launch over the thread state "every unscoped buffer at
    the boundary's contents" (Proof/K/Run.lean, Proof/KI/Run.lean, the same text in the two programs' namespaces).
  * The reference runs likewise: its run read back operation by operation.
  * The idealization is the program's own text read over the extended reals: the ideal pass rewrote nothing.
  * Over the extended reals the two results are equal: each matrix product, tile by tile into a zero accumulator, is the
    whole product; the host operations between the regions are literally the reference's layer arithmetic; and the pooling
    kernel's one-hot products accumulated over 25 tiles are the reference's scatter-adds, sum and count, after which both
    sides divide, map, add the bias and apply the logistic function alike (Proof/Bridge/Final.lean).
-/
import proofs.«409795_j15513421873661_1_alg».proof.Defs
import proofs.«409795_j15513421873661_1_alg».proof.Proof.Gen.Kernel
import proofs.«409795_j15513421873661_1_alg».proof.Proof.Gen.KernelIdeal
import proofs.«409795_j15513421873661_1_alg».proof.Proof.Gen.ReferenceIdeal
import proofs.«409795_j15513421873661_1_alg».proof.Proof.Gen.Pre_finite_inputs
import proofs.«409795_j15513421873661_1_alg».proof.Proof.K.Run
import proofs.«409795_j15513421873661_1_alg».proof.Proof.KI.Run
import proofs.«409795_j15513421873661_1_alg».proof.Proof.Bridge.Final
import Idealize.ShloMosaic.Adequacy
import Idealize.ShloMosaic.Init

noncomputable section

namespace Cert.Proof

open Idealize.ShloMosaic Idealize.SL.Sem

/-- The word-level program runs and keeps its arguments. -/
theorem frame_p : Cert.frame_Kernel := fun m ρ _ => Cert.Kernel.Gen.frame_all m ρ

/-- The idealized program runs and keeps its arguments. -/
theorem frame_pi : Cert.frame_KernelIdeal := fun m ρ _ => Cert.KernelIdeal.Gen.frame_all m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten by the ideal pass. -/
theorem preserves : Cert.preserves_Kernel_KernelIdeal := trivial

/-- Over the extended reals, from memories agreeing on the arguments, both programs end with the same 512 results: the
    kernel's result buffer at what the pooling region's last point stored, which is the reference's result as a function of
    the arguments (`final_eq`). -/
theorem algebraic : Cert.algebraic_KernelIdeal_ReferenceIdeal := by
  intro m ρ m' ρ' _ hagree
  refine ⟨fun c => (Cert.KernelIdeal.Gen.dat2 (F := Ideal) (Cert.KernelIdeal.Gen.Yr11 m ρ) c).arrAt 4 Cert.KernelIdeal.cfg2.N,
    Cert.KernelIdeal.Gen.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v114_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  exact (Cert.KernelIdeal.Gen.final_eq m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
